-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x9 : Shape := ⟨2, ![150000, 9]⟩
abbrev S2x2400000 : Shape := ⟨2, ![2, 2400000]⟩
abbrev S2400000 : Shape := ⟨1, ![2400000]⟩
abbrev S9x32 : Shape := ⟨2, ![9, 32]⟩
abbrev S32 : Shape := ⟨1, ![32]⟩
abbrev S32x7 : Shape := ⟨2, ![32, 7]⟩
abbrev S7 : Shape := ⟨1, ![7]⟩
abbrev S_ : Shape := ⟨0, ![]⟩

class Facts : Prop where
  bcast_S_S150000x9 : S_.BroadcastsInDim S150000x9 (![] : Fin 0 → Fin S150000x9.rank)
  reducesTo_S150000x9_S_d0_1 : S150000x9.ReducesTo [0, 1] S_
  h_S_ : 0 < S_.numel
  bcast_S_S2400000 : S_.BroadcastsInDim S2400000 (![] : Fin 0 → Fin S2400000.rank)
  reducesTo_S2400000_S_d0 : S2400000.ReducesTo [0] S_
  bcast_S_S9x32 : S_.BroadcastsInDim S9x32 (![] : Fin 0 → Fin S9x32.rank)
  reducesTo_S9x32_S_d0_1 : S9x32.ReducesTo [0, 1] S_
  bcast_S_S32 : S_.BroadcastsInDim S32 (![] : Fin 0 → Fin S32.rank)
  reducesTo_S32_S_d0 : S32.ReducesTo [0] S_
  bcast_S_S32x7 : S_.BroadcastsInDim S32x7 (![] : Fin 0 → Fin S32x7.rank)
  reducesTo_S32x7_S_d0_1 : S32x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S32x7 .f32) (main_arg6 : FVec F S7 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x7 .f32 := Host.absf main_arg5
  let main_cst_6 : FVec F S_ .f32 := constant S_ .f32 0x7F800000#32
  let main_v20 : FVec F S32x7 .f32 := broadcastInDim S32x7 ![] bcast_S_S32x7 main_cst_6
  let main_v21 : IVec S32x7 1 := cmpf .olt main_v19 main_v20
  let main_c_7 : IVec S_ 1 := constantI S_ 1 1#1
  let main_v22 : IVec S_ 1 := (fun x v => Host.reduce IntOp.andi x v reducesTo_S32x7_S_d0_1 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S150000x9 .f32) (main_arg1 : IVec S2x2400000 32) (main_arg2 : FVec F S2400000 .f32) (main_arg3 : FVec F S9x32 .f32) (main_arg4 : FVec F S32 .f32) (main_arg5 : FVec F S32x7 .f32) (main_arg6 : FVec F S7 .f32) : IVec S_ 1 :=
  let main_v0 : FVec F S150000x9 .f32 := Host.absf main_arg0
  let main_cst : FVec F S_ .f32 := constant S_ .f32 0x7F800000#32
  let main_v1 : FVec F S150000x9 .f32 := broadcastInDim S150000x9 ![] bcast_S_S150000x9 main_cst
  let main_v2 : IVec S150000x9 1 := cmpf .olt main_v0 main_v1
  let main_c : IVec S_ 1 := constantI S_ 1 1#1
  let main_v3 : IVec S_ 1 := (fun x v => Host.reduce IntOp.andi x v reducesTo_S150000x9_S_d0_1 h_S_) main_v2 main_c
  let main_v4 : FVec F S2400000 .f32 := Host.absf main_arg2
  let main_cst_0 : FVec F S_ .f32 := constant S_ .f32 0x7F800000#32
  let main_v5 : FVec F S2400000 .f32 := broadcastInDim S2400000 ![] bcast_S_S2400000 main_cst_0
  let main_v6 : IVec S2400000 1 := cmpf .olt main_v4 main_v5
  let main_c_1 : IVec S_ 1 := constantI S_ 1 1#1
  let main_v7 : IVec S_ 1 := (fun x v => Host.reduce IntOp.andi x v reducesTo_S2400000_S_d0 h_S_) main_v6 main_c_1
  let main_v8 : IVec S_ 1 := andi main_v3 main_v7
  let main_v9 : FVec F S9x32 .f32 := Host.absf main_arg3
  let main_cst_2 : FVec F S_ .f32 := constant S_ .f32 0x7F800000#32
  let main_v10 : FVec F S9x32 .f32 := broadcastInDim S9x32 ![] bcast_S_S9x32 main_cst_2
  let main_v11 : IVec S9x32 1 := cmpf .olt main_v9 main_v10
  let main_c_3 : IVec S_ 1 := constantI S_ 1 1#1
  let main_v12 : IVec S_ 1 := (fun x v => Host.reduce IntOp.andi x v reducesTo_S9x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S150000x9 : Shape := ⟨2, ![150000, 9]⟩
abbrev S2x2400000 : Shape := ⟨2, ![2, 2400000]⟩
abbrev S2400000 : Shape := ⟨1, ![2400000]⟩
abbrev S9x32 : Shape := ⟨2, ![9, 32]⟩
abbrev S32 : Shape := ⟨1, ![32]⟩
abbrev S32x7 : Shape := ⟨2, ![32, 7]⟩
abbrev S7 : Shape := ⟨1, ![7]⟩
abbrev S1x2400000 : Shape := ⟨2, ![1, 2400000]⟩
abbrev S150000 : Shape := ⟨1, ![150000]⟩
abbrev S2550000 : Shape := ⟨1, ![2550000]⟩
abbrev S_ : Shape := ⟨0, ![]⟩
abbrev S2550000x1 : Shape := ⟨2, ![2550000, 1]⟩
abbrev S150000x32 : Shape := ⟨2, ![150000, 32]⟩
abbrev S3000x9 : Shape := ⟨2, ![3000, 9]⟩
abbrev S3000x32 : Shape := ⟨2, ![3000, 32]⟩
abbrev S2550000x32 : Shape := ⟨2, ![2550000, 32]⟩
abbrev S4080x32 : Shape := ⟨2, ![4080, 32]⟩
abbrev S4080x1 : Shape := ⟨2, ![4080, 1]⟩
abbrev S1x32 : Shape := ⟨2, ![1, 32]⟩
abbrev S150000x7 : Shape := ⟨2, ![150000, 7]⟩
abbrev S3000x7 : Shape := ⟨2, ![3000, 7]⟩
abbrev S2550000x7 : Shape := ⟨2, ![2550000, 7]⟩
abbrev S4080x7 : Shape := ⟨2, ![4080, 7]⟩
abbrev S1x7 : Shape := ⟨2, ![1, 7]⟩
abbrev S3000 : Shape := ⟨1, ![3000]⟩
abbrev S3000x1 : Shape := ⟨2, ![3000, 1]⟩

abbrev nBuf : Space → Nat
  | .hbm => 85
  | .vmem => 32
  | .smem => 0
  | _ => 0

abbrev bufTy : (tb : Table) → Fin (tcTables nBuf tb) → BufTy
  | .hbm, ⟨0, _⟩ => ⟨S150000x9, .f32⟩
  | .hbm, ⟨1, _⟩ => ⟨S2x2400000, .i32⟩
  | .hbm, ⟨2, _⟩ => ⟨S2400000, .f32⟩
  | .hbm, ⟨3, _⟩ => ⟨S9x32, .f32⟩
  | .hbm, ⟨4, _⟩ => ⟨S32, .f32⟩
  | .hbm, ⟨5, _⟩ => ⟨S32x7, .f32⟩
  | .hbm, ⟨6, _⟩ => ⟨S7, .f32⟩
  | .hbm, ⟨7, _⟩ => ⟨S1x2400000, .i32⟩
  | .hbm, ⟨8, _⟩ => ⟨S2400000, .i32⟩
  | .hbm, ⟨9, _⟩ => ⟨S1x2400000, .i32⟩
  | .hbm, ⟨10, _⟩ => ⟨S2400000, .i32⟩
  | .hbm, ⟨11, _⟩ => ⟨S150000, .i32⟩
  | .hbm, ⟨12, _⟩ => ⟨S2550000, .i32⟩
  | .hbm, ⟨13, _⟩ => ⟨S2550000, .i32⟩
  | .hbm, ⟨14, _⟩ => ⟨S_, .f32⟩
  | .hbm, ⟨15, _⟩ => ⟨S150000, .f32⟩
  | .hbm, ⟨16, _⟩ => ⟨S2550000, .f32⟩
  | .hbm, ⟨17, _⟩ => ⟨S_, .f32⟩
  | .hbm, ⟨18, _⟩ => ⟨S150000, .f32⟩
  | .hbm, ⟨19, _⟩ => ⟨S2550000x1, .i32⟩
  | .hbm, ⟨20, _⟩ => ⟨S150000, .f32⟩
  | .hbm, ⟨21, _⟩ => ⟨S_, .f32⟩
  | .hbm, ⟨22, _⟩ => ⟨S150000, .f32⟩
  | .hbm, ⟨23, _⟩ => ⟨S150000, .i1⟩
  | .hbm, ⟨24, _⟩ => ⟨S150000, .f32⟩
  | .hbm, ⟨25, _⟩ => ⟨S_, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S_, .i32⟩
  | .hbm, ⟨30, _⟩ => ⟨S2550000, .i32⟩
  | .hbm, ⟨31, _⟩ => ⟨S2550000, .i1⟩
  | .hbm, ⟨32, _⟩ => ⟨S_, .i32⟩
  | .hbm, ⟨33, _⟩ => ⟨S2550000, .i32⟩
  | .hbm, ⟨34, _⟩ => ⟨S2550000, .i32⟩
  | .hbm, ⟨35, _⟩ => ⟨S2550000, .i32⟩
  | .hbm, ⟨36, _⟩ => ⟨S2550000x1, .i32⟩
  | .hbm, ⟨37, _⟩ => ⟨S2550000, .f32⟩
  | .hbm, ⟨38, _⟩ => ⟨S2550000, .f32⟩
  | .hbm, ⟨39, _⟩ => ⟨S_, .i32⟩
  | .hbm, ⟨40, _⟩ => ⟨S2550000, .i32⟩
  | .hbm, ⟨41, _⟩ => ⟨S2550000, .i1⟩
  | .hbm, ⟨42, _⟩ => ⟨S_, .i32⟩
  | .hbm, ⟨43, _⟩ => ⟨S2550000, .i32⟩
  | .hbm, ⟨44, _⟩ => ⟨S2550000, .i32⟩
  | .hbm, ⟨45, _⟩ => ⟨S2550000, .i32⟩
  | .hbm, ⟨46, _⟩ => ⟨S2550000x1, .i32⟩
  | .hbm, ⟨47, _⟩ => ⟨S2550000, .f32⟩
  | .hbm, ⟨48, _⟩ => ⟨S2550000, .f32⟩
  | .hbm, ⟨49, _⟩ => ⟨S150000x32, .f32⟩
  | .hbm, ⟨50, _⟩ => ⟨S_, .i32⟩
  | .hbm, ⟨51, _⟩ => ⟨S2550000, .i32⟩
  | .hbm, ⟨52, _⟩ => ⟨S2550000, .i1⟩
  | .hbm, ⟨53, _⟩ => ⟨S_, .i32⟩
  | .hbm, ⟨54, _⟩ => ⟨S2550000, .i32⟩
  | .hbm, ⟨55, _⟩ => ⟨S2550000, .i32⟩
  | .hbm, ⟨56, _⟩ => ⟨S2550000, .i32⟩
  | .hbm, ⟨57, _⟩ => ⟨S2550000x1, .i32⟩
  | .hbm, ⟨58, _⟩ => ⟨S2550000x32, .f32⟩
  | .hbm, ⟨59, _⟩ => ⟨S2550000x1, .f32⟩
  | .hbm, ⟨60, _⟩ => ⟨S2550000x32, .f32⟩
  | .hbm, ⟨61, _⟩ => ⟨S_, .f32⟩
  | .hbm, ⟨62, _⟩ => ⟨S150000x32, .f32⟩
  | .hbm, ⟨63, _⟩ => ⟨S2550000x1, .i32⟩
  | .hbm, ⟨64, _⟩ => ⟨S150000x32, .f32⟩
  | .hbm, ⟨65, _⟩ => ⟨S1x32, .f32⟩
  | .hbm, ⟨66, _⟩ => ⟨S150000x32, .f32⟩
  | .hbm, ⟨67, _⟩ => ⟨S150000x7, .f32⟩
  | .hbm, ⟨68, _⟩ => ⟨S_, .i32⟩
  | .hbm, ⟨69, _⟩ => ⟨S2550000, .i32⟩
  | .hbm, ⟨70, _⟩ => ⟨S2550000, .i1⟩
  | .hbm, ⟨71, _⟩ => ⟨S_, .i32⟩
  | .hbm, ⟨72, _⟩ => ⟨S2550000, .i32⟩
  | .hbm, ⟨73, _⟩ => ⟨S2550000, .i32⟩
  | .hbm, ⟨74, _⟩ => ⟨S2550000, .i32⟩
  | .hbm, ⟨75, _⟩ => ⟨S2550000x1, .i32⟩
  | .hbm, ⟨76, _⟩ => ⟨S2550000x7, .f32⟩
  | .hbm, ⟨77, _⟩ => ⟨S2550000x1, .f32⟩
  | .hbm, ⟨78, _⟩ => ⟨S2550000x7, .f32⟩
  | .hbm, ⟨79, _⟩ => ⟨S_, .f32⟩
  | .hbm, ⟨80, _⟩ => ⟨S150000x7, .f32⟩
  | .hbm, ⟨81, _⟩ => ⟨S2550000x1, .i32⟩
  | .hbm, ⟨82, _⟩ => ⟨S150000x7, .f32⟩
  | .hbm, ⟨83, _⟩ => ⟨S1x7, .f32⟩
  | .hbm, ⟨84, _⟩ => ⟨S150000x7, .f32⟩
  | .local _ .vmem, ⟨0, _⟩ => ⟨S3000x9, .f32⟩
  | .local _ .vmem, ⟨1, _⟩ => ⟨S3000x9, .f32⟩
  | .local _ .vmem, ⟨2, _⟩ => ⟨S9x32, .f32⟩
  | .local _ .vmem, ⟨3, _⟩ => ⟨S3000x32, .f32⟩
  | .local _ .vmem, ⟨4, _⟩ => ⟨S3000x32, .f32⟩
  | .local _ .vmem, ⟨5, _⟩ => ⟨S4080x32, .f32⟩
  | .local _ .vmem, ⟨6, _⟩ => ⟨S4080x32, .f32⟩
  | .local _ .vmem, ⟨7, _⟩ => ⟨S4080x1, .f32⟩
  | .local _ .vmem, ⟨8, _⟩ => ⟨S4080x1, .f32⟩
  | .local _ .vmem, ⟨9, _⟩ => ⟨S4080x32, .f32⟩
  | .local _ .vmem, ⟨10, _⟩ => ⟨S4080x32, .f32⟩
  | .local _ .vmem, ⟨11, _⟩ => ⟨S3000x32, .f32⟩
  | .local _ .vmem, ⟨12, _⟩ => ⟨S3000x32, .f32⟩
  | .local _ .vmem, ⟨13, _⟩ => ⟨S1x32, .f32⟩
  | .local _ .vmem, ⟨14, _⟩ => ⟨S3000x32, .f32⟩
  | .local _ .vmem, ⟨15, _⟩ => ⟨S3000x32, .f32⟩
  | .local _ .vmem, ⟨16, _⟩ => ⟨S3000x32, .f32⟩
  | .local _ .vmem, ⟨17, _⟩ => ⟨S3000x32, .f32⟩
  | .local _ .vmem, ⟨18, _⟩ => ⟨S32x7, .f32⟩
  | .local _ .vmem, ⟨19, _⟩ => ⟨S3000x7, .f32⟩
  | .local _ .vmem, ⟨20, _⟩ => ⟨S3000x7, .f32⟩
  | .local _ .vmem, ⟨21, _⟩ => ⟨S4080x7, .f32⟩
  | .local _ .vmem, ⟨22, _⟩ => ⟨S4080x7, .f32⟩
  | .local _ .vmem, ⟨23, _⟩ => ⟨S4080x1, .f32⟩
  | .local _ .vmem, ⟨24, _⟩ => ⟨S4080x1, .f32⟩
  | .local _ .vmem, ⟨25, _⟩ => ⟨S4080x7, .f32⟩
  | .local _ .vmem, ⟨26, _⟩ => ⟨S4080x7, .f32⟩
  | .local _ .vmem, ⟨27, _⟩ => ⟨S3000x7, .f32⟩
  | .local _ .vmem, ⟨28, _⟩ => ⟨S3000x7, .f32⟩
  | .local _ .vmem, ⟨29, _⟩ => ⟨S1x7, .f32⟩
  | .local _ .vmem, ⟨30, _⟩ => ⟨S3000x7, .f32⟩
  | .local _ .vmem, ⟨31, _⟩ => ⟨S3000x7, .f32⟩
  | _, _ => ⟨S150000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4080x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4080x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4080x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S3000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![625], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4080x7 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4080x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4080x7 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3000x7 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x7 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S3000x7 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  concatenates_S2400000_S150000_S2550000_d0 : Shape.Concatenates [S2400000, S150000] S2550000 0
  bcast_S_S150000 : S_.BroadcastsInDim S150000 (![] : Fin 0 → Fin S150000.rank)
  bcast_S2550000_S2550000x1_0 : S2550000.BroadcastsInDim S2550000x1 (![0] : Fin 1 → Fin S2550000x1.rank)
  bcast_S_S2550000 : S_.BroadcastsInDim S2550000 (![] : Fin 0 → Fin S2550000.rank)
  inb_S3000x9_S3000x9_0_0 : ∀ a, (![0, 0] : Fin 2 → Nat) a + S3000x9.size a ≤ S3000x9.size a
  h_S3000x9 : 0 < S3000x9.numel
  bitsLt_bf16_f32 : FTy.bits .bf16 < FTy.bits .f32
  inb_S9x32_S9x32_0_0 : ∀ a, (![0, 0] : Fin 2 → Nat) a + S9x32.size a ≤ S9x32.size a
  h_S9x32 : 0 < S9x32.numel
  inb_S3000x32_S3000x32_0_0 : ∀ a, (![0, 0] : Fin 2 → Nat) a + S3000x32.size a ≤ S3000x32.size a
  h_S3000x32 : 0 < S3000x32.numel
  inb_S4080x32_S4080x32_0_0 : ∀ a, (![0, 0] : Fin 2 → Nat) a + S4080x32.size a ≤ S4080x32.size a
  h_S4080x32 : 0 < S4080x32.numel
  shapeCasts_S4080x32_S4080x32 : S4080x32.ShapeCasts S4080x32
  inb_S4080x1_S4080x1_0_0 : ∀ a, (![0, 0] : Fin 2 → Nat) a + S4080x1.size a ≤ S4080x1.size a
  h_S4080x1 : 0 < S4080x1.numel
  shapeCasts_S4080x1_S4080x1 : S4080x1.ShapeCasts S4080x1
  broadcasts_S4080x1_S4080x32 : S4080x1.Broadcasts S4080x32
  bcast_S_S150000x32 : S_.BroadcastsInDim S150000x32 (![] : Fin 0 → Fin S150000x32.rank)
  shapeCasts_S32_S1x32 : S32.ShapeCasts S1x32
  shapeCasts_S3000x32_S3000x32 : S3000x32.ShapeCasts S3000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S3000x32 : S1x32.Broadcasts S3000x32
  inb_S32x7_S32x7_0_0 : ∀ a, (![0, 0] : Fin 2 → Nat) a + S32x7.size a ≤ S32x7.size a
  h_S32x7 : 0 < S32x7.numel
  inb_S3000x7_S3000x7_0_0 : ∀ a, (![0, 0] : Fin 2 → Nat) a + S3000x7.size a ≤ S3000x7.size a
  h_S3000x7 : 0 < S3000x7.numel
  inb_S4080x7_S4080x7_0_0 : ∀ a, (![0, 0] : Fin 2 → Nat) a + S4080x7.size a ≤ S4080x7.size a
  h_S4080x7 : 0 < S4080x7.numel
  shapeCasts_S4080x7_S4080x7 : S4080x7.ShapeCasts S4080x7
  broadcasts_S4080x1_S4080x7 : S4080x1.Broadcasts S4080x7
  bcast_S_S150000x7 : S_.BroadcastsInDim S150000x7 (![] : Fin 0 → Fin S150000x7.rank)
  shapeCasts_S7_S1x7 : S7.ShapeCasts S1x7
  shapeCasts_S3000x7_S3000x7 : S3000x7.ShapeCasts S3000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S3000x7 : S1x7.Broadcasts S3000x7
  reduces_S3000x7_S3000 : S3000x7.Reduces [1] S3000
  shapeCasts_S3000_S3000x1 : S3000.ShapeCasts S3000x1
  broadcasts_S3000x1_S3000x7 : S3000x1.Broadcasts S3000x7
  scatter_S150000_S2550000x1_S2550000_n_0_0_1_wf : ScatterDims.WF S150000 S2550000x1 S2550000 [] [0] [0] 1
  gather_S150000_S2550000x1_S2550000_n_0_n_n_0_1_1_wf : GatherDims.WF S150000 S2550000x1 S2550000 [] [0] [] [0] [] 1 ![1]
  dot_S3000x9_S9x32_S3000x32_1_0_0_1_n_n_wf : DotDims.WF S3000x9 S9x32 S3000x32 [1] [0] [0] [1] [] []
  gather_S150000x32_S2550000x1_S2550000x32_1_0_n_n_0_1_132_wf : GatherDims.WF S150000x32 S2550000x1 S2550000x32 [1] [0] [] [0] [] 1 ![1, 32]
  scatter_S150000x32_S2550000x1_S2550000x32_1_0_0_1_wf : ScatterDims.WF S150000x32 S2550000x1 S2550000x32 [1] [0] [0] 1
  dot_S3000x32_S32x7_S3000x7_1_0_0_1_n_n_wf : DotDims.WF S3000x32 S32x7 S3000x7 [1] [0] [0] [1] [] []
  gather_S150000x7_S2550000x1_S2550000x7_1_0_n_n_0_1_17_wf : GatherDims.WF S150000x7 S2550000x1 S2550000x7 [1] [0] [] [0] [] 1 ![1, 7]
  scatter_S150000x7_S2550000x1_S2550000x7_1_0_0_1_wf : ScatterDims.WF S150000x7 S2550000x1 S2550000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x9.size a ≤ S150000x9.size a
  hwx0_0 : ∀ i : grid0.Coords, EltTy.bits .f32 = 32 ∨ (Rect.block (s := S150000x9) S3000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x32.size a ≤ S9x32.size a
  hwx0_1 : ∀ i : grid0.Coords, EltTy.bits .f32 = 32 ∨ (Rect.block (s := S9x32) S9x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x32.size a ≤ S150000x32.size a
  hwx0_2 : ∀ i : grid0.Coords, EltTy.bits .f32 = 32 ∨ (Rect.block (s := S150000x32) S3000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4080x32.size a ≤ S2550000x32.size a
  hwx1_0 : ∀ i : grid1.Coords, EltTy.bits .f32 = 32 ∨ (Rect.block (s := S2550000x32) S4080x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4080x1.size a ≤ S2550000x1.size a
  hwx1_1 : ∀ i : grid1.Coords, EltTy.bits .f32 = 32 ∨ (Rect.block (s := S2550000x1) S4080x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4080x32.size a ≤ S2550000x32.size a
  hwx1_2 : ∀ i : grid1.Coords, EltTy.bits .f32 = 32 ∨ (Rect.block (s := S2550000x32) S4080x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x32.size a ≤ S150000x32.size a
  hwx2_0 : ∀ i : grid2.Coords, EltTy.bits .f32 = 32 ∨ (Rect.block (s := S150000x32) S3000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x32.size a ≤ S150000x32.size a
  hwx2_2 : ∀ i : grid2.Coords, EltTy.bits .f32 = 32 ∨ (Rect.block (s := S150000x32) S3000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x32.size a ≤ S150000x32.size a
  hwx3_0 : ∀ i : grid3.Coords, EltTy.bits .f32 = 32 ∨ (Rect.block (s := S150000x32) S3000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x7.size a ≤ S32x7.size a
  hwx3_1 : ∀ i : grid3.Coords, EltTy.bits .f32 = 32 ∨ (Rect.block (s := S32x7) S32x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3000x7.size a ≤ S150000x7.size a
  hwx3_2 : ∀ i : grid3.Coords, EltTy.bits .f32 = 32 ∨ (Rect.block (s := S150000x7) S3000x7.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4080x7.size a ≤ S2550000x7.size a
  hwx4_0 : ∀ i : grid4.Coords, EltTy.bits .f32 = 32 ∨ (Rect.block (s := S2550000x7) S4080x7.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4080x1.size a ≤ S2550000x1.size a
  hwx4_1 : ∀ i : grid4.Coords, EltTy.bits .f32 = 32 ∨ (Rect.block (s := S2550000x1) S4080x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4080x7.size a ≤ S2550000x7.size a
  hwx4_2 : ∀ i : grid4.Coords, EltTy.bits .f32 = 32 ∨ (Rect.block (s := S2550000x7) S4080x7.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3000x7.size a ≤ S150000x7.size a
  hwx5_0 : ∀ i : grid5.Coords, EltTy.bits .f32 = 32 ∨ (Rect.block (s := S150000x7) S3000x7.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x7.size a ≤ S1x7.size a
  hwx5_1 : ∀ i : grid5.Coords, EltTy.bits .f32 = 32 ∨ (Rect.block (s := S1x7) S1x7.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S3000x7.size a ≤ S150000x7.size a
  hwx5_2 : ∀ i : grid5.Coords, EltTy.bits .f32 = 32 ∨ (Rect.block (s := S150000x7) S3000x7.size (cc5_transform_2 i) (hinb5_2 i)).WholeWords (EltTy.packing .f32)

variable [Facts₀]

def scatter_S150000_S2550000x1_S2550000_n_0_0_1 : ScatterDims S150000 S2550000x1 S2550000 where
  updateWindowDims := []
  insertedWindowDims := [0]
  scatterDimsToOperandDims := [0]
  indexVectorDim := 1
  wf := scatter_S150000_S2550000x1_S2550000_n_0_0_1_wf
def gather_S150000_S2550000x1_S2550000_n_0_n_n_0_1_1 : GatherDims S150000 S2550000x1 S2550000 where
  offsetDims := []
  collapsedSliceDims := [0]
  operandBatchingDims := []
  startIndicesBatchingDims := []
  startIndexMap := [0]
  indexVectorDim := 1
  sliceSizes := ![1]
  wf := gather_S150000_S2550000x1_S2550000_n_0_n_n_0_1_1_wf
def dot_S3000x9_S9x32_S3000x32_1_0_0_1_n_n : DotDims S3000x9 S9x32 S3000x32 where
  lhsContracting := [1]
  rhsContracting := [0]
  lhsNonContracting := [0]
  rhsNonContracting := [1]
  lhsBatch := []
  rhsBatch := []
  wf := dot_S3000x9_S9x32_S3000x32_1_0_0_1_n_n_wf
def gather_S150000x32_S2550000x1_S2550000x32_1_0_n_n_0_1_132 : GatherDims S150000x32 S2550000x1 S2550000x32 where
  offsetDims := [1]
  collapsedSliceDims := [0]
  operandBatchingDims := []
  startIndicesBatchingDims := []
  startIndexMap := [0]
  indexVectorDim := 1
  sliceSizes := ![1, 32]
  wf := gather_S150000x32_S2550000x1_S2550000x32_1_0_n_n_0_1_132_wf
def scatter_S150000x32_S2550000x1_S2550000x32_1_0_0_1 : ScatterDims S150000x32 S2550000x1 S2550000x32 where
  updateWindowDims := [1]
  insertedWindowDims := [0]
  scatterDimsToOperandDims := [0]
  indexVectorDim := 1
  wf := scatter_S150000x32_S2550000x1_S2550000x32_1_0_0_1_wf
def dot_S3000x32_S32x7_S3000x7_1_0_0_1_n_n : DotDims S3000x32 S32x7 S3000x7 where
  lhsContracting := [1]
  rhsContracting := [0]
  lhsNonContracting := [0]
  rhsNonContracting := [1]
  lhsBatch := []
  rhsBatch := []
  wf := dot_S3000x32_S32x7_S3000x7_1_0_0_1_n_n_wf
def gather_S150000x7_S2550000x1_S2550000x7_1_0_n_n_0_1_17 : GatherDims S150000x7 S2550000x1 S2550000x7 where
  offsetDims := [1]
  collapsedSliceDims := [0]
  operandBatchingDims := []
  startIndicesBatchingDims := []
  startIndexMap := [0]
  indexVectorDim := 1
  sliceSizes := ![1, 7]
  wf := gather_S150000x7_S2550000x1_S2550000x7_1_0_n_n_0_1_17_wf
def scatter_S150000x7_S2550000x1_S2550000x7_1_0_0_1 : ScatterDims S150000x7 S2550000x1 S2550000x7 where
  updateWindowDims := [1]
  insertedWindowDims := [0]
  scatterDimsToOperandDims := [0]
  indexVectorDim := 1
  wf := scatter_S150000x7_S2550000x1_S2550000x7_1_0_0_1_wf

abbrev win0_0 : Pipeline.Window sig grid0 :=
  Pipeline.Window.ofSpec (Memref.whole main_arg0) S3000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S9x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S3000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S4080x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4080x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S4080x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S3000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S3000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S3000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S32x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S3000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S4080x7.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S4080x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S4080x7.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S3000x7.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x7.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S3000x7.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S150000x9 : Shape := ⟨2, ![150000, 9]⟩
abbrev S2x2400000 : Shape := ⟨2, ![2, 2400000]⟩
abbrev S2400000 : Shape := ⟨1, ![2400000]⟩
abbrev S9x32 : Shape := ⟨2, ![9, 32]⟩
abbrev S32 : Shape := ⟨1, ![32]⟩
abbrev S32x7 : Shape := ⟨2, ![32, 7]⟩
abbrev S7 : Shape := ⟨1, ![7]⟩
abbrev S1x2400000 : Shape := ⟨2, ![1, 2400000]⟩
abbrev S150000 : Shape := ⟨1, ![150000]⟩
abbrev S2550000 : Shape := ⟨1, ![2550000]⟩
abbrev S_ : Shape := ⟨0, ![]⟩
abbrev S2550000x1 : Shape := ⟨2, ![2550000, 1]⟩
abbrev S150000x32 : Shape := ⟨2, ![150000, 32]⟩
abbrev S2550000x32 : Shape := ⟨2, ![2550000, 32]⟩
abbrev S1x32 : Shape := ⟨2, ![1, 32]⟩
abbrev S150000x7 : Shape := ⟨2, ![150000, 7]⟩
abbrev S2550000x7 : Shape := ⟨2, ![2550000, 7]⟩
abbrev S1x7 : Shape := ⟨2, ![1, 7]⟩
abbrev S150000x1 : Shape := ⟨2, ![150000, 1]⟩

abbrev nBuf : Space → Nat
  | .hbm => 107
  | .vmem => 0
  | .smem => 0
  | _ => 0

abbrev bufTy : (tb : Table) → Fin (tcTables nBuf tb) → BufTy
  | .hbm, ⟨0, _⟩ => ⟨S150000x9, .f32⟩
  | .hbm, ⟨1, _⟩ => ⟨S2x2400000, .i32⟩
  | .hbm, ⟨2, _⟩ => ⟨S2400000, .f32⟩
  | .hbm, ⟨3, _⟩ => ⟨S9x32, .f32⟩
  | .hbm, ⟨4, _⟩ => ⟨S32, .f32⟩
  | .hbm, ⟨5, _⟩ => ⟨S32x7, .f32⟩
  | .hbm, ⟨6, _⟩ => ⟨S7, .f32⟩
  | .hbm, ⟨7, _⟩ => ⟨S1x2400000, .i32⟩
  | .hbm, ⟨8, _⟩ => ⟨S2400000, .i32⟩
  | .hbm, ⟨9, _⟩ => ⟨S1x2400000, .i32⟩
  | .hbm, ⟨10, _⟩ => ⟨S2400000, .i32⟩
  | .hbm, ⟨11, _⟩ => ⟨S150000, .i32⟩
  | .hbm, ⟨12, _⟩ => ⟨S2550000, .i32⟩
  | .hbm, ⟨13, _⟩ => ⟨S2550000, .i32⟩
  | .hbm, ⟨14, _⟩ => ⟨S_, .f32⟩
  | .hbm, ⟨15, _⟩ => ⟨S150000, .f32⟩
  | .hbm, ⟨16, _⟩ => ⟨S2550000, .f32⟩
  | .hbm, ⟨17, _⟩ => ⟨S_, .f32⟩
  | .hbm, ⟨18, _⟩ => ⟨S150000, .f32⟩
  | .hbm, ⟨19, _⟩ => ⟨S2550000x1, .i32⟩
  | .hbm, ⟨20, _⟩ => ⟨S150000, .f32⟩
  | .hbm, ⟨21, _⟩ => ⟨S_, .f32⟩
  | .hbm, ⟨22, _⟩ => ⟨S150000, .f32⟩
  | .hbm, ⟨23, _⟩ => ⟨S150000, .i1⟩
  | .hbm, ⟨24, _⟩ => ⟨S150000, .f32⟩
  | .hbm, ⟨25, _⟩ => ⟨S_, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S_, .i32⟩
  | .hbm, ⟨30, _⟩ => ⟨S2550000, .i32⟩
  | .hbm, ⟨31, _⟩ => ⟨S2550000, .i1⟩
  | .hbm, ⟨32, _⟩ => ⟨S_, .i32⟩
  | .hbm, ⟨33, _⟩ => ⟨S2550000, .i32⟩
  | .hbm, ⟨34, _⟩ => ⟨S2550000, .i32⟩
  | .hbm, ⟨35, _⟩ => ⟨S2550000, .i32⟩
  | .hbm, ⟨36, _⟩ => ⟨S2550000x1, .i32⟩
  | .hbm, ⟨37, _⟩ => ⟨S2550000, .f32⟩
  | .hbm, ⟨38, _⟩ => ⟨S2550000, .f32⟩
  | .hbm, ⟨39, _⟩ => ⟨S_, .i32⟩
  | .hbm, ⟨40, _⟩ => ⟨S2550000, .i32⟩
  | .hbm, ⟨41, _⟩ => ⟨S2550000, .i1⟩
  | .hbm, ⟨42, _⟩ => ⟨S_, .i32⟩
  | .hbm, ⟨43, _⟩ => ⟨S2550000, .i32⟩
  | .hbm, ⟨44, _⟩ => ⟨S2550000, .i32⟩
  | .hbm, ⟨45, _⟩ => ⟨S2550000, .i32⟩
  | .hbm, ⟨46, _⟩ => ⟨S2550000x1, .i32⟩
  | .hbm, ⟨47, _⟩ => ⟨S2550000, .f32⟩
  | .hbm, ⟨48, _⟩ => ⟨S2550000, .f32⟩
  | .hbm, ⟨49, _⟩ => ⟨S150000x32, .f32⟩
  | .hbm, ⟨50, _⟩ => ⟨S2550000x1, .f32⟩
  | .hbm, ⟨51, _⟩ => ⟨S_, .i32⟩
  | .hbm, ⟨52, _⟩ => ⟨S2550000, .i32⟩
  | .hbm, ⟨53, _⟩ => ⟨S2550000, .i1⟩
  | .hbm, ⟨54, _⟩ => ⟨S_, .i32⟩
  | .hbm, ⟨55, _⟩ => ⟨S2550000, .i32⟩
  | .hbm, ⟨56, _⟩ => ⟨S2550000, .i32⟩
  | .hbm, ⟨57, _⟩ => ⟨S2550000, .i32⟩
  | .hbm, ⟨58, _⟩ => ⟨S2550000x1, .i32⟩
  | .hbm, ⟨59, _⟩ => ⟨S2550000x32, .f32⟩
  | .hbm, ⟨60, _⟩ => ⟨S2550000x32, .f32⟩
  | .hbm, ⟨61, _⟩ => ⟨S2550000x32, .f32⟩
  | .hbm, ⟨62, _⟩ => ⟨S_, .f32⟩
  | .hbm, ⟨63, _⟩ => ⟨S150000x32, .f32⟩
  | .hbm, ⟨64, _⟩ => ⟨S2550000x1, .i32⟩
  | .hbm, ⟨65, _⟩ => ⟨S150000x32, .f32⟩
  | .hbm, ⟨66, _⟩ => ⟨S1x32, .f32⟩
  | .hbm, ⟨67, _⟩ => ⟨S150000x32, .f32⟩
  | .hbm, ⟨68, _⟩ => ⟨S150000x32, .f32⟩
  | .hbm, ⟨69, _⟩ => ⟨S_, .f32⟩
  | .hbm, ⟨70, _⟩ => ⟨S150000x32, .f32⟩
  | .hbm, ⟨71, _⟩ => ⟨S150000x32, .f32⟩
  | .hbm, ⟨72, _⟩ => ⟨S150000x7, .f32⟩
  | .hbm, ⟨73, _⟩ => ⟨S2550000x1, .f32⟩
  | .hbm, ⟨74, _⟩ => ⟨S_, .i32⟩
  | .hbm, ⟨75, _⟩ => ⟨S2550000, .i32⟩
  | .hbm, ⟨76, _⟩ => ⟨S2550000, .i1⟩
  | .hbm, ⟨77, _⟩ => ⟨S_, .i32⟩
  | .hbm, ⟨78, _⟩ => ⟨S2550000, .i32⟩
  | .hbm, ⟨79, _⟩ => ⟨S2550000, .i32⟩
  | .hbm, ⟨80, _⟩ => ⟨S2550000, .i32⟩
  | .hbm, ⟨81, _⟩ => ⟨S2550000x1, .i32⟩
  | .hbm, ⟨82, _⟩ => ⟨S2550000x7, .f32⟩
  | .hbm, ⟨83, _⟩ => ⟨S2550000x7, .f32⟩
  | .hbm, ⟨84, _⟩ => ⟨S2550000x7, .f32⟩
  | .hbm, ⟨85, _⟩ => ⟨S_, .f32⟩
  | .hbm, ⟨86, _⟩ => ⟨S150000x7, .f32⟩
  | .hbm, ⟨87, _⟩ => ⟨S2550000x1, .i32⟩
  | .hbm, ⟨88, _⟩ => ⟨S150000x7, .f32⟩
  | .hbm, ⟨89, _⟩ => ⟨S1x7, .f32⟩
  | .hbm, ⟨90, _⟩ => ⟨S150000x7, .f32⟩
  | .hbm, ⟨91, _⟩ => ⟨S150000x7, .f32⟩
  | .hbm, ⟨92, _⟩ => ⟨S_, .f32⟩
  | .hbm, ⟨93, _⟩ => ⟨S150000, .f32⟩
  | .hbm, ⟨94, _⟩ => ⟨S_, .f32⟩
  | .hbm, ⟨95, _⟩ => ⟨S150000, .f32⟩
  | .hbm, ⟨96, _⟩ => ⟨S150000, .f32⟩
  | .hbm, ⟨97, _⟩ => ⟨S150000x1, .f32⟩
  | .hbm, ⟨98, _⟩ => ⟨S150000x7, .f32⟩
  | .hbm, ⟨99, _⟩ => ⟨S150000x7, .f32⟩
  | .hbm, ⟨100, _⟩ => ⟨S150000x7, .f32⟩
  | .hbm, ⟨101, _⟩ => ⟨S_, .f32⟩
  | .hbm, ⟨102, _⟩ => ⟨S150000, .f32⟩
  | .hbm, ⟨103, _⟩ => ⟨S150000x1, .f32⟩
  | .hbm, ⟨104, _⟩ => ⟨S150000x1, .f32⟩
  | .hbm, ⟨105, _⟩ => ⟨S150000x7, .f32⟩
  | .hbm, ⟨106, _⟩ => ⟨S150000x7, .f32⟩
  | _, _ => ⟨S150000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  concatenates_S2400000_S150000_S2550000_d0 : Shape.Concatenates [S2400000, S150000] S2550000 0
  bcast_S_S150000 : S_.BroadcastsInDim S150000 (![] : Fin 0 → Fin S150000.rank)
  bcast_S2550000_S2550000x1_0 : S2550000.BroadcastsInDim S2550000x1 (![0] : Fin 1 → Fin S2550000x1.rank)
  bcast_S_S2550000 : S_.BroadcastsInDim S2550000 (![] : Fin 0 → Fin S2550000.rank)
  bcast_S2550000x1_S2550000x32_0_1 : S2550000x1.BroadcastsInDim S2550000x32 (![0, 1] : Fin 2 → Fin S2550000x32.rank)
  bcast_S_S150000x32 : S_.BroadcastsInDim S150000x32 (![] : Fin 0 → Fin S150000x32.rank)
  bcast_S32_S1x32_1 : S32.BroadcastsInDim S1x32 (![1] : Fin 1 → Fin S1x32.rank)
  bcast_S1x32_S150000x32_0_1 : S1x32.BroadcastsInDim S150000x32 (![0, 1] : Fin 2 → Fin S150000x32.rank)
  bcast_S2550000x1_S2550000x7_0_1 : S2550000x1.BroadcastsInDim S2550000x7 (![0, 1] : Fin 2 → Fin S2550000x7.rank)
  bcast_S_S150000x7 : S_.BroadcastsInDim S150000x7 (![] : Fin 0 → Fin S150000x7.rank)
  bcast_S7_S1x7_1 : S7.BroadcastsInDim S1x7 (![1] : Fin 1 → Fin S1x7.rank)
  bcast_S1x7_S150000x7_0_1 : S1x7.BroadcastsInDim S150000x7 (![0, 1] : Fin 2 → Fin S150000x7.rank)
  reducesTo_S150000x7_S150000_d1 : S150000x7.ReducesTo [1] S150000
  h_S_ : 0 < S_.numel
  bcast_S150000_S150000x1_0 : S150000.BroadcastsInDim S150000x1 (![0] : Fin 1 → Fin S150000x1.rank)
  bcast_S150000x1_S150000x7_0_1 : S150000x1.BroadcastsInDim S150000x7 (![0, 1] : Fin 2 → Fin S150000x7.rank)
  scatter_S150000_S2550000x1_S2550000_n_0_0_1_wf : ScatterDims.WF S150000 S2550000x1 S2550000 [] [0] [0] 1
  gather_S150000_S2550000x1_S2550000_n_0_n_n_0_1_1_wf : GatherDims.WF S150000 S2550000x1 S2550000 [] [0] [] [0] [] 1 ![1]
  dot_S150000x9_S9x32_S150000x32_1_0_0_1_n_n_wf : DotDims.WF S150000x9 S9x32 S150000x32 [1] [0] [0] [1] [] []
  gather_S150000x32_S2550000x1_S2550000x32_1_0_n_n_0_1_132_wf : GatherDims.WF S150000x32 S2550000x1 S2550000x32 [1] [0] [] [0] [] 1 ![1, 32]
  scatter_S150000x32_S2550000x1_S2550000x32_1_0_0_1_wf : ScatterDims.WF S150000x32 S2550000x1 S2550000x32 [1] [0] [0] 1
  dot_S150000x32_S32x7_S150000x7_1_0_0_1_n_n_wf : DotDims.WF S150000x32 S32x7 S150000x7 [1] [0] [0] [1] [] []
  gather_S150000x7_S2550000x1_S2550000x7_1_0_n_n_0_1_17_wf : GatherDims.WF S150000x7 S2550000x1 S2550000x7 [1] [0] [] [0] [] 1 ![1, 7]
  scatter_S150000x7_S2550000x1_S2550000x7_1_0_0_1_wf : ScatterDims.WF S150000x7 S2550000x1 S2550000x7 [1] [0] [0] 1

variable [Facts₀]

def scatter_S150000_S2550000x1_S2550000_n_0_0_1 : ScatterDims S150000 S2550000x1 S2550000 where
  updateWindowDims := []
  insertedWindowDims := [0]
  scatterDimsToOperandDims := [0]
  indexVectorDim := 1
  wf := scatter_S150000_S2550000x1_S2550000_n_0_0_1_wf
def gather_S150000_S2550000x1_S2550000_n_0_n_n_0_1_1 : GatherDims S150000 S2550000x1 S2550000 where
  offsetDims := []
  collapsedSliceDims := [0]
  operandBatchingDims := []
  startIndicesBatchingDims := []
  startIndexMap := [0]
  indexVectorDim := 1
  sliceSizes := ![1]
  wf := gather_S150000_S2550000x1_S2550000_n_0_n_n_0_1_1_wf
def dot_S150000x9_S9x32_S150000x32_1_0_0_1_n_n : DotDims S150000x9 S9x32 S150000x32 where
  lhsContracting := [1]
  rhsContracting := [0]
  lhsNonContracting := [0]
  rhsNonContracting := [1]
  lhsBatch := []
  rhsBatch := []
  wf := dot_S150000x9_S9x32_S150000x32_1_0_0_1_n_n_wf
def gather_S150000x32_S2550000x1_S2550000x32_1_0_n_n_0_1_132 : GatherDims S150000x32 S2550000x1 S2550000x32 where
  offsetDims := [1]
  collapsedSliceDims := [0]
  operandBatchingDims := []
  startIndicesBatchingDims := []
  startIndexMap := [0]
  indexVectorDim := 1
  sliceSizes := ![1, 32]
  wf := gather_S150000x32_S2550000x1_S2550000x32_1_0_n_n_0_1_132_wf
def scatter_S150000x32_S2550000x1_S2550000x32_1_0_0_1 : ScatterDims S150000x32 S2550000x1 S2550000x32 where
  updateWindowDims := [1]
  insertedWindowDims := [0]
  scatterDimsToOperandDims := [0]
  indexVectorDim := 1
  wf := scatter_S150000x32_S2550000x1_S2550000x32_1_0_0_1_wf
def dot_S150000x32_S32x7_S150000x7_1_0_0_1_n_n : DotDims S150000x32 S32x7 S150000x7 where
  lhsContracting := [1]
  rhsContracting := [0]
  lhsNonContracting := [0]
  rhsNonContracting := [1]
  lhsBatch := []
  rhsBatch := []
  wf := dot_S150000x32_S32x7_S150000x7_1_0_0_1_n_n_wf
def gather_S150000x7_S2550000x1_S2550000x7_1_0_n_n_0_1_17 : GatherDims S150000x7 S2550000x1 S2550000x7 where
  offsetDims := [1]
  collapsedSliceDims := [0]
  operandBatchingDims := []
  startIndicesBatchingDims := []
  startIndexMap := [0]
  indexVectorDim := 1
  sliceSizes := ![1, 7]
  wf := gather_S150000x7_S2550000x1_S2550000x7_1_0_n_n_0_1_17_wf
def scatter_S150000x7_S2550000x1_S2550000x7_1_0_0_1 : ScatterDims S150000x7 S2550000x1 S2550000x7 where
  updateWindowDims := [1]
  insertedWindowDims := [0]
  scatterDimsToOperandDims := [0]
  indexVectorDim := 1
  wf := scatter_S150000x7_S2550000x1_S2550000x7_1_0_0_1_wf

class Facts : Prop extends Facts₀ where

variable [Facts]
-- ==== Proof.RefStages.lean ====
/-
  The reference's operation list, evaluated stage by stage.

  Running the reference's hundred host operations in order from the launch contents leaves, in each buffer a later
  operation reads, the stage of that name as a function of the launch arguments (`val_…`): the list is cut where the
  values that stay live are few (the index and weight arrays, the normalisation, each layer's output), and each
  stretch is evaluated from what the stretch before it left.  In particular the result buffer ends at the last stage.
-/
import proofs.«130592_j83064667505278_1_alg».proof.Proof.RefRun
import proofs.«130592_j83064667505278_1_alg».proof.Proof.RefRead
import Idealize.ShloMosaic.Lib.StableHlo.Run
import Idealize.ShloMosaic.Lib.Pipeline.Frame

set_option maxRecDepth 16384

noncomputable section

namespace Cert.Gcn.RefStages

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]
/-! ## The list, cut into seven stretches -/

/-- Operations 0 to 9 of the list. -/
abbrev seg1 : List (HloOp τ sig (Elt F)) :=
  [ unary main_arg1 main_v0 ((extractStridedSlice S1x2400000 ![0, 0] · slices_S2x2400000_S1x2400000_0_0) : (⟨S2x2400000, .i32⟩ : BufTy).Contents (Elt F) → (⟨S1x2400000, .i32⟩ : BufTy).Contents (Elt F)),
    reshape main_v0 main_v1 rfl shapeCasts_S1x2400000_S2400000,
    unary main_arg1 main_v2 ((extractStridedSlice S1x2400000 ![1, 0] · slices_S2x2400000_S1x2400000_1_0) : (⟨S2x2400000, .i32⟩ : BufTy).Contents (Elt F) → (⟨S1x2400000, .i32⟩ : BufTy).Contents (Elt F)),
    reshape main_v2 main_v3 rfl shapeCasts_S1x2400000_S2400000,
    nullary main_v4 (iotaInDim S150000 32 0),
    binary main_v1 main_v4 main_v5 ((fun a b => concatenate S2550000 0 [⟨S2400000, a⟩, ⟨S150000, b⟩] concatenates_S2400000_S150000_S2550000_d0) : (⟨S2400000, .i32⟩ : BufTy).Contents (Elt F) → (⟨S150000, .i32⟩ : BufTy).Contents (Elt F) → (⟨S2550000, .i32⟩ : BufTy).Contents (Elt F)),
    binary main_v3 main_v4 main_v6 ((fun a b => concatenate S2550000 0 [⟨S2400000, a⟩, ⟨S150000, b⟩] concatenates_S2400000_S150000_S2550000_d0) : (⟨S2400000, .i32⟩ : BufTy).Contents (Elt F) → (⟨S150000, .i32⟩ : BufTy).Contents (Elt F) → (⟨S2550000, .i32⟩ : BufTy).Contents (Elt F)),
    nullary main_cst (constant S_ .f32 0x3F800000#32),
    unary main_cst main_v7 (broadcastInDim S150000 ![] bcast_S_S150000 : (⟨S_, .f32⟩ : BufTy).Contents (Elt F) → (⟨S150000, .f32⟩ : BufTy).Contents (Elt F)),
    binary main_arg2 main_v7 main_v8 ((fun a b => concatenate S2550000 0 [⟨S2400000, a⟩, ⟨S150000, b⟩] concatenates_S2400000_S150000_S2550000_d0) : (⟨S2400000, .f32⟩ : BufTy).Contents (Elt F) → (⟨S150000, .f32⟩ : BufTy).Contents (Elt F) → (⟨S2550000, .f32⟩ : BufTy).Contents (Elt F)) ]

/-- Operations 10 to 21 of the list. -/
abbrev seg2 : List (HloOp τ sig (Elt F)) :=
  [ nullary main_cst_0 (constant S_ .f32 0x00000000#32),
    unary main_cst_0 main_v9 (broadcastInDim S150000 ![] bcast_S_S150000 : (⟨S_, .f32⟩ : BufTy).Contents (Elt F) → (⟨S150000, .f32⟩ : BufTy).Contents (Elt F)),
    unary main_v6 main_v10 (broadcastInDim S2550000x1 ![0] bcast_S2550000_S2550000x1_0 : (⟨S2550000, .i32⟩ : BufTy).Contents (Elt F) → (⟨S2550000x1, .i32⟩ : BufTy).Contents (Elt F)),
    ternary main_v9 main_v10 main_v8 main_v11 ((fun x i u => Host.scatterAdd scatter_S150000_S2550000x1_S2550000_n_0_0_1 x i u) : (⟨S150000, .f32⟩ : BufTy).Contents (Elt F) → (⟨S2550000x1, .i32⟩ : BufTy).Contents (Elt F) → (⟨S2550000, .f32⟩ : BufTy).Contents (Elt F) → (⟨S150000, .f32⟩ : BufTy).Contents (Elt F)),
    nullary main_cst_1 (constant S_ .f32 0x00000000#32),
    unary main_cst_1 main_v12 (broadcastInDim S150000 ![] bcast_S_S150000 : (⟨S_, .f32⟩ : BufTy).Contents (Elt F) → (⟨S150000, .f32⟩ : BufTy).Contents (Elt F)),
    binary main_v11 main_v12 main_v13 (cmpf .ogt : (⟨S150000, .f32⟩ : BufTy).Contents (Elt F) → (⟨S150000, .f32⟩ : BufTy).Contents (Elt F) → (⟨S150000, .i1⟩ : BufTy).Contents (Elt F)),
    unary main_v11 main_v14 (Host.rsqrt : (⟨S150000, .f32⟩ : BufTy).Contents (Elt F) → (⟨S150000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S150000, .f32⟩) main_call0_v1) (broadcastInDim S150000 ![] bcast_S_S150000),
    TRef.ternary (TRef.of (T := ⟨S150000, .i1⟩) main_v13) (TRef.of (T := ⟨S150000, .f32⟩) main_v14) (TRef.of (T := ⟨S150000, .f32⟩) main_call0_v1) (TRef.of (T := ⟨S150000, .f32⟩) main_v15) select ]

/-- Operations 22 to 41 of the list. -/
abbrev seg3 : List (HloOp τ sig (Elt F)) :=
  [ nullary main_c (constantI S_ 32 0#32),
    unary main_c main_v16 (broadcastInDim S2550000 ![] bcast_S_S2550000 : (⟨S_, .i32⟩ : BufTy).Contents (Elt F) → (⟨S2550000, .i32⟩ : BufTy).Contents (Elt F)),
    binary main_v5 main_v16 main_v17 (cmpi .slt : (⟨S2550000, .i32⟩ : BufTy).Contents (Elt F) → (⟨S2550000, .i32⟩ : BufTy).Contents (Elt F) → (⟨S2550000, .i1⟩ : BufTy).Contents (Elt F)),
    nullary main_c_3 (constantI S_ 32 150000#32),
    unary main_c_3 main_v18 (broadcastInDim S2550000 ![] bcast_S_S2550000 : (⟨S_, .i32⟩ : BufTy).Contents (Elt F) → (⟨S2550000, .i32⟩ : BufTy).Contents (Elt F)),
    binary main_v5 main_v18 main_v19 (addi : (⟨S2550000, .i32⟩ : BufTy).Contents (Elt F) → (⟨S2550000, .i32⟩ : BufTy).Contents (Elt F) → (⟨S2550000, .i32⟩ : BufTy).Contents (Elt F)),
    ternary main_v17 main_v19 main_v5 main_v20 (select : (⟨S2550000, .i1⟩ : BufTy).Contents (Elt F) → (⟨S2550000, .i32⟩ : BufTy).Contents (Elt F) → (⟨S2550000, .i32⟩ : BufTy).Contents (Elt F) → (⟨S2550000, .i32⟩ : BufTy).Contents (Elt F)),
    unary main_v20 main_v21 (broadcastInDim S2550000x1 ![0] bcast_S2550000_S2550000x1_0 : (⟨S2550000, .i32⟩ : BufTy).Contents (Elt F) → (⟨S2550000x1, .i32⟩ : BufTy).Contents (Elt F)),
    binary main_v15 main_v21 main_v22 ((fun x i => Host.gather gather_S150000_S2550000x1_S2550000_n_0_n_n_0_1_1 x i) : (⟨S150000, .f32⟩ : BufTy).Contents (Elt F) → (⟨S2550000x1, .i32⟩ : BufTy).Contents (Elt F) → (⟨S2550000, .f32⟩ : BufTy).Contents (Elt F)),
    binary main_v22 main_v8 main_v23 (mulf : (⟨S2550000, .f32⟩ : BufTy).Contents (Elt F) → (⟨S2550000, .f32⟩ : BufTy).Contents (Elt F) → (⟨S2550000, .f32⟩ : BufTy).Contents (Elt F)),
    nullary main_c_4 (constantI S_ 32 0#32),
    unary main_c_4 main_v24 (broadcastInDim S2550000 ![] bcast_S_S2550000 : (⟨S_, .i32⟩ : BufTy).Contents (Elt F) → (⟨S2550000, .i32⟩ : BufTy).Contents (Elt F)),
    binary main_v6 main_v24 main_v25 (cmpi .slt : (⟨S2550000, .i32⟩ : BufTy).Contents (Elt F) → (⟨S2550000, .i32⟩ : BufTy).Contents (Elt F) → (⟨S2550000, .i1⟩ : BufTy).Contents (Elt F)),
    nullary main_c_5 (constantI S_ 32 150000#32),
    unary main_c_5 main_v26 (broadcastInDim S2550000 ![] bcast_S_S2550000 : (⟨S_, .i32⟩ : BufTy).Contents (Elt F) → (⟨S2550000, .i32⟩ : BufTy).Contents (Elt F)),
    binary main_v6 main_v26 main_v27 (addi : (⟨S2550000, .i32⟩ : BufTy).Contents (Elt F) → (⟨S2550000, .i32⟩ : BufTy).Contents (Elt F) → (⟨S2550000, .i32⟩ : BufTy).Contents (Elt F)),
    ternary main_v25 main_v27 main_v6 main_v28 (select : (⟨S2550000, .i1⟩ : BufTy).Contents (Elt F) → (⟨S2550000, .i32⟩ : BufTy).Contents (Elt F) → (⟨S2550000, .i32⟩ : BufTy).Contents (Elt F) → (⟨S2550000, .i32⟩ : BufTy).Contents (Elt F)),
    unary main_v28 main_v29 (broadcastInDim S2550000x1 ![0] bcast_S2550000_S2550000x1_0 : (⟨S2550000, .i32⟩ : BufTy).Contents (Elt F) → (⟨S2550000x1, .i32⟩ : BufTy).Contents (Elt F)),
    binary main_v15 main_v29 main_v30 ((fun x i => Host.gather gather_S150000_S2550000x1_S2550000_n_0_n_n_0_1_1 x i) : (⟨S150000, .f32⟩ : BufTy).Contents (Elt F) → (⟨S2550000x1, .i32⟩ : BufTy).Contents (Elt F) → (⟨S2550000, .f32⟩ : BufTy).Contents (Elt F)),
    binary main_v23 main_v30 main_v31 (mulf : (⟨S2550000, .f32⟩ : BufTy).Contents (Elt F) → (⟨S2550000, .f32⟩ : BufTy).Contents (Elt F) → (⟨S2550000, .f32⟩ : BufTy).Contents (Elt F)) ]

/-- Operations 42 to 61 of the list. -/
abbrev seg4 : List (HloOp τ sig (Elt F)) :=
  [ binary main_arg0 main_arg3 main_v32 ((fun l r => Host.dotGeneral dot_S150000x9_S9x32_S150000x32_1_0_0_1_n_n none l r) : (⟨S150000x9, .f32⟩ : BufTy).Contents (Elt F) → (⟨S9x32, .f32⟩ : BufTy).Contents (Elt F) → (⟨S150000x32, .f32⟩ : BufTy).Contents (Elt F)),
    unary main_v31 main_v33 (broadcastInDim S2550000x1 ![0] bcast_S2550000_S2550000x1_0 : (⟨S2550000, .f32⟩ : BufTy).Contents (Elt F) → (⟨S2550000x1, .f32⟩ : BufTy).Contents (Elt F)),
    nullary main_c_6 (constantI S_ 32 0#32),
    unary main_c_6 main_v34 (broadcastInDim S2550000 ![] bcast_S_S2550000 : (⟨S_, .i32⟩ : BufTy).Contents (Elt F) → (⟨S2550000, .i32⟩ : BufTy).Contents (Elt F)),
    binary main_v5 main_v34 main_v35 (cmpi .slt : (⟨S2550000, .i32⟩ : BufTy).Contents (Elt F) → (⟨S2550000, .i32⟩ : BufTy).Contents (Elt F) → (⟨S2550000, .i1⟩ : BufTy).Contents (Elt F)),
    nullary main_c_7 (constantI S_ 32 150000#32),
    unary main_c_7 main_v36 (broadcastInDim S2550000 ![] bcast_S_S2550000 : (⟨S_, .i32⟩ : BufTy).Contents (Elt F) → (⟨S2550000, .i32⟩ : BufTy).Contents (Elt F)),
    binary main_v5 main_v36 main_v37 (addi : (⟨S2550000, .i32⟩ : BufTy).Contents (Elt F) → (⟨S2550000, .i32⟩ : BufTy).Contents (Elt F) → (⟨S2550000, .i32⟩ : BufTy).Contents (Elt F)),
    ternary main_v35 main_v37 main_v5 main_v38 (select : (⟨S2550000, .i1⟩ : BufTy).Contents (Elt F) → (⟨S2550000, .i32⟩ : BufTy).Contents (Elt F) → (⟨S2550000, .i32⟩ : BufTy).Contents (Elt F) → (⟨S2550000, .i32⟩ : BufTy).Contents (Elt F)),
    unary main_v38 main_v39 (broadcastInDim S2550000x1 ![0] bcast_S2550000_S2550000x1_0 : (⟨S2550000, .i32⟩ : BufTy).Contents (Elt F) → (⟨S2550000x1, .i32⟩ : BufTy).Contents (Elt F)),
    binary main_v32 main_v39 main_v40 ((fun x i => Host.gather gather_S150000x32_S2550000x1_S2550000x32_1_0_n_n_0_1_132 x i) : (⟨S150000x32, .f32⟩ : BufTy).Contents (Elt F) → (⟨S2550000x1, .i32⟩ : BufTy).Contents (Elt F) → (⟨S2550000x32, .f32⟩ : BufTy).Contents (Elt F)),
    unary main_v33 main_v41 (broadcastInDim S2550000x32 ![0, 1] bcast_S2550000x1_S2550000x32_0_1 : (⟨S2550000x1, .f32⟩ : BufTy).Contents (Elt F) → (⟨S2550000x32, .f32⟩ : BufTy).Contents (Elt F)),
    binary main_v41 main_v40 main_v42 (mulf : (⟨S2550000x32, .f32⟩ : BufTy).Contents (Elt F) → (⟨S2550000x32, .f32⟩ : BufTy).Contents (Elt F) → (⟨S2550000x32, .f32⟩ : BufTy).Contents (Elt F)),
    nullary main_cst_8 (constant S_ .f32 0x00000000#32),
    unary main_cst_8 main_v43 (broadcastInDim S150000x32 ![] bcast_S_S150000x32 : (⟨S_, .f32⟩ : BufTy).Contents (Elt F) → (⟨S150000x32, .f32⟩ : BufTy).Contents (Elt F)),
    unary main_v6 main_v44 (broadcastInDim S2550000x1 ![0] bcast_S2550000_S2550000x1_0 : (⟨S2550000, .i32⟩ : BufTy).Contents (Elt F) → (⟨S2550000x1, .i32⟩ : BufTy).Contents (Elt F)),
    ternary main_v43 main_v44 main_v42 main_v45 ((fun x i u => Host.scatterAdd scatter_S150000x32_S2550000x1_S2550000x32_1_0_0_1 x i u) : (⟨S150000x32, .f32⟩ : BufTy).Contents (Elt F) → (⟨S2550000x1, .i32⟩ : BufTy).Contents (Elt F) → (⟨S2550000x32, .f32⟩ : BufTy).Contents (Elt F) → (⟨S150000x32, .f32⟩ : BufTy).Contents (Elt F)),
    unary main_arg4 main_v46 (broadcastInDim S1x32 ![1] bcast_S32_S1x32_1 : (⟨S32, .f32⟩ : BufTy).Contents (Elt F) → (⟨S1x32, .f32⟩ : BufTy).Contents (Elt F)),
    unary main_v46 main_v47 (broadcastInDim S150000x32 ![0, 1] bcast_S1x32_S150000x32_0_1 : (⟨S1x32, .f32⟩ : BufTy).Contents (Elt F) → (⟨S150000x32, .f32⟩ : BufTy).Contents (Elt F)),
    binary main_v45 main_v47 main_v48 (addf : (⟨S150000x32, .f32⟩ : BufTy).Contents (Elt F) → (⟨S150000x32, .f32⟩ : BufTy).Contents (Elt F) → (⟨S150000x32, .f32⟩ : BufTy).Contents (Elt F)) ]

/-- Operations 62 to 64 of the list. -/
abbrev seg5 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S150000x32, .f32⟩) main_call1_v0) (broadcastInDim S150000x32 ![] bcast_S_S150000x32),
    TRef.binary (TRef.of (T := ⟨S150000x32, .f32⟩) main_v48) (TRef.of (T := ⟨S150000x32, .f32⟩) main_call1_v0) (TRef.of (T := ⟨S150000x32, .f32⟩) main_v49) maximumf ]

/-- Operations 65 to 84 of the list. -/
abbrev seg6 : List (HloOp τ sig (Elt F)) :=
  [ binary main_v49 main_arg5 main_v50 ((fun l r => Host.dotGeneral dot_S150000x32_S32x7_S150000x7_1_0_0_1_n_n none l r) : (⟨S150000x32, .f32⟩ : BufTy).Contents (Elt F) → (⟨S32x7, .f32⟩ : BufTy).Contents (Elt F) → (⟨S150000x7, .f32⟩ : BufTy).Contents (Elt F)),
    unary main_v31 main_v51 (broadcastInDim S2550000x1 ![0] bcast_S2550000_S2550000x1_0 : (⟨S2550000, .f32⟩ : BufTy).Contents (Elt F) → (⟨S2550000x1, .f32⟩ : BufTy).Contents (Elt F)),
    nullary main_c_9 (constantI S_ 32 0#32),
    unary main_c_9 main_v52 (broadcastInDim S2550000 ![] bcast_S_S2550000 : (⟨S_, .i32⟩ : BufTy).Contents (Elt F) → (⟨S2550000, .i32⟩ : BufTy).Contents (Elt F)),
    binary main_v5 main_v52 main_v53 (cmpi .slt : (⟨S2550000, .i32⟩ : BufTy).Contents (Elt F) → (⟨S2550000, .i32⟩ : BufTy).Contents (Elt F) → (⟨S2550000, .i1⟩ : BufTy).Contents (Elt F)),
    nullary main_c_10 (constantI S_ 32 150000#32),
    unary main_c_10 main_v54 (broadcastInDim S2550000 ![] bcast_S_S2550000 : (⟨S_, .i32⟩ : BufTy).Contents (Elt F) → (⟨S2550000, .i32⟩ : BufTy).Contents (Elt F)),
    binary main_v5 main_v54 main_v55 (addi : (⟨S2550000, .i32⟩ : BufTy).Contents (Elt F) → (⟨S2550000, .i32⟩ : BufTy).Contents (Elt F) → (⟨S2550000, .i32⟩ : BufTy).Contents (Elt F)),
    ternary main_v53 main_v55 main_v5 main_v56 (select : (⟨S2550000, .i1⟩ : BufTy).Contents (Elt F) → (⟨S2550000, .i32⟩ : BufTy).Contents (Elt F) → (⟨S2550000, .i32⟩ : BufTy).Contents (Elt F) → (⟨S2550000, .i32⟩ : BufTy).Contents (Elt F)),
    unary main_v56 main_v57 (broadcastInDim S2550000x1 ![0] bcast_S2550000_S2550000x1_0 : (⟨S2550000, .i32⟩ : BufTy).Contents (Elt F) → (⟨S2550000x1, .i32⟩ : BufTy).Contents (Elt F)),
    binary main_v50 main_v57 main_v58 ((fun x i => Host.gather gather_S150000x7_S2550000x1_S2550000x7_1_0_n_n_0_1_17 x i) : (⟨S150000x7, .f32⟩ : BufTy).Contents (Elt F) → (⟨S2550000x1, .i32⟩ : BufTy).Contents (Elt F) → (⟨S2550000x7, .f32⟩ : BufTy).Contents (Elt F)),
    unary main_v51 main_v59 (broadcastInDim S2550000x7 ![0, 1] bcast_S2550000x1_S2550000x7_0_1 : (⟨S2550000x1, .f32⟩ : BufTy).Contents (Elt F) → (⟨S2550000x7, .f32⟩ : BufTy).Contents (Elt F)),
    binary main_v59 main_v58 main_v60 (mulf : (⟨S2550000x7, .f32⟩ : BufTy).Contents (Elt F) → (⟨S2550000x7, .f32⟩ : BufTy).Contents (Elt F) → (⟨S2550000x7, .f32⟩ : BufTy).Contents (Elt F)),
    nullary main_cst_11 (constant S_ .f32 0x00000000#32),
    unary main_cst_11 main_v61 (broadcastInDim S150000x7 ![] bcast_S_S150000x7 : (⟨S_, .f32⟩ : BufTy).Contents (Elt F) → (⟨S150000x7, .f32⟩ : BufTy).Contents (Elt F)),
    unary main_v6 main_v62 (broadcastInDim S2550000x1 ![0] bcast_S2550000_S2550000x1_0 : (⟨S2550000, .i32⟩ : BufTy).Contents (Elt F) → (⟨S2550000x1, .i32⟩ : BufTy).Contents (Elt F)),
    ternary main_v61 main_v62 main_v60 main_v63 ((fun x i u => Host.scatterAdd scatter_S150000x7_S2550000x1_S2550000x7_1_0_0_1 x i u) : (⟨S150000x7, .f32⟩ : BufTy).Contents (Elt F) → (⟨S2550000x1, .i32⟩ : BufTy).Contents (Elt F) → (⟨S2550000x7, .f32⟩ : BufTy).Contents (Elt F) → (⟨S150000x7, .f32⟩ : BufTy).Contents (Elt F)),
    unary main_arg6 main_v64 (broadcastInDim S1x7 ![1] bcast_S7_S1x7_1 : (⟨S7, .f32⟩ : BufTy).Contents (Elt F) → (⟨S1x7, .f32⟩ : BufTy).Contents (Elt F)),
    unary main_v64 main_v65 (broadcastInDim S150000x7 ![0, 1] bcast_S1x7_S150000x7_0_1 : (⟨S1x7, .f32⟩ : BufTy).Contents (Elt F) → (⟨S150000x7, .f32⟩ : BufTy).Contents (Elt F)),
    binary main_v63 main_v65 main_v66 (addf : (⟨S150000x7, .f32⟩ : BufTy).Contents (Elt F) → (⟨S150000x7, .f32⟩ : BufTy).Contents (Elt F) → (⟨S150000x7, .f32⟩ : BufTy).Contents (Elt F)) ]

/-- Operation 85 of the list. -/
abbrev op85 : HloOp τ sig (Elt F) :=
  TRef.nullary (TRef.of (T := ⟨S_, .f32⟩) main_call2_cst) (constant S_ .f32 0xFF800000#32)
/-- Operation 86 of the list. -/
abbrev op86 : HloOp τ sig (Elt F) :=
  TRef.binary (TRef.of (T := ⟨S150000x7, .f32⟩) main_v66) (TRef.of (T := ⟨S_, .f32⟩) main_call2_cst) (TRef.of (T := ⟨S150000, .f32⟩) main_call2_v0) (fun x v => Host.reduce FloatOps.maximumf x v reducesTo_S150000x7_S150000_d1 h_S_)
/-- Operation 87 of the list. -/
abbrev op87 : HloOp τ sig (Elt F) :=
  TRef.nullary (TRef.of (T := ⟨S_, .f32⟩) main_call2_cst_0) (constant S_ .f32 0xFF800000#32)
/-- Operation 88 of the list. -/
abbrev op88 : HloOp τ sig (Elt F) :=
  TRef.unary (TRef.of (T := ⟨S_, .f32⟩) main_call2_cst_0) (TRef.of (T := ⟨S150000, .f32⟩) main_call2_v1) (broadcastInDim S150000 ![] bcast_S_S150000)
/-- Operation 89 of the list. -/
abbrev op89 : HloOp τ sig (Elt F) :=
  TRef.binary (TRef.of (T := ⟨S150000, .f32⟩) main_call2_v1) (TRef.of (T := ⟨S150000, .f32⟩) main_call2_v0) (TRef.of (T := ⟨S150000, .f32⟩) main_call2_v2) maximumf
/-- Operation 90 of the list. -/
abbrev op90 : HloOp τ sig (Elt F) :=
  TRef.unary (TRef.of (T := ⟨S150000, .f32⟩) main_call2_v2) (TRef.of (T := ⟨S150000x1, .f32⟩) main_call2_v3) (broadcastInDim S150000x1 ![0] bcast_S150000_S150000x1_0)
/-- Operation 91 of the list. -/
abbrev op91 : HloOp τ sig (Elt F) :=
  TRef.unary (TRef.of (T := ⟨S150000x1, .f32⟩) main_call2_v3) (TRef.of (T := ⟨S150000x7, .f32⟩) main_call2_v4) (broadcastInDim S150000x7 ![0, 1] bcast_S150000x1_S150000x7_0_1)
/-- Operation 92 of the list. -/
abbrev op92 : HloOp τ sig (Elt F) :=
  TRef.binary (TRef.of (T := ⟨S150000x7, .f32⟩) main_v66) (TRef.of (T := ⟨S150000x7, .f32⟩) main_call2_v4) (TRef.of (T := ⟨S150000x7, .f32⟩) main_call2_v5) subf
/-- Operation 93 of the list. -/
abbrev op93 : HloOp τ sig (Elt F) :=
  TRef.unary (TRef.of (T := ⟨S150000x7, .f32⟩) main_call2_v5) (TRef.of (T := ⟨S150000x7, .f32⟩) main_call2_v6) Host.exp
/-- Operation 94 of the list. -/
abbrev op94 : HloOp τ sig (Elt F) :=
  TRef.nullary (TRef.of (T := ⟨S_, .f32⟩) main_call2_cst_1) (constant S_ .f32 0x00000000#32)
/-- Operation 95 of the list. -/
abbrev op95 : HloOp τ sig (Elt F) :=
  TRef.binary (TRef.of (T := ⟨S150000x7, .f32⟩) main_call2_v6) (TRef.of (T := ⟨S_, .f32⟩) main_call2_cst_1) (TRef.of (T := ⟨S150000, .f32⟩) main_call2_v7) (fun x v => Host.reduceAdd x v reducesTo_S150000x7_S150000_d1 h_S_)
/-- Operation 96 of the list. -/
abbrev op96 : HloOp τ sig (Elt F) :=
  TRef.unary (TRef.of (T := ⟨S150000, .f32⟩) main_call2_v7) (TRef.of (T := ⟨S150000x1, .f32⟩) main_call2_v8) (broadcastInDim S150000x1 ![0] bcast_S150000_S150000x1_0)
/-- Operation 97 of the list. -/
abbrev op97 : HloOp τ sig (Elt F) :=
  TRef.unary (TRef.of (T := ⟨S150000x1, .f32⟩) main_call2_v8) (TRef.of (T := ⟨S150000x1, .f32⟩) main_call2_v9) Host.log
/-- Operation 98 of the list. -/
abbrev op98 : HloOp τ sig (Elt F) :=
  TRef.unary (TRef.of (T := ⟨S150000x1, .f32⟩) main_call2_v9) (TRef.of (T := ⟨S150000x7, .f32⟩) main_call2_v10) (broadcastInDim S150000x7 ![0, 1] bcast_S150000x1_S150000x7_0_1)
/-- Operation 99 of the list. -/
abbrev op99 : HloOp τ sig (Elt F) :=
  TRef.binary (TRef.of (T := ⟨S150000x7, .f32⟩) main_call2_v5) (TRef.of (T := ⟨S150000x7, .f32⟩) main_call2_v10) (TRef.of (T := ⟨S150000x7, .f32⟩) main_v67) subf

/-- Operations 85 to 99 of the list: the log-softmax. -/
abbrev seg7 : List (HloOp τ sig (Elt F)) :=
  [op85, op86, op87, op88, op89, op90, op91, op92, op93, op94, op95, op96, op97, op98, op99]

/-- The list is its seven stretches in a row. -/
theorem ops_eq : (Cert.ReferenceIdeal.ValueP.ops (F := F)) = seg1 ++ (seg2 ++ (seg3 ++ (seg4 ++ (seg5 ++ (seg6 ++ seg7))))) := rfl

/-! ## Each stretch, from any contents that hold the stages it reads -/

theorem s1_v5 (V : Valuation τ sig (Elt F)) :
    after (seg1 (F := F)) V (Proc.devRef .tc main_v5) = val_main_v5 (F := F) (V (Proc.devRef .tc main_arg1)) := by
  after_results
  rfl

theorem s1_v6 (V : Valuation τ sig (Elt F)) :
    after (seg1 (F := F)) V (Proc.devRef .tc main_v6) = val_main_v6 (F := F) (V (Proc.devRef .tc main_arg1)) := by
  after_results
  rfl

theorem s1_v8 (V : Valuation τ sig (Elt F)) :
    after (seg1 (F := F)) V (Proc.devRef .tc main_v8) = val_main_v8 (F := F) (V (Proc.devRef .tc main_arg2)) := by
  after_results
  rfl

theorem s2_v15 (V : Valuation τ sig (Elt F)) (x1 : (⟨S2x2400000, .i32⟩ : BufTy).Contents (Elt F)) (x2 : (⟨S2400000, .f32⟩ : BufTy).Contents (Elt F))
    (h6 : V (Proc.devRef .tc main_v6) = val_main_v6 (F := F) x1)
    (h8 : V (Proc.devRef .tc main_v8) = val_main_v8 (F := F) x2) :
    after (seg2 (F := F)) V (Proc.devRef .tc main_v15) = val_main_v15 (F := F) x1 x2 := by
  after_results
  rw [h6, h8]
  rfl

theorem s3_v31 (V : Valuation τ sig (Elt F)) (x1 : (⟨S2x2400000, .i32⟩ : BufTy).Contents (Elt F)) (x2 : (⟨S2400000, .f32⟩ : BufTy).Contents (Elt F))
    (h5 : V (Proc.devRef .tc main_v5) = val_main_v5 (F := F) x1)
    (h6 : V (Proc.devRef .tc main_v6) = val_main_v6 (F := F) x1)
    (h8 : V (Proc.devRef .tc main_v8) = val_main_v8 (F := F) x2)
    (h15 : V (Proc.devRef .tc main_v15) = val_main_v15 (F := F) x1 x2) :
    after (seg3 (F := F)) V (Proc.devRef .tc main_v31) = val_main_v31 (F := F) x1 x2 := by
  after_results_simp
  rw [h5, h6, h8, h15]
  rfl

theorem s4_v48 (V : Valuation τ sig (Elt F)) (x0 : (⟨S150000x9, .f32⟩ : BufTy).Contents (Elt F)) (x1 : (⟨S2x2400000, .i32⟩ : BufTy).Contents (Elt F)) (x2 : (⟨S2400000, .f32⟩ : BufTy).Contents (Elt F)) (x3 : (⟨S9x32, .f32⟩ : BufTy).Contents (Elt F)) (x4 : (⟨S32, .f32⟩ : BufTy).Contents (Elt F))
    (hA0 : V (Proc.devRef .tc main_arg0) = x0) (hA3 : V (Proc.devRef .tc main_arg3) = x3) (hA4 : V (Proc.devRef .tc main_arg4) = x4)
    (h5 : V (Proc.devRef .tc main_v5) = val_main_v5 (F := F) x1)
    (h6 : V (Proc.devRef .tc main_v6) = val_main_v6 (F := F) x1)
    (h31 : V (Proc.devRef .tc main_v31) = val_main_v31 (F := F) x1 x2) :
    after (seg4 (F := F)) V (Proc.devRef .tc main_v48) = val_main_v48 (F := F) x0 x1 x2 x3 x4 := by
  after_results_simp
  rw [hA0, hA3, hA4, h5, h6, h31]
  rfl

theorem s5_v49 (V : Valuation τ sig (Elt F)) (x0 : (⟨S150000x9, .f32⟩ : BufTy).Contents (Elt F)) (x1 : (⟨S2x2400000, .i32⟩ : BufTy).Contents (Elt F)) (x2 : (⟨S2400000, .f32⟩ : BufTy).Contents (Elt F)) (x3 : (⟨S9x32, .f32⟩ : BufTy).Contents (Elt F)) (x4 : (⟨S32, .f32⟩ : BufTy).Contents (Elt F))
    (h48 : V (Proc.devRef .tc main_v48) = val_main_v48 (F := F) x0 x1 x2 x3 x4) :
    after (seg5 (F := F)) V (Proc.devRef .tc main_v49) = val_main_v49 (F := F) x0 x1 x2 x3 x4 := by
  after_results
  rw [h48]
  rfl

theorem s6_v66 (V : Valuation τ sig (Elt F)) (x0 : (⟨S150000x9, .f32⟩ : BufTy).Contents (Elt F)) (x1 : (⟨S2x2400000, .i32⟩ : BufTy).Contents (Elt F)) (x2 : (⟨S2400000, .f32⟩ : BufTy).Contents (Elt F)) (x3 : (⟨S9x32, .f32⟩ : BufTy).Contents (Elt F)) (x4 : (⟨S32, .f32⟩ : BufTy).Contents (Elt F)) (x5 : (⟨S32x7, .f32⟩ : BufTy).Contents (Elt F)) (x6 : (⟨S7, .f32⟩ : BufTy).Contents (Elt F))
    (hA5 : V (Proc.devRef .tc main_arg5) = x5) (hA6 : V (Proc.devRef .tc main_arg6) = x6)
    (h5 : V (Proc.devRef .tc main_v5) = val_main_v5 (F := F) x1)
    (h6 : V (Proc.devRef .tc main_v6) = val_main_v6 (F := F) x1)
    (h31 : V (Proc.devRef .tc main_v31) = val_main_v31 (F := F) x1 x2)
    (h49 : V (Proc.devRef .tc main_v49) = val_main_v49 (F := F) x0 x1 x2 x3 x4) :
    after (seg6 (F := F)) V (Proc.devRef .tc main_v66) = val_main_v66 (F := F) x0 x1 x2 x3 x4 x5 x6 := by
  after_results_simp
  rw [hA5, hA6, h5, h6, h31, h49]
  rfl

/-! ## The log-softmax, one operation at a time

Its operations are stated over typed references. Each one's result is first read off without the transport along the
reference's type; the fifteen are then run in a row, each from what the one before left. -/

theorem res85 (V : Valuation τ sig (Elt F)) :
    after [op85 (F := F)] V (Proc.devRef .tc main_call2_cst) = constant S_ .f32 0xFF800000#32 := by
  after_results
  simp only [TRef.ofBuf, TRef.toBuf, cast_eq]

theorem res86 (V : Valuation τ sig (Elt F)) :
    after [op86 (F := F)] V (Proc.devRef .tc main_call2_v0) = Host.reduce FloatOps.maximumf (V (Proc.devRef .tc main_v66)) (V (Proc.devRef .tc main_call2_cst)) reducesTo_S150000x7_S150000_d1 h_S_ := by
  after_results
  simp only [TRef.ofBuf, TRef.toBuf, cast_eq]

theorem res87 (V : Valuation τ sig (Elt F)) :
    after [op87 (F := F)] V (Proc.devRef .tc main_call2_cst_0) = constant S_ .f32 0xFF800000#32 := by
  after_results
  simp only [TRef.ofBuf, TRef.toBuf, cast_eq]

theorem res88 (V : Valuation τ sig (Elt F)) :
    after [op88 (F := F)] V (Proc.devRef .tc main_call2_v1) = broadcastInDim S150000 ![] bcast_S_S150000 (V (Proc.devRef .tc main_call2_cst_0)) := by
  after_results
  simp only [TRef.ofBuf, TRef.toBuf, cast_eq]

theorem res89 (V : Valuation τ sig (Elt F)) :
    after [op89 (F := F)] V (Proc.devRef .tc main_call2_v2) = maximumf (V (Proc.devRef .tc main_call2_v1)) (V (Proc.devRef .tc main_call2_v0)) := by
  after_results
  simp only [TRef.ofBuf, TRef.toBuf, cast_eq]

theorem res90 (V : Valuation τ sig (Elt F)) :
    after [op90 (F := F)] V (Proc.devRef .tc main_call2_v3) = broadcastInDim S150000x1 ![0] bcast_S150000_S150000x1_0 (V (Proc.devRef .tc main_call2_v2)) := by
  after_results
  simp only [TRef.ofBuf, TRef.toBuf, cast_eq]

theorem res91 (V : Valuation τ sig (Elt F)) :
    after [op91 (F := F)] V (Proc.devRef .tc main_call2_v4) = broadcastInDim S150000x7 ![0, 1] bcast_S150000x1_S150000x7_0_1 (V (Proc.devRef .tc main_call2_v3)) := by
  after_results
  simp only [TRef.ofBuf, TRef.toBuf, cast_eq]

theorem res92 (V : Valuation τ sig (Elt F)) :
    after [op92 (F := F)] V (Proc.devRef .tc main_call2_v5) = subf (V (Proc.devRef .tc main_v66)) (V (Proc.devRef .tc main_call2_v4)) := by
  after_results
  simp only [TRef.ofBuf, TRef.toBuf, cast_eq]

theorem res93 (V : Valuation τ sig (Elt F)) :
    after [op93 (F := F)] V (Proc.devRef .tc main_call2_v6) = Host.exp (V (Proc.devRef .tc main_call2_v5)) := by
  after_results
  simp only [TRef.ofBuf, TRef.toBuf, cast_eq]

theorem res94 (V : Valuation τ sig (Elt F)) :
    after [op94 (F := F)] V (Proc.devRef .tc main_call2_cst_1) = constant S_ .f32 0x00000000#32 := by
  after_results
  simp only [TRef.ofBuf, TRef.toBuf, cast_eq]

theorem res95 (V : Valuation τ sig (Elt F)) :
    after [op95 (F := F)] V (Proc.devRef .tc main_call2_v7) = Host.reduceAdd (V (Proc.devRef .tc main_call2_v6)) (V (Proc.devRef .tc main_call2_cst_1)) reducesTo_S150000x7_S150000_d1 h_S_ := by
  after_results
  simp only [TRef.ofBuf, TRef.toBuf, cast_eq]

theorem res96 (V : Valuation τ sig (Elt F)) :
    after [op96 (F := F)] V (Proc.devRef .tc main_call2_v8) = broadcastInDim S150000x1 ![0] bcast_S150000_S150000x1_0 (V (Proc.devRef .tc main_call2_v7)) := by
  after_results
  simp only [TRef.ofBuf, TRef.toBuf, cast_eq]

theorem res97 (V : Valuation τ sig (Elt F)) :
    after [op97 (F := F)] V (Proc.devRef .tc main_call2_v9) = Host.log (V (Proc.devRef .tc main_call2_v8)) := by
  after_results
  simp only [TRef.ofBuf, TRef.toBuf, cast_eq]

theorem res98 (V : Valuation τ sig (Elt F)) :
    after [op98 (F := F)] V (Proc.devRef .tc main_call2_v10) = broadcastInDim S150000x7 ![0, 1] bcast_S150000x1_S150000x7_0_1 (V (Proc.devRef .tc main_call2_v9)) := by
  after_results
  simp only [TRef.ofBuf, TRef.toBuf, cast_eq]

theorem res99 (V : Valuation τ sig (Elt F)) :
    after [op99 (F := F)] V (Proc.devRef .tc main_v67) = subf (V (Proc.devRef .tc main_call2_v5)) (V (Proc.devRef .tc main_call2_v10)) := by
  after_results
  simp only [TRef.ofBuf, TRef.toBuf, cast_eq]

/-- A buffer other than the one a single operation writes keeps its contents through it. -/
theorem keep_op (op : HloOp τ sig (Elt F)) (y : Ref sig .tc) (hw : op.writes = {Proc.devRef .tc y})
    (V : Valuation τ sig (Elt F)) (r : Ref sig .tc) (h : r ≠ y) :
    after [op] V (Proc.devRef .tc r) = V (Proc.devRef .tc r) :=
  after_of_forall_not_mem [op] V (fun o ho => by
    rw [List.mem_singleton.mp ho, hw, Finset.mem_singleton]; exact devRef_ne_of_ne h)

/-- The last stretch: from the second layer's output, the log-softmax's fifteen operations leave the last stage. -/
theorem s7_v67 (V0 : Valuation τ sig (Elt F)) (x0 : (⟨S150000x9, .f32⟩ : BufTy).Contents (Elt F)) (x1 : (⟨S2x2400000, .i32⟩ : BufTy).Contents (Elt F)) (x2 : (⟨S2400000, .f32⟩ : BufTy).Contents (Elt F)) (x3 : (⟨S9x32, .f32⟩ : BufTy).Contents (Elt F)) (x4 : (⟨S32, .f32⟩ : BufTy).Contents (Elt F)) (x5 : (⟨S32x7, .f32⟩ : BufTy).Contents (Elt F)) (x6 : (⟨S7, .f32⟩ : BufTy).Contents (Elt F))
    (h66 : V0 (Proc.devRef .tc main_v66) = val_main_v66 (F := F) x0 x1 x2 x3 x4 x5 x6) :
    after (seg7 (F := F)) V0 (Proc.devRef .tc main_v67) = val_main_v67 (F := F) x0 x1 x2 x3 x4 x5 x6 := by
  show after [op99 (F := F)] (after [op98 (F := F)] (after [op97 (F := F)] (after [op96 (F := F)] (after [op95 (F := F)] (after [op94 (F := F)] (after [op93 (F := F)] (after [op92 (F := F)] (after [op91 (F := F)] (after [op90 (F := F)] (after [op89 (F := F)] (after [op88 (F := F)] (after [op87 (F := F)] (after [op86 (F := F)] (after [op85 (F := F)] V0)))))))))))))) (Proc.devRef .tc main_v67) = _
  have f_main_v66 := h66
  -- operation 85
  have n_main_call2_cst : after [op85 (F := F)] V0 (Proc.devRef .tc main_call2_cst) = val_main_call2_cst (F := F) := by
    rw [res85]; rfl
  have f_main_v66 := (keep_op (op85 (F := F)) main_call2_cst rfl V0 main_v66 (by decide)).trans f_main_v66
  have f_main_call2_cst := n_main_call2_cst
  generalize after [op85 (F := F)] V0 = V1 at *
  -- operation 86
  have n_main_call2_v0 : after [op86 (F := F)] V1 (Proc.devRef .tc main_call2_v0) = val_main_call2_v0 (F := F) x0 x1 x2 x3 x4 x5 x6 := by
    rw [res86, f_main_v66, f_main_call2_cst]; rfl
  have f_main_v66 := (keep_op (op86 (F := F)) main_call2_v0 rfl V1 main_v66 (by decide)).trans f_main_v66
  have f_main_call2_v0 := n_main_call2_v0
  generalize after [op86 (F := F)] V1 = V2 at *
  -- operation 87
  have n_main_call2_cst_0 : after [op87 (F := F)] V2 (Proc.devRef .tc main_call2_cst_0) = val_main_call2_cst_0 (F := F) := by
    rw [res87]; rfl
  have f_main_v66 := (keep_op (op87 (F := F)) main_call2_cst_0 rfl V2 main_v66 (by decide)).trans f_main_v66
  have f_main_call2_v0 := (keep_op (op87 (F := F)) main_call2_cst_0 rfl V2 main_call2_v0 (by decide)).trans f_main_call2_v0
  have f_main_call2_cst_0 := n_main_call2_cst_0
  generalize after [op87 (F := F)] V2 = V3 at *
  -- operation 88
  have n_main_call2_v1 : after [op88 (F := F)] V3 (Proc.devRef .tc main_call2_v1) = val_main_call2_v1 (F := F) := by
    rw [res88, f_main_call2_cst_0]; rfl
  have f_main_v66 := (keep_op (op88 (F := F)) main_call2_v1 rfl V3 main_v66 (by decide)).trans f_main_v66
  have f_main_call2_v0 := (keep_op (op88 (F := F)) main_call2_v1 rfl V3 main_call2_v0 (by decide)).trans f_main_call2_v0
  have f_main_call2_v1 := n_main_call2_v1
  generalize after [op88 (F := F)] V3 = V4 at *
  -- operation 89
  have n_main_call2_v2 : after [op89 (F := F)] V4 (Proc.devRef .tc main_call2_v2) = val_main_call2_v2 (F := F) x0 x1 x2 x3 x4 x5 x6 := by
    rw [res89, f_main_call2_v1, f_main_call2_v0]; rfl
  have f_main_v66 := (keep_op (op89 (F := F)) main_call2_v2 rfl V4 main_v66 (by decide)).trans f_main_v66
  have f_main_call2_v2 := n_main_call2_v2
  generalize after [op89 (F := F)] V4 = V5 at *
  -- operation 90
  have n_main_call2_v3 : after [op90 (F := F)] V5 (Proc.devRef .tc main_call2_v3) = val_main_call2_v3 (F := F) x0 x1 x2 x3 x4 x5 x6 := by
    rw [res90, f_main_call2_v2]; rfl
  have f_main_v66 := (keep_op (op90 (F := F)) main_call2_v3 rfl V5 main_v66 (by decide)).trans f_main_v66
  have f_main_call2_v3 := n_main_call2_v3
  generalize after [op90 (F := F)] V5 = V6 at *
  -- operation 91
  have n_main_call2_v4 : after [op91 (F := F)] V6 (Proc.devRef .tc main_call2_v4) = val_main_call2_v4 (F := F) x0 x1 x2 x3 x4 x5 x6 := by
    rw [res91, f_main_call2_v3]; rfl
  have f_main_v66 := (keep_op (op91 (F := F)) main_call2_v4 rfl V6 main_v66 (by decide)).trans f_main_v66
  have f_main_call2_v4 := n_main_call2_v4
  generalize after [op91 (F := F)] V6 = V7 at *
  -- operation 92
  have n_main_call2_v5 : after [op92 (F := F)] V7 (Proc.devRef .tc main_call2_v5) = val_main_call2_v5 (F := F) x0 x1 x2 x3 x4 x5 x6 := by
    rw [res92, f_main_v66, f_main_call2_v4]; rfl
  have f_main_call2_v5 := n_main_call2_v5
  generalize after [op92 (F := F)] V7 = V8 at *
  -- operation 93
  have n_main_call2_v6 : after [op93 (F := F)] V8 (Proc.devRef .tc main_call2_v6) = val_main_call2_v6 (F := F) x0 x1 x2 x3 x4 x5 x6 := by
    rw [res93, f_main_call2_v5]; rfl
  have f_main_call2_v5 := (keep_op (op93 (F := F)) main_call2_v6 rfl V8 main_call2_v5 (by decide)).trans f_main_call2_v5
  have f_main_call2_v6 := n_main_call2_v6
  generalize after [op93 (F := F)] V8 = V9 at *
  -- operation 94
  have n_main_call2_cst_1 : after [op94 (F := F)] V9 (Proc.devRef .tc main_call2_cst_1) = val_main_call2_cst_1 (F := F) := by
    rw [res94]; rfl
  have f_main_call2_v5 := (keep_op (op94 (F := F)) main_call2_cst_1 rfl V9 main_call2_v5 (by decide)).trans f_main_call2_v5
  have f_main_call2_v6 := (keep_op (op94 (F := F)) main_call2_cst_1 rfl V9 main_call2_v6 (by decide)).trans f_main_call2_v6
  have f_main_call2_cst_1 := n_main_call2_cst_1
  generalize after [op94 (F := F)] V9 = V10 at *
  -- operation 95
  have n_main_call2_v7 : after [op95 (F := F)] V10 (Proc.devRef .tc main_call2_v7) = val_main_call2_v7 (F := F) x0 x1 x2 x3 x4 x5 x6 := by
    rw [res95, f_main_call2_v6, f_main_call2_cst_1]; rfl
  have f_main_call2_v5 := (keep_op (op95 (F := F)) main_call2_v7 rfl V10 main_call2_v5 (by decide)).trans f_main_call2_v5
  have f_main_call2_v7 := n_main_call2_v7
  generalize after [op95 (F := F)] V10 = V11 at *
  -- operation 96
  have n_main_call2_v8 : after [op96 (F := F)] V11 (Proc.devRef .tc main_call2_v8) = val_main_call2_v8 (F := F) x0 x1 x2 x3 x4 x5 x6 := by
    rw [res96, f_main_call2_v7]; rfl
  have f_main_call2_v5 := (keep_op (op96 (F := F)) main_call2_v8 rfl V11 main_call2_v5 (by decide)).trans f_main_call2_v5
  have f_main_call2_v8 := n_main_call2_v8
  generalize after [op96 (F := F)] V11 = V12 at *
  -- operation 97
  have n_main_call2_v9 : after [op97 (F := F)] V12 (Proc.devRef .tc main_call2_v9) = val_main_call2_v9 (F := F) x0 x1 x2 x3 x4 x5 x6 := by
    rw [res97, f_main_call2_v8]; rfl
  have f_main_call2_v5 := (keep_op (op97 (F := F)) main_call2_v9 rfl V12 main_call2_v5 (by decide)).trans f_main_call2_v5
  have f_main_call2_v9 := n_main_call2_v9
  generalize after [op97 (F := F)] V12 = V13 at *
  -- operation 98
  have n_main_call2_v10 : after [op98 (F := F)] V13 (Proc.devRef .tc main_call2_v10) = val_main_call2_v10 (F := F) x0 x1 x2 x3 x4 x5 x6 := by
    rw [res98, f_main_call2_v9]; rfl
  have f_main_call2_v5 := (keep_op (op98 (F := F)) main_call2_v10 rfl V13 main_call2_v5 (by decide)).trans f_main_call2_v5
  have f_main_call2_v10 := n_main_call2_v10
  generalize after [op98 (F := F)] V13 = V14 at *
  rw [res99, f_main_call2_v5, f_main_call2_v10]
  rfl

/-! ## What each stretch writes, and what it keeps -/

/-- The buffers that the operations of stretch 1 write. -/
abbrev seg1_W : List (Ref sig .tc) := [main_v0, main_v1, main_v2, main_v3, main_v4, main_v5, main_v6, main_cst, main_v7, main_v8]
theorem seg1_writes : (seg1 : List (HloOp τ sig (Elt F))).Forall fun op => op.writes ⊆ (seg1_W.map (Proc.devRef (τ := τ) .tc)).toFinset := by
  simp only [List.Forall]
  refine ⟨?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer that stretch 1 does not write keeps its contents through it. -/
theorem keep1 (V : Valuation τ sig (Elt F)) (r : Ref sig .tc) (h : r ∉ seg1_W) :
    after (seg1 (F := F)) V (Proc.devRef .tc r) = V (Proc.devRef .tc r) :=
  after_of_writes_sub seg1 V seg1_writes h

/-- The buffers that the operations of stretch 2 write. -/
abbrev seg2_W : List (Ref sig .tc) := [main_cst_0, main_v9, main_v10, main_v11, main_cst_1, main_v12, main_v13, main_v14, main_cst_2, main_call0_v0, main_call0_v1, main_v15]
theorem seg2_writes : (seg2 : List (HloOp τ sig (Elt F))).Forall fun op => op.writes ⊆ (seg2_W.map (Proc.devRef (τ := τ) .tc)).toFinset := by
  simp only [List.Forall]
  refine ⟨?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer that stretch 2 does not write keeps its contents through it. -/
theorem keep2 (V : Valuation τ sig (Elt F)) (r : Ref sig .tc) (h : r ∉ seg2_W) :
    after (seg2 (F := F)) V (Proc.devRef .tc r) = V (Proc.devRef .tc r) :=
  after_of_writes_sub seg2 V seg2_writes h

/-- The buffers that the operations of stretch 3 write. -/
abbrev seg3_W : List (Ref sig .tc) := [main_c, main_v16, main_v17, main_c_3, main_v18, main_v19, main_v20, main_v21, main_v22, main_v23, main_c_4, main_v24, main_v25, main_c_5, main_v26, main_v27, main_v28, main_v29, main_v30, main_v31]
theorem seg3_writes : (seg3 : List (HloOp τ sig (Elt F))).Forall fun op => op.writes ⊆ (seg3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer that stretch 3 does not write keeps its contents through it. -/
theorem keep3 (V : Valuation τ sig (Elt F)) (r : Ref sig .tc) (h : r ∉ seg3_W) :
    after (seg3 (F := F)) V (Proc.devRef .tc r) = V (Proc.devRef .tc r) :=
  after_of_writes_sub seg3 V seg3_writes h

/-- The buffers that the operations of stretch 4 write. -/
abbrev seg4_W : List (Ref sig .tc) := [main_v32, main_v33, main_c_6, main_v34, main_v35, main_c_7, main_v36, main_v37, main_v38, main_v39, main_v40, main_v41, main_v42, main_cst_8, main_v43, main_v44, main_v45, main_v46, main_v47, main_v48]
theorem seg4_writes : (seg4 : List (HloOp τ sig (Elt F))).Forall fun op => op.writes ⊆ (seg4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer that stretch 4 does not write keeps its contents through it. -/
theorem keep4 (V : Valuation τ sig (Elt F)) (r : Ref sig .tc) (h : r ∉ seg4_W) :
    after (seg4 (F := F)) V (Proc.devRef .tc r) = V (Proc.devRef .tc r) :=
  after_of_writes_sub seg4 V seg4_writes h

/-- The buffers that the operations of stretch 5 write. -/
abbrev seg5_W : List (Ref sig .tc) := [main_call1_cst, main_call1_v0, main_v49]
theorem seg5_writes : (seg5 : List (HloOp τ sig (Elt F))).Forall fun op => op.writes ⊆ (seg5_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer that stretch 5 does not write keeps its contents through it. -/
theorem keep5 (V : Valuation τ sig (Elt F)) (r : Ref sig .tc) (h : r ∉ seg5_W) :
    after (seg5 (F := F)) V (Proc.devRef .tc r) = V (Proc.devRef .tc r) :=
  after_of_writes_sub seg5 V seg5_writes h

/-! ## The stretches in a row -/

/-- From any contents: after the whole list the result buffer holds the last stage of what the seven argument buffers held. -/
theorem result_of (V0 : Valuation τ sig (Elt F)) :
    after (Cert.ReferenceIdeal.ValueP.ops (F := F)) V0 (Proc.devRef .tc main_v67)
      = val_main_v67 (F := F) (V0 (Proc.devRef .tc main_arg0)) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)) := by
  rw [ops_eq, after_append, after_append, after_append, after_append, after_append, after_append]
  -- after the index and weight arrays are built
  have a5_1 := s1_v5 (F := F) V0
  have a6_1 := s1_v6 (F := F) V0
  have a8_1 := s1_v8 (F := F) V0
  have g0_1 := keep1 (F := F) V0 main_arg0 (by decide)
  have g3_1 := keep1 (F := F) V0 main_arg3 (by decide)
  have g4_1 := keep1 (F := F) V0 main_arg4 (by decide)
  have g5_1 := keep1 (F := F) V0 main_arg5 (by decide)
  have g6_1 := keep1 (F := F) V0 main_arg6 (by decide)
  generalize after (seg1 (F := F)) V0 = V1 at *
  -- after the normalisation
  have a15_2 := s2_v15 (F := F) V1 _ _ a6_1 a8_1
  have a5_2 := (keep2 (F := F) V1 main_v5 (by decide)).trans a5_1
  have a6_2 := (keep2 (F := F) V1 main_v6 (by decide)).trans a6_1
  have a8_2 := (keep2 (F := F) V1 main_v8 (by decide)).trans a8_1
  have g0_2 := (keep2 (F := F) V1 main_arg0 (by decide)).trans g0_1
  have g3_2 := (keep2 (F := F) V1 main_arg3 (by decide)).trans g3_1
  have g4_2 := (keep2 (F := F) V1 main_arg4 (by decide)).trans g4_1
  have g5_2 := (keep2 (F := F) V1 main_arg5 (by decide)).trans g5_1
  have g6_2 := (keep2 (F := F) V1 main_arg6 (by decide)).trans g6_1
  generalize after (seg2 (F := F)) V1 = V2 at *
  -- after the edge coefficients
  have a31_3 := s3_v31 (F := F) V2 _ _ a5_2 a6_2 a8_2 a15_2
  have a5_3 := (keep3 (F := F) V2 main_v5 (by decide)).trans a5_2
  have a6_3 := (keep3 (F := F) V2 main_v6 (by decide)).trans a6_2
  have g0_3 := (keep3 (F := F) V2 main_arg0 (by decide)).trans g0_2
  have g3_3 := (keep3 (F := F) V2 main_arg3 (by decide)).trans g3_2
  have g4_3 := (keep3 (F := F) V2 main_arg4 (by decide)).trans g4_2
  have g5_3 := (keep3 (F := F) V2 main_arg5 (by decide)).trans g5_2
  have g6_3 := (keep3 (F := F) V2 main_arg6 (by decide)).trans g6_2
  generalize after (seg3 (F := F)) V2 = V3 at *
  -- after the first layer's sum and bias
  have a48_4 := s4_v48 (F := F) V3 _ _ _ _ _ g0_3 g3_3 g4_3 a5_3 a6_3 a31_3
  have a5_4 := (keep4 (F := F) V3 main_v5 (by decide)).trans a5_3
  have a6_4 := (keep4 (F := F) V3 main_v6 (by decide)).trans a6_3
  have a31_4 := (keep4 (F := F) V3 main_v31 (by decide)).trans a31_3
  have g5_4 := (keep4 (F := F) V3 main_arg5 (by decide)).trans g5_3
  have g6_4 := (keep4 (F := F) V3 main_arg6 (by decide)).trans g6_3
  generalize after (seg4 (F := F)) V3 = V4 at *
  -- after the rectification
  have a49_5 := s5_v49 (F := F) V4 _ _ _ _ _ a48_4
  have a5_5 := (keep5 (F := F) V4 main_v5 (by decide)).trans a5_4
  have a6_5 := (keep5 (F := F) V4 main_v6 (by decide)).trans a6_4
  have a31_5 := (keep5 (F := F) V4 main_v31 (by decide)).trans a31_4
  have g5_5 := (keep5 (F := F) V4 main_arg5 (by decide)).trans g5_4
  have g6_5 := (keep5 (F := F) V4 main_arg6 (by decide)).trans g6_4
  generalize after (seg5 (F := F)) V4 = V5 at *
  -- after the second layer's sum and bias
  have a66_6 := s6_v66 (F := F) V5 _ _ _ _ _ _ _ g5_5 g6_5 a5_5 a6_5 a31_5 a49_5
  generalize after (seg6 (F := F)) V5 = V6 at *
  -- the log-softmax
  exact s7_v67 (F := F) V6 _ _ _ _ _ _ _ a66_6

/-- After the whole list the result buffer holds the last stage of the launch arguments. -/
theorem result_stage (m : (ℓ : Loc nD τ sig) → Buf (Elt F) ℓ) (c : Dev nD) :
    after (Cert.ReferenceIdeal.ValueP.ops (F := F)) (launchContents m c) (Proc.devRef .tc main_v67)
      = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  result_of (launchContents m c)

end Cert.Gcn.RefStages

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Dense.lean ====
/-
  The two dense layers' regions.  A region runs over 50 grid points; point t multiplies rows 3000·t … 3000·t + 2999 of
  the left array by the whole right array, so what its write-backs leave is the plain matrix product of the two arrays
  the region finds: entry (p, q) is  Σ_k left(p, k) · right(k, q).  The rounding of the operands to bf16 on the way
  into the matrix unit is the identity at the extended reals.
-/
import proofs.«130592_j83064667505278_1_alg».proof.Proof.Gen.KernelIdeal.Frame
import proofs.«130592_j83064667505278_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.Gcn.Dense

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: any contents
variable (V : (c : Dev nD) → (b : Ref sig .tc) → Buf (Elt Ideal) ((c : Thread nD τ).loc b))

/-- The offsets `![0, 0]` are the zero offsets. -/
theorem zero_offsets : (![0, 0] : Fin 2 → Nat) = fun _ => 0 := funext fun a => by fin_cases a <;> rfl

/-- The matrix product of two arrays of extended reals: entry (p, q) is Σ_k a(p, k) · b(k, q). -/
abbrev prod {M K N : Nat} (a : (⟨2, ![M, K]⟩ : Shape).Idx → EReal) (b : (⟨2, ![K, N]⟩ : Shape).Idx → EReal) :
    (⟨2, ![M, N]⟩ : Shape).Idx → EReal := fun i => ∑ k : Fin K, a (ix2 (i 0) k) * b (ix2 k (i 1))

/-- The host's plain product is that matrix product. -/
theorem dotGeneral_eq_prod {M K N : Nat} (a : FVec Ideal ⟨2, ![M, K]⟩ .f32) (b : FVec Ideal ⟨2, ![K, N]⟩ .f32) :
    Host.dotGeneral (F := Ideal) (φ₁ := .f32) (φ₂ := .f32) (DotDims.plain M K N) none a b = prod a b :=
  funext fun i => Cert.LibPlainDot.dotGeneral_plain none .single a b i

/-! ## Region 0: x · W1 -/

/-- The kernel's printed dimension numbers are the plain ones. -/
theorem dims0_eq : dot_S3000x9_S9x32_S3000x32_1_0_0_1_n_n = DotDims.plain 3000 9 32 := rfl

/-- The body's payload at (p, q): the operands' rounding to bf16 is the identity at the extended reals, and the matrix
    unit's product into the zero accumulator is the sum over the contracted axis. -/
theorem pay0_apply (x0 : Vec Ideal S3000x9 .f32) (x1 : Vec Ideal S9x32 .f32) (p : Fin 3000) (q : Fin 32) :
    k0_pay1 (F := Ideal) x0 x1 (ix2 p q) = ∑ k : Fin 9, (x0 (ix2 p k) : EReal) * (x1 (ix2 k q) : EReal) := by
  unfold k0_pay1
  exact Cert.LibPlainDot.matmul_plain_zero (M := 3000) (K := 9) (N := 32) none
    (truncf (F := Ideal) .bf16 x0 bitsLt_bf16_f32) (truncf (F := Ideal) .bf16 x1 bitsLt_bf16_f32) (ix2 p q)

/-- The same at any index of the block. -/
theorem pay0_at (x0 : Vec Ideal S3000x9 .f32) (x1 : Vec Ideal S9x32 .f32) (y : S3000x32.Idx) :
    k0_pay1 (F := Ideal) x0 x1 y = ∑ k : Fin 9, (x0 (ix2 (y 0) k) : EReal) * (x1 (ix2 k (y 1)) : EReal) := by
  obtain ⟨p, q, rfl⟩ : ∃ (p : Fin 3000) (q : Fin 32), y = ix2 p q := ⟨y 0, y 1, eq_ix2 y⟩
  exact pay0_apply x0 x1 p q

/-- The printed index maps over the 50 grid points: the left operand's and the output's block index is (t, 0), the
    right operand's is (0, 0). -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 3000·t … 3000·t + 2999 of the left array. -/
theorem left_block0 (c : Dev nD) (t : Fin cfg0.N) (p : Fin 3000) (k : Fin 9) (i : S150000x9.Idx)
    (h0 : (i 0).val = 3000 * t.val + p.val) (h1 : (i 1).val = k.val) :
    (iblk0 (F := Ideal) V c 0 t : Vec Ideal S3000x9 .f32) (ix2 p k) = (V c main_arg0 : S150000x9.Idx → EReal) i := by
  obtain ⟨e0, e1, -⟩ := index_maps0 t
  unfold iblk0
  rw [View.read_apply]
  show V c main_arg0 _ = V c main_arg0 i
  congr 1
  funext a
  apply Fin.ext
  match a with
  | ⟨0, _⟩ => show win0_0.index t (0 : Fin 2) * 3000 + 1 * p.val = (i 0).val; rw [e0, h0]; omega
  | ⟨1, _⟩ => show win0_0.index t (1 : Fin 2) * 9 + 1 * k.val = (i 1).val; rw [e1, h1]; omega

/-- The right operand's block at every point is the whole right array. -/
theorem right_block0 (c : Dev nD) (t : Fin cfg0.N) (k : Fin 9) (q : Fin 32) (i : S9x32.Idx)
    (h0 : (i 0).val = k.val) (h1 : (i 1).val = q.val) :
    (iblk0 (F := Ideal) V c 1 t : Vec Ideal S9x32 .f32) (ix2 k q) = (V c main_arg3 : S9x32.Idx → EReal) i := by
  obtain ⟨-, -, e2, e3, -⟩ := index_maps0 t
  unfold iblk0
  rw [View.read_apply]
  show V c main_arg3 _ = V c main_arg3 i
  congr 1
  funext a
  apply Fin.ext
  match a with
  | ⟨0, _⟩ => show win0_1.index t (0 : Fin 2) * 9 + 1 * k.val = (i 0).val; rw [e2, h0]; omega
  | ⟨1, _⟩ => show win0_1.index t (1 : Fin 2) * 32 + 1 * q.val = (i 1).val; rw [e3, h1]; omega

/-- The body's result at point t, at the block's index y, is the product of the two arrays at row 3000·t + y₀, column y₁. -/
theorem point0 (c : Dev nD) (t : Fin cfg0.N) (y : S3000x32.Idx) (i : S150000x32.Idx)
    (h0 : (i 0).val = 3000 * t.val + (y 0).val) (h1 : (i 1).val = (y 1).val) :
    k0_pay1 (F := Ideal) (iblk0 V c 0 t) (iblk0 V c 1 t) y
      = prod (V c main_arg0 : S150000x9.Idx → EReal) (V c main_arg3 : S9x32.Idx → EReal) i := by
  refine (pay0_at _ _ y).trans ?_
  exact Finset.sum_congr rfl fun k _ => congrArg₂ (· * ·)
    (left_block0 V c t (y 0) k (ix2 (i 0) k) h0 rfl) (right_block0 V c t k (y 1) (ix2 k (i 1)) rfl h1)

/-- What point t writes back is block t of the product of the two arrays the region reads. -/
theorem flushed0_eq (c : Dev nD) (t : Fin cfg0.N) :
    (dat0 (F := Ideal) V c).flushed 2 t = ((cfg0.win 2).blk t).view.read (Elt Ideal)
      (prod (V c main_arg0 : S150000x9.Idx → EReal) (V c main_arg3 : S9x32.Idx → EReal)) := by
  show (cfg0.win 2).cut (grid0.coords t) ((dat0 V c).after 2 t) = _
  rw [after0_2]
  unfold out0_2
  rw [View.canon_unit_zero zero_offsets]
  simp only [View.ld_unit_zero (S := S3000x9) zero_offsets, View.ld_unit_zero (S := S9x32) zero_offsets]
  obtain ⟨-, -, -, -, e4, e5⟩ := index_maps0 t
  funext j
  refine point0 V c t _ (((cfg0.win 2).blk t).view.emb j) ?_ ?_
  · show win0_2.index t (0 : Fin 2) * 3000 + 1 * (j 0).val = 3000 * t.val + (j 0).val
    rw [e4]; omega
  · show win0_2.index t (1 : Fin 2) * 32 + 1 * (j 1).val = (j 1).val
    rw [e5]; omega

/-- An index of the output array is in point t's block iff each coordinate is in the block's range on its axis. -/
theorem mem_block0 (t : Fin cfg0.N) (i : S150000x32.Idx) :
    i ∈ ((cfg0.win 2).blk t).view.set ↔ ∀ a : Fin 2, win0_2.index t a * S3000x32.size a ≤ (i a).val
      ∧ (i a).val < win0_2.index t a * S3000x32.size a + S3000x32.size a := by
  show i ∈ ((View.whole main_v32).slice (win0_2.rect t)).set ↔ _
  rw [View.set_slice_whole, Rect.mem_set_unit]
  exact Iff.rfl

/-- The 50 blocks of 3000 rows tile the 150000 rows: row r is in the block of point r / 3000, which writes back. -/
theorem cover0 (i : S150000x32.Idx) :
    ∃ t : Fin cfg0.N, (cfg0.win 2).flush t = true ∧ i ∈ ((cfg0.win 2).blk t).view.set := by
  have hi0 : (i 0).val < 150000 := (i 0).isLt
  have hi1 : (i 1).val < 32 := (i 1).isLt
  obtain ⟨t, ht⟩ : ∃ t : Fin cfg0.N, t.val = (i 0).val / 3000 :=
    ⟨⟨(i 0).val / 3000, by rw [show cfg0.N = 50 from N_0]; omega⟩, rfl⟩
  obtain ⟨-, -, -, -, e4, e5⟩ := index_maps0 t
  refine ⟨t, flush0_2 t, ?_⟩
  rw [mem_block0]
  intro a
  match a with
  | ⟨0, _⟩ =>
    show win0_2.index t (0 : Fin 2) * 3000 ≤ (i 0).val ∧ (i 0).val < win0_2.index t (0 : Fin 2) * 3000 + 3000
    rw [e4, ht]; omega
  | ⟨1, _⟩ =>
    show win0_2.index t (1 : Fin 2) * 32 ≤ (i 1).val ∧ (i 1).val < win0_2.index t (1 : Fin 2) * 32 + 32
    rw [e5]; omega

/-- Region 0 (x · W1): the array it leaves is the host's plain product of the two arrays it reads, for any dimension
    record `d` that is the plain one. -/
theorem array0 (c : Dev nD) (d : DotDims S150000x9 S9x32 S150000x32) (hd : d = DotDims.plain 150000 9 32) :
    (dat0 (F := Ideal) V c).arrAt 2 cfg0.N = Host.dotGeneral (F := Ideal) (φ₁ := .f32) (φ₂ := .f32) d none (V c main_arg0 : FVec Ideal S150000x9 .f32) (V c main_arg3 : FVec Ideal S9x32 .f32) := by
  subst hd
  rw [dotGeneral_eq_prod]
  exact (dat0 V c).arrAt_eq_of_cover 2 _ (fun t _ => flushed0_eq V c t) cover0

/-! ## Region 3: h · W2 -/

/-- The kernel's printed dimension numbers are the plain ones. -/
theorem dims3_eq : dot_S3000x32_S32x7_S3000x7_1_0_0_1_n_n = DotDims.plain 3000 32 7 := rfl

/-- The body's payload at (p, q): the operands' rounding to bf16 is the identity at the extended reals, and the matrix
    unit's product into the zero accumulator is the sum over the contracted axis. -/
theorem pay3_apply (x0 : Vec Ideal S3000x32 .f32) (x1 : Vec Ideal S32x7 .f32) (p : Fin 3000) (q : Fin 7) :
    k3_pay1 (F := Ideal) x0 x1 (ix2 p q) = ∑ k : Fin 32, (x0 (ix2 p k) : EReal) * (x1 (ix2 k q) : EReal) := by
  unfold k3_pay1
  refine (Cert.LibPlainDot.matmul_plain_zero (M := 3000) (K := 32) (N := 7) none
    (truncf (F := Ideal) .bf16 (shapeCast S3000x32 x0 shapeCasts_S3000x32_S3000x32) bitsLt_bf16_f32)
    (truncf (F := Ideal) .bf16 x1 bitsLt_bf16_f32) (ix2 p q)).trans ?_
  -- the left operand's cast to its own shape changes nothing
  exact Finset.sum_congr rfl fun k _ => congrArg (· * (x1 (ix2 k q) : EReal))
    (congrFun (shapeCast_self x0 shapeCasts_S3000x32_S3000x32) (ix2 p k))

/-- The same at any index of the block. -/
theorem pay3_at (x0 : Vec Ideal S3000x32 .f32) (x1 : Vec Ideal S32x7 .f32) (y : S3000x7.Idx) :
    k3_pay1 (F := Ideal) x0 x1 y = ∑ k : Fin 32, (x0 (ix2 (y 0) k) : EReal) * (x1 (ix2 k (y 1)) : EReal) := by
  obtain ⟨p, q, rfl⟩ : ∃ (p : Fin 3000) (q : Fin 7), y = ix2 p q := ⟨y 0, y 1, eq_ix2 y⟩
  exact pay3_apply x0 x1 p q

/-- The printed index maps over the 50 grid points: the left operand's and the output's block index is (t, 0), the
    right operand's is (0, 0). -/
theorem index_maps3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point t is rows 3000·t … 3000·t + 2999 of the left array. -/
theorem left_block3 (c : Dev nD) (t : Fin cfg3.N) (p : Fin 3000) (k : Fin 32) (i : S150000x32.Idx)
    (h0 : (i 0).val = 3000 * t.val + p.val) (h1 : (i 1).val = k.val) :
    (iblk3 (F := Ideal) V c 0 t : Vec Ideal S3000x32 .f32) (ix2 p k) = (V c main_v46 : S150000x32.Idx → EReal) i := by
  obtain ⟨e0, e1, -⟩ := index_maps3 t
  unfold iblk3
  rw [View.read_apply]
  show V c main_v46 _ = V c main_v46 i
  congr 1
  funext a
  apply Fin.ext
  match a with
  | ⟨0, _⟩ => show win3_0.index t (0 : Fin 2) * 3000 + 1 * p.val = (i 0).val; rw [e0, h0]; omega
  | ⟨1, _⟩ => show win3_0.index t (1 : Fin 2) * 32 + 1 * k.val = (i 1).val; rw [e1, h1]; omega

/-- The right operand's block at every point is the whole right array. -/
theorem right_block3 (c : Dev nD) (t : Fin cfg3.N) (k : Fin 32) (q : Fin 7) (i : S32x7.Idx)
    (h0 : (i 0).val = k.val) (h1 : (i 1).val = q.val) :
    (iblk3 (F := Ideal) V c 1 t : Vec Ideal S32x7 .f32) (ix2 k q) = (V c main_arg5 : S32x7.Idx → EReal) i := by
  obtain ⟨-, -, e2, e3, -⟩ := index_maps3 t
  unfold iblk3
  rw [View.read_apply]
  show V c main_arg5 _ = V c main_arg5 i
  congr 1
  funext a
  apply Fin.ext
  match a with
  | ⟨0, _⟩ => show win3_1.index t (0 : Fin 2) * 32 + 1 * k.val = (i 0).val; rw [e2, h0]; omega
  | ⟨1, _⟩ => show win3_1.index t (1 : Fin 2) * 7 + 1 * q.val = (i 1).val; rw [e3, h1]; omega

/-- The body's result at point t, at the block's index y, is the product of the two arrays at row 3000·t + y₀, column y₁. -/
theorem point3 (c : Dev nD) (t : Fin cfg3.N) (y : S3000x7.Idx) (i : S150000x7.Idx)
    (h0 : (i 0).val = 3000 * t.val + (y 0).val) (h1 : (i 1).val = (y 1).val) :
    k3_pay1 (F := Ideal) (iblk3 V c 0 t) (iblk3 V c 1 t) y
      = prod (V c main_v46 : S150000x32.Idx → EReal) (V c main_arg5 : S32x7.Idx → EReal) i := by
  refine (pay3_at _ _ y).trans ?_
  exact Finset.sum_congr rfl fun k _ => congrArg₂ (· * ·)
    (left_block3 V c t (y 0) k (ix2 (i 0) k) h0 rfl) (right_block3 V c t k (y 1) (ix2 k (i 1)) rfl h1)

/-- What point t writes back is block t of the product of the two arrays the region reads. -/
theorem flushed3_eq (c : Dev nD) (t : Fin cfg3.N) :
    (dat3 (F := Ideal) V c).flushed 2 t = ((cfg3.win 2).blk t).view.read (Elt Ideal)
      (prod (V c main_v46 : S150000x32.Idx → EReal) (V c main_arg5 : S32x7.Idx → EReal)) := by
  show (cfg3.win 2).cut (grid3.coords t) ((dat3 V c).after 2 t) = _
  rw [after3_2]
  unfold out3_2
  rw [View.canon_unit_zero zero_offsets]
  simp only [View.ld_unit_zero (S := S3000x32) zero_offsets, View.ld_unit_zero (S := S32x7) zero_offsets]
  obtain ⟨-, -, -, -, e4, e5⟩ := index_maps3 t
  funext j
  refine point3 V c t _ (((cfg3.win 2).blk t).view.emb j) ?_ ?_
  · show win3_2.index t (0 : Fin 2) * 3000 + 1 * (j 0).val = 3000 * t.val + (j 0).val
    rw [e4]; omega
  · show win3_2.index t (1 : Fin 2) * 7 + 1 * (j 1).val = (j 1).val
    rw [e5]; omega

/-- An index of the output array is in point t's block iff each coordinate is in the block's range on its axis. -/
theorem mem_block3 (t : Fin cfg3.N) (i : S150000x7.Idx) :
    i ∈ ((cfg3.win 2).blk t).view.set ↔ ∀ a : Fin 2, win3_2.index t a * S3000x7.size a ≤ (i a).val
      ∧ (i a).val < win3_2.index t a * S3000x7.size a + S3000x7.size a := by
  show i ∈ ((View.whole main_v47).slice (win3_2.rect t)).set ↔ _
  rw [View.set_slice_whole, Rect.mem_set_unit]
  exact Iff.rfl

/-- The 50 blocks of 3000 rows tile the 150000 rows: row r is in the block of point r / 3000, which writes back. -/
theorem cover3 (i : S150000x7.Idx) :
    ∃ t : Fin cfg3.N, (cfg3.win 2).flush t = true ∧ i ∈ ((cfg3.win 2).blk t).view.set := by
  have hi0 : (i 0).val < 150000 := (i 0).isLt
  have hi1 : (i 1).val < 7 := (i 1).isLt
  obtain ⟨t, ht⟩ : ∃ t : Fin cfg3.N, t.val = (i 0).val / 3000 :=
    ⟨⟨(i 0).val / 3000, by rw [show cfg3.N = 50 from N_3]; omega⟩, rfl⟩
  obtain ⟨-, -, -, -, e4, e5⟩ := index_maps3 t
  refine ⟨t, flush3_2 t, ?_⟩
  rw [mem_block3]
  intro a
  match a with
  | ⟨0, _⟩ =>
    show win3_2.index t (0 : Fin 2) * 3000 ≤ (i 0).val ∧ (i 0).val < win3_2.index t (0 : Fin 2) * 3000 + 3000
    rw [e4, ht]; omega
  | ⟨1, _⟩ =>
    show win3_2.index t (1 : Fin 2) * 7 ≤ (i 1).val ∧ (i 1).val < win3_2.index t (1 : Fin 2) * 7 + 7
    rw [e5]; omega

/-- Region 3 (h · W2): likewise. -/
theorem array3 (c : Dev nD) (d : DotDims S150000x32 S32x7 S150000x7) (hd : d = DotDims.plain 150000 32 7) :
    (dat3 (F := Ideal) V c).arrAt 2 cfg3.N = Host.dotGeneral (F := Ideal) (φ₁ := .f32) (φ₂ := .f32) d none (V c main_v46 : FVec Ideal S150000x32 .f32) (V c main_arg5 : FVec Ideal S32x7 .f32) := by
  subst hd
  rw [dotGeneral_eq_prod]
  exact (dat3 V c).arrAt_eq_of_cover 2 _ (fun t _ => flushed3_eq V c t) cover3

end Cert.Gcn.Dense

end
-- ==== Proof.Scale.lean ====
/-
  The two edge-scaling regions.  A region runs over 625 grid points; point t multiplies rows 4080·t … 4080·t + 4079 of
  the gathered features by the same rows of the one-column array of edge weights, spread along the feature axis.
  So what its write-backs leave is  out(e, f) = feat(e, f) · w(e, 0)  for every edge e: the host's product of the
  column spread along the features with the gathered features, the factors in the other order.
-/
import proofs.«130592_j83064667505278_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Scale

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The whole-buffer rectangle, and a column spread along the features read at an entry -/

/-- The whole-buffer rectangle starts at the origin. -/
theorem origin2 : (![0, 0] : Fin 2 → Nat) = fun _ => 0 := funext fun a => by
  match a with
  | ⟨0, _⟩ => rfl
  | ⟨1, _⟩ => rfl

/-- A column `[a, 1]` spread along a second axis of `b` entries reads, at `(p, q)`, the column at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's spread of a column `[a, 1]` along axes `(0, 1)` reads, at `(p, q)`, the column at `(p, 0)`. -/
theorem broadcastInDim_a1_ab_apply {α : Type} {a b : ℕ} (v : (⟨2, ![a, 1]⟩ : Shape).Idx → α)
    (h : (⟨2, ![a, 1]⟩ : Shape).BroadcastsInDim ⟨2, ![a, b]⟩ (![0, 1] : Fin 2 → Fin 2))
    (p : Fin a) (q : Fin b) : broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

-- the TensorCore's buffer contents when the region is entered: any contents
variable (V : (c : Dev nD) → (b : Ref sig .tc) → Buf (Elt Ideal) ((c : Thread nD τ).loc b))

/-! ## Region 1: 32 features -/

/-- The body's arithmetic at 32 features: entry `(p, q)` of what it stores is the feature block's entry times the
    weight column's entry of the same row. -/
theorem pay32 (x0 : Vec Ideal S4080x32 .f32) (x1 : Vec Ideal S4080x1 .f32) (p : Fin 4080) (q : Fin 32) :
    k1_pay1 (F := Ideal) x0 x1 (ix2 p q) = x0 (ix2 p q) * x1 (ix2 p (0 : Fin 1)) := by
  unfold k1_pay1
  rw [shapeCast_self, shapeCast_self]
  refine (mulf_apply (φ := .f32) _ _ _).trans ?_
  exact congrArg (x0 (ix2 p q) * ·) (broadcastTo_a1_ab_apply x1 _ p q)

/-- Region 1's index maps, decided over the 625 points: at point `t` every window's block index is `(t, 0)`. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- WHAT POINT `t` OF REGION 1 WRITES BACK is block `t` of the host's product. -/
theorem flushed1_eq (c : Dev nD) (hb : S2550000x1.BroadcastsInDim S2550000x32 (![0, 1] : Fin 2 → Fin S2550000x32.rank)) (t : Fin cfg1.N) :
    (dat1 (F := Ideal) V c).flushed 2 t = ((cfg1.win 2).blk t).view.read (Elt Ideal)
      (mulf (F := Ideal) (φ := .f32) (broadcastInDim S2550000x32 ![0, 1] hb (V c main_v40 : FVec Ideal S2550000x1 .f32)) (V c main_v39 : FVec Ideal S2550000x32 .f32)) := by
  show (cfg1.win 2).cut (grid1.coords t) ((dat1 V c).after 2 t) = _
  rw [after1_2]
  unfold out1_2
  rw [View.canon_unit_zero origin2]
  simp only [View.ld_unit_zero (S := S4080x32) origin2, View.ld_unit_zero (S := S4080x1) origin2]
  obtain ⟨e00, e01, e10, e11, e20, e21⟩ := blockIndex1 t
  funext j
  obtain ⟨p, q, rfl⟩ : ∃ (p : Fin 4080) (q : Fin 32), j = ix2 p q := ⟨j 0, j 1, eq_ix2 j⟩
  show k1_pay1 (F := Ideal) (iblk1 V c 0 t) (iblk1 V c 1 t) (ix2 p q)
      = FloatOps.mulf (F := Ideal) (φ := .f32)
          (broadcastInDim S2550000x32 ![0, 1] hb (V c main_v40 : FVec Ideal S2550000x1 .f32) (((cfg1.win 2).blk t).view.emb (ix2 p q)))
          ((V c main_v39 : FVec Ideal S2550000x32 .f32) (((cfg1.win 2).blk t).view.emb (ix2 p q)))
  refine (pay32 (iblk1 V c 0 t) (iblk1 V c 1 t) p q).trans ?_
  show FloatOps.mulf (F := Ideal) (φ := .f32)
        ((V c main_v39 : FVec Ideal S2550000x32 .f32) (((cfg1.win 0).blk t).view.emb (ix2 p q)))
        ((V c main_v40 : FVec Ideal S2550000x1 .f32) (((cfg1.win 1).blk t).view.emb (ix2 p (0 : Fin 1))))
      = _
  have hfeat : ((cfg1.win 0).blk t).view.emb (ix2 p q) = ((cfg1.win 2).blk t).view.emb (ix2 p q) := by
    funext a; apply Fin.ext
    match a with
    | ⟨0, _⟩ => show win1_0.index t (0 : Fin 2) * 4080 + 1 * p.val = win1_2.index t (0 : Fin 2) * 4080 + 1 * p.val; omega
    | ⟨1, _⟩ => show win1_0.index t (1 : Fin 2) * 32 + 1 * q.val = win1_2.index t (1 : Fin 2) * 32 + 1 * q.val; omega
  have hw : broadcastInDim S2550000x32 ![0, 1] hb (V c main_v40 : FVec Ideal S2550000x1 .f32) (((cfg1.win 2).blk t).view.emb (ix2 p q))
      = (V c main_v40 : FVec Ideal S2550000x1 .f32) (((cfg1.win 1).blk t).view.emb (ix2 p (0 : Fin 1))) := by
    refine broadcastInDim_apply _ hb _ _ _ fun a => ?_
    match a with
    | ⟨0, _⟩ =>
      show win1_1.index t (0 : Fin 2) * 4080 + 1 * p.val = if (2550000 : ℕ) = 1 then 0 else win1_2.index t (0 : Fin 2) * 4080 + 1 * p.val
      rw [if_neg (by decide)]; omega
    | ⟨1, _⟩ =>
      show win1_1.index t (1 : Fin 2) * 1 + 1 * (0 : Fin 1).val = if (1 : ℕ) = 1 then 0 else _
      rw [if_pos rfl, e11]; rfl
  rw [hfeat, hw, Ideal.mulf_def, Ideal.mulf_def]
  exact mul_comm _ _

/-- An index of region 1's output array is in point `t`'s block iff each coordinate is in the block's range on its axis. -/
theorem mem_blk1 (t : Fin cfg1.N) (i : S2550000x32.Idx) :
    i ∈ ((cfg1.win 2).blk t).view.set ↔ ∀ a : Fin 2, win1_2.index t a * S4080x32.size a ≤ (i a).val ∧ (i a).val < win1_2.index t a * S4080x32.size a + S4080x32.size a := by
  show i ∈ ((View.whole main_v41).slice (win1_2.rect t)).set ↔ _
  rw [View.set_slice_whole, Rect.mem_set_unit]
  exact Iff.rfl

/-- The 625 blocks of 4080 rows tile the 2550000 rows: row `e` is in the block of point `e / 4080`. -/
theorem cover1 (i : S2550000x32.Idx) : ∃ t : Fin cfg1.N, (cfg1.win 2).flush t = true ∧ i ∈ ((cfg1.win 2).blk t).view.set := by
  have hi0 : (i 0).val < 2550000 := (i 0).isLt
  have hi1 : (i 1).val < 32 := (i 1).isLt
  obtain ⟨t, ht⟩ : ∃ t : Fin cfg1.N, t.val = (i 0).val / 4080 :=
    ⟨⟨(i 0).val / 4080, (show (i 0).val / 4080 < 625 by omega).trans_eq N_1.symm⟩, rfl⟩
  obtain ⟨-, -, -, -, e20, e21⟩ := blockIndex1 t
  refine ⟨t, flush1_2 t, ?_⟩
  rw [mem_blk1]
  intro a
  match a with
  | ⟨0, _⟩ => show win1_2.index t (0 : Fin 2) * 4080 ≤ (i 0).val ∧ (i 0).val < win1_2.index t (0 : Fin 2) * 4080 + 4080; omega
  | ⟨1, _⟩ => show win1_2.index t (1 : Fin 2) * 32 ≤ (i 1).val ∧ (i 1).val < win1_2.index t (1 : Fin 2) * 32 + 32; omega

/-- Region 1 (32 features). -/
theorem array1 (c : Dev nD) (hb : S2550000x1.BroadcastsInDim S2550000x32 (![0, 1] : Fin 2 → Fin S2550000x32.rank)) :
    (dat1 (F := Ideal) V c).arrAt 2 cfg1.N
      = mulf (F := Ideal) (φ := .f32) (broadcastInDim S2550000x32 ![0, 1] hb (V c main_v40 : FVec Ideal S2550000x1 .f32)) (V c main_v39 : FVec Ideal S2550000x32 .f32) :=
  (dat1 (F := Ideal) V c).arrAt_eq_of_cover 2 _ (fun t _ => flushed1_eq V c hb t) cover1

/-! ## Region 4: 7 features -/

/-- The body's arithmetic at 7 features: entry `(p, q)` of what it stores is the feature block's entry times the
    weight column's entry of the same row. -/
theorem pay7 (x0 : Vec Ideal S4080x7 .f32) (x1 : Vec Ideal S4080x1 .f32) (p : Fin 4080) (q : Fin 7) :
    k4_pay1 (F := Ideal) x0 x1 (ix2 p q) = x0 (ix2 p q) * x1 (ix2 p (0 : Fin 1)) := by
  unfold k4_pay1
  rw [shapeCast_self, shapeCast_self]
  refine (mulf_apply (φ := .f32) _ _ _).trans ?_
  exact congrArg (x0 (ix2 p q) * ·) (broadcastTo_a1_ab_apply x1 _ p q)

/-- Region 4's index maps, decided over the 625 points: at point `t` every window's block index is `(t, 0)`. -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- WHAT POINT `t` OF REGION 4 WRITES BACK is block `t` of the host's product. -/
theorem flushed4_eq (c : Dev nD) (hb : S2550000x1.BroadcastsInDim S2550000x7 (![0, 1] : Fin 2 → Fin S2550000x7.rank)) (t : Fin cfg4.N) :
    (dat4 (F := Ideal) V c).flushed 2 t = ((cfg4.win 2).blk t).view.read (Elt Ideal)
      (mulf (F := Ideal) (φ := .f32) (broadcastInDim S2550000x7 ![0, 1] hb (V c main_v55 : FVec Ideal S2550000x1 .f32)) (V c main_v54 : FVec Ideal S2550000x7 .f32)) := by
  show (cfg4.win 2).cut (grid4.coords t) ((dat4 V c).after 2 t) = _
  rw [after4_2]
  unfold out4_2
  rw [View.canon_unit_zero origin2]
  simp only [View.ld_unit_zero (S := S4080x7) origin2, View.ld_unit_zero (S := S4080x1) origin2]
  obtain ⟨e00, e01, e10, e11, e20, e21⟩ := blockIndex4 t
  funext j
  obtain ⟨p, q, rfl⟩ : ∃ (p : Fin 4080) (q : Fin 7), j = ix2 p q := ⟨j 0, j 1, eq_ix2 j⟩
  show k4_pay1 (F := Ideal) (iblk4 V c 0 t) (iblk4 V c 1 t) (ix2 p q)
      = FloatOps.mulf (F := Ideal) (φ := .f32)
          (broadcastInDim S2550000x7 ![0, 1] hb (V c main_v55 : FVec Ideal S2550000x1 .f32) (((cfg4.win 2).blk t).view.emb (ix2 p q)))
          ((V c main_v54 : FVec Ideal S2550000x7 .f32) (((cfg4.win 2).blk t).view.emb (ix2 p q)))
  refine (pay7 (iblk4 V c 0 t) (iblk4 V c 1 t) p q).trans ?_
  show FloatOps.mulf (F := Ideal) (φ := .f32)
        ((V c main_v54 : FVec Ideal S2550000x7 .f32) (((cfg4.win 0).blk t).view.emb (ix2 p q)))
        ((V c main_v55 : FVec Ideal S2550000x1 .f32) (((cfg4.win 1).blk t).view.emb (ix2 p (0 : Fin 1))))
      = _
  have hfeat : ((cfg4.win 0).blk t).view.emb (ix2 p q) = ((cfg4.win 2).blk t).view.emb (ix2 p q) := by
    funext a; apply Fin.ext
    match a with
    | ⟨0, _⟩ => show win4_0.index t (0 : Fin 2) * 4080 + 1 * p.val = win4_2.index t (0 : Fin 2) * 4080 + 1 * p.val; omega
    | ⟨1, _⟩ => show win4_0.index t (1 : Fin 2) * 7 + 1 * q.val = win4_2.index t (1 : Fin 2) * 7 + 1 * q.val; omega
  have hw : broadcastInDim S2550000x7 ![0, 1] hb (V c main_v55 : FVec Ideal S2550000x1 .f32) (((cfg4.win 2).blk t).view.emb (ix2 p q))
      = (V c main_v55 : FVec Ideal S2550000x1 .f32) (((cfg4.win 1).blk t).view.emb (ix2 p (0 : Fin 1))) := by
    refine broadcastInDim_apply _ hb _ _ _ fun a => ?_
    match a with
    | ⟨0, _⟩ =>
      show win4_1.index t (0 : Fin 2) * 4080 + 1 * p.val = if (2550000 : ℕ) = 1 then 0 else win4_2.index t (0 : Fin 2) * 4080 + 1 * p.val
      rw [if_neg (by decide)]; omega
    | ⟨1, _⟩ =>
      show win4_1.index t (1 : Fin 2) * 1 + 1 * (0 : Fin 1).val = if (1 : ℕ) = 1 then 0 else _
      rw [if_pos rfl, e11]; rfl
  rw [hfeat, hw, Ideal.mulf_def, Ideal.mulf_def]
  exact mul_comm _ _

/-- An index of region 4's output array is in point `t`'s block iff each coordinate is in the block's range on its axis. -/
theorem mem_blk4 (t : Fin cfg4.N) (i : S2550000x7.Idx) :
    i ∈ ((cfg4.win 2).blk t).view.set ↔ ∀ a : Fin 2, win4_2.index t a * S4080x7.size a ≤ (i a).val ∧ (i a).val < win4_2.index t a * S4080x7.size a + S4080x7.size a := by
  show i ∈ ((View.whole main_v56).slice (win4_2.rect t)).set ↔ _
  rw [View.set_slice_whole, Rect.mem_set_unit]
  exact Iff.rfl

/-- The 625 blocks of 4080 rows tile the 2550000 rows: row `e` is in the block of point `e / 4080`. -/
theorem cover4 (i : S2550000x7.Idx) : ∃ t : Fin cfg4.N, (cfg4.win 2).flush t = true ∧ i ∈ ((cfg4.win 2).blk t).view.set := by
  have hi0 : (i 0).val < 2550000 := (i 0).isLt
  have hi1 : (i 1).val < 7 := (i 1).isLt
  obtain ⟨t, ht⟩ : ∃ t : Fin cfg4.N, t.val = (i 0).val / 4080 :=
    ⟨⟨(i 0).val / 4080, (show (i 0).val / 4080 < 625 by omega).trans_eq N_4.symm⟩, rfl⟩
  obtain ⟨-, -, -, -, e20, e21⟩ := blockIndex4 t
  refine ⟨t, flush4_2 t, ?_⟩
  rw [mem_blk4]
  intro a
  match a with
  | ⟨0, _⟩ => show win4_2.index t (0 : Fin 2) * 4080 ≤ (i 0).val ∧ (i 0).val < win4_2.index t (0 : Fin 2) * 4080 + 4080; omega
  | ⟨1, _⟩ => show win4_2.index t (1 : Fin 2) * 7 ≤ (i 1).val ∧ (i 1).val < win4_2.index t (1 : Fin 2) * 7 + 7; omega

/-- Region 4 (7 features). -/
theorem array4 (c : Dev nD) (hb : S2550000x1.BroadcastsInDim S2550000x7 (![0, 1] : Fin 2 → Fin S2550000x7.rank)) :
    (dat4 (F := Ideal) V c).arrAt 2 cfg4.N
      = mulf (F := Ideal) (φ := .f32) (broadcastInDim S2550000x7 ![0, 1] hb (V c main_v55 : FVec Ideal S2550000x1 .f32)) (V c main_v54 : FVec Ideal S2550000x7 .f32) :=
  (dat4 (F := Ideal) V c).arrAt_eq_of_cover 2 _ (fun t _ => flushed4_eq V c hb t) cover4

end Cert.Gcn.Scale

end
-- ==== Proof.BiasRelu.lean ====
/-
  The bias-and-rectify region.  It runs over 50 grid points; point t adds the one-row bias to rows 3000·t … 3000·t + 2999
  of the aggregated features and takes the maximum with zero.  So what its write-backs leave is
  out(p, q) = max (agg(p, q) + b(0, q)) 0: the host's maximum of the sum with the bias row spread down the rows and
  the zero splat.
-/
import proofs.«130592_j83064667505278_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.BiasRelu

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: any contents
variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-! ## The two sides at a row and a column -/

/-- The body's payload at row p, column q of a block: the feature plus the one-row bias at column q, against the zero word. -/
theorem payload_apply (x0 : Vec Ideal S3000x32 .f32) (x1 : Vec Ideal S1x32 .f32) (p : Fin 3000) (q : Fin 32) :
    k2_pay1 (F := Ideal) x0 x1 (ix2 p q)
      = max (x0 (ix2 p q) + x1 (ix2 (0 : Fin 1) q)) (FloatOps.ofBits (F := Ideal) .f32 0x00000000#32) := by
  unfold k2_pay1
  show max (shapeCast S3000x32 x0 shapeCasts_S3000x32_S3000x32 (ix2 p q)
      + broadcastTo S3000x32 (shapeCast S1x32 x1 shapeCasts_S1x32_S1x32) broadcasts_S1x32_S3000x32 (ix2 p q)) _ = _
  rw [shapeCast_self, shapeCast_self, broadcastTo_1b_ab_apply]
  rfl

/-- The host's term at row p, column q of the array: the same expression, the bias row spread down the rows read at
    (0, q) and the zero splat read at its one element. -/
theorem host_apply (agg : FVec Ideal S150000x32 .f32) (b : FVec Ideal S1x32 .f32)
    (hb : S1x32.BroadcastsInDim S150000x32 (![0, 1] : Fin 2 → Fin S150000x32.rank))
    (hz : S_.BroadcastsInDim S150000x32 (![] : Fin 0 → Fin S150000x32.rank)) (p : Fin 150000) (q : Fin 32) :
    maximumf (F := Ideal) (addf agg (broadcastInDim S150000x32 ![0, 1] hb b))
        (broadcastInDim S150000x32 ![] hz (constant (F := Ideal) S_ .f32 0x00000000#32)) (ix2 p q)
      = max (agg (ix2 p q) + b (ix2 (0 : Fin 1) q)) (FloatOps.ofBits (F := Ideal) .f32 0x00000000#32) := by
  show max (agg (ix2 p q) + broadcastInDim S150000x32 ![0, 1] hb b (ix2 p q))
      (broadcastInDim S150000x32 ![] hz (constant (F := Ideal) S_ .f32 0x00000000#32) (ix2 p q)) = _
  rw [broadcastInDim_apply ![0, 1] hb b (ix2 p q) (ix2 (0 : Fin 1) q) (fun a => by
        match a with
        | ⟨0, _⟩ => rfl
        | ⟨1, _⟩ => rfl),
      broadcastInDim_apply ![] hz (constant (F := Ideal) S_ .f32 0x00000000#32) (ix2 p q) ix0 (fun a => a.elim0)]
  rfl

/-! ## Where the blocks sit -/

/-- The index maps over the 50 points: the feature block and the output block of point t are block t of the rows,
    whole in the columns; the bias block is the one block (0, 0) at every point. -/
theorem idx_facts : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- There are 50 points. -/
theorem point_lt (t : Fin cfg2.N) : t.val < 50 := by
  have h := t.isLt
  have hN : cfg2.N = 50 := N_2
  omega

/-- Element (p, q) of point t's output block is element (3000·t + p, q) of the array. -/
theorem out_emb (t : Fin cfg2.N) (p : Fin 3000) (q : Fin 32) :
    ((cfg2.win 2).blk t).view.emb (ix2 p q) = ix2 (⟨3000 * t.val + p.val, by have := point_lt t; omega⟩ : Fin 150000) q := by
  obtain ⟨e0, e1, -, -, -, -⟩ := idx_facts t
  funext a; apply Fin.ext
  match a with
  | ⟨0, _⟩ => show win2_2.index t (0 : Fin 2) * 3000 + 1 * p.val = 3000 * t.val + p.val; omega
  | ⟨1, _⟩ => show win2_2.index t (1 : Fin 2) * 32 + 1 * q.val = q.val; omega

/-- Element (p, q) of point t's feature block is element (3000·t + p, q) of the aggregated features. -/
theorem agg_emb (t : Fin cfg2.N) (p : Fin 3000) (q : Fin 32) :
    ((cfg2.win 0).blk t).view.emb (ix2 p q) = ix2 (⟨3000 * t.val + p.val, by have := point_lt t; omega⟩ : Fin 150000) q := by
  obtain ⟨-, -, e0, e1, -, -⟩ := idx_facts t
  funext a; apply Fin.ext
  match a with
  | ⟨0, _⟩ => show win2_0.index t (0 : Fin 2) * 3000 + 1 * p.val = 3000 * t.val + p.val; omega
  | ⟨1, _⟩ => show win2_0.index t (1 : Fin 2) * 32 + 1 * q.val = q.val; omega

/-- Element (0, q) of any point's bias block is element (0, q) of the bias. -/
theorem bias_emb (t : Fin cfg2.N) (q : Fin 32) :
    ((cfg2.win 1).blk t).view.emb (ix2 (0 : Fin 1) q) = ix2 (0 : Fin 1) q := by
  obtain ⟨-, -, -, -, e0, e1⟩ := idx_facts t
  funext a; apply Fin.ext
  match a with
  | ⟨0, _⟩ => show win2_1.index t (0 : Fin 2) * 1 + 1 * 0 = 0; omega
  | ⟨1, _⟩ => show win2_1.index t (1 : Fin 2) * 32 + 1 * q.val = q.val; omega

/-- The feature block of point t reads rows 3000·t … 3000·t + 2999 of the aggregated features. -/
theorem agg_block (c : Dev nD) (t : Fin cfg2.N) (p : Fin 3000) (q : Fin 32) :
    (iblk2 V c 0 t (ix2 p q) : Ideal .f32)
      = (V c main_v44 : FVec Ideal S150000x32 .f32) (ix2 (⟨3000 * t.val + p.val, by have := point_lt t; omega⟩ : Fin 150000) q) :=
  congrArg (V c main_v44 : FVec Ideal S150000x32 .f32) (agg_emb t p q)

/-- The bias block of every point is the whole one-row bias. -/
theorem bias_block (c : Dev nD) (t : Fin cfg2.N) (q : Fin 32) :
    (iblk2 V c 1 t (ix2 (0 : Fin 1) q) : Ideal .f32) = (V c main_v45 : FVec Ideal S1x32 .f32) (ix2 (0 : Fin 1) q) :=
  congrArg (V c main_v45 : FVec Ideal S1x32 .f32) (bias_emb t q)

/-! ## What a point writes back, and the blocks' cover -/

/-- What point t writes back is block t of the host's term of the arrays as the region finds them. -/
theorem flushed_eq (c : Dev nD) (t : Fin cfg2.N)
    (hb : S1x32.BroadcastsInDim S150000x32 (![0, 1] : Fin 2 → Fin S150000x32.rank))
    (hz : S_.BroadcastsInDim S150000x32 (![] : Fin 0 → Fin S150000x32.rank)) :
    (dat2 (F := Ideal) V c).flushed 2 t = ((cfg2.win 2).blk t).view.read (Elt Ideal)
      (maximumf (F := Ideal) (addf (V c main_v44 : FVec Ideal S150000x32 .f32) (broadcastInDim S150000x32 ![0, 1] hb (V c main_v45 : FVec Ideal S1x32 .f32)))
          (broadcastInDim S150000x32 ![] hz (constant (F := Ideal) S_ .f32 0x00000000#32))) := by
  show (cfg2.win 2).cut (grid2.coords t) ((dat2 V c).after 2 t) = _
  rw [after2_2]
  unfold out2_2
  rw [View.canon_unit_zero zero_offsets]
  simp only [View.ld_unit_zero (S := S3000x32) zero_offsets, View.ld_unit_zero (S := S1x32) zero_offsets]
  funext j
  obtain ⟨p, q, rfl⟩ : ∃ (p : Fin 3000) (q : Fin 32), j = ix2 p q := ⟨j 0, j 1, eq_ix2 j⟩
  show k2_pay1 (F := Ideal) (iblk2 V c 0 t) (iblk2 V c 1 t) (ix2 p q)
    = maximumf (F := Ideal) (addf (V c main_v44 : FVec Ideal S150000x32 .f32) (broadcastInDim S150000x32 ![0, 1] hb (V c main_v45 : FVec Ideal S1x32 .f32)))
          (broadcastInDim S150000x32 ![] hz (constant (F := Ideal) S_ .f32 0x00000000#32)) (((cfg2.win 2).blk t).view.emb (ix2 p q))
  refine (payload_apply _ _ p q).trans ?_
  rw [out_emb t p q]
  refine Eq.trans ?_ (host_apply _ _ hb hz _ q).symm
  exact congrArg₂ (fun x y : Ideal .f32 => max (x + y) (FloatOps.ofBits (F := Ideal) .f32 0x00000000#32)) (agg_block V c t p q) (bias_block V c t q)

/-- An index of the array is in point t's output block iff each coordinate is in the block's range on its axis. -/
theorem mem_blk (t : Fin cfg2.N) (i : S150000x32.Idx) :
    i ∈ ((cfg2.win 2).blk t).view.set ↔ ∀ a : Fin 2, win2_2.index t a * S3000x32.size a ≤ (i a).val ∧ (i a).val < win2_2.index t a * S3000x32.size a + S3000x32.size a := by
  show i ∈ ((View.whole main_v46).slice (win2_2.rect t)).set ↔ _
  rw [View.set_slice_whole, Rect.mem_set_unit]
  exact Iff.rfl

/-- The 50 blocks of 3000 rows tile the 150000 rows: row r is in the block of point r / 3000, and every point writes back. -/
theorem cover (i : S150000x32.Idx) :
    ∃ t : Fin cfg2.N, (cfg2.win 2).flush t = true ∧ i ∈ ((cfg2.win 2).blk t).view.set := by
  have hi0 : (i 0).val < 150000 := (i 0).isLt
  have hi1 : (i 1).val < 32 := (i 1).isLt
  have hN : cfg2.N = 50 := N_2
  obtain ⟨t, ht⟩ : ∃ t : Fin cfg2.N, t.val = (i 0).val / 3000 := ⟨⟨(i 0).val / 3000, by omega⟩, rfl⟩
  obtain ⟨e0, e1, -, -, -, -⟩ := idx_facts t
  refine ⟨t, flush2_2 t, ?_⟩
  rw [mem_blk]
  intro a
  match a with
  | ⟨0, _⟩ => show win2_2.index t (0 : Fin 2) * 3000 ≤ (i 0).val ∧ (i 0).val < win2_2.index t (0 : Fin 2) * 3000 + 3000; omega
  | ⟨1, _⟩ => show win2_2.index t (1 : Fin 2) * 32 ≤ (i 1).val ∧ (i 1).val < win2_2.index t (1 : Fin 2) * 32 + 32; omega

/-- Region 2. -/
theorem array2 (c : Dev nD) (hb : S1x32.BroadcastsInDim S150000x32 (![0, 1] : Fin 2 → Fin S150000x32.rank))
    (hz : S_.BroadcastsInDim S150000x32 (![] : Fin 0 → Fin S150000x32.rank)) :
    (dat2 (F := Ideal) V c).arrAt 2 cfg2.N
      = maximumf (F := Ideal) (addf (V c main_v44 : FVec Ideal S150000x32 .f32) (broadcastInDim S150000x32 ![0, 1] hb (V c main_v45 : FVec Ideal S1x32 .f32)))
          (broadcastInDim S150000x32 ![] hz (constant (F := Ideal) S_ .f32 0x00000000#32)) := by
  exact (dat2 (F := Ideal) V c).arrAt_eq_of_cover 2 _ (fun t _ => flushed_eq V c t hb hz) cover

end Cert.Gcn.BiasRelu

end
-- ==== Proof.Layer1.lean ====
/-
  The first layer of the kernel's program, boundary by boundary.

  Between its regions the program runs the very host operations the reference runs (the normalisation of the graph,
  the gather of the source rows, the accumulating scatter onto the target rows), and each region leaves the array the
  reference's corresponding stage computes (a plain product; a product with the spread edge weights; bias, then
  maximum with zero).  So every buffer a later step reads holds the reference's stage of the same name, as a function
  of the launch arguments.  `val_…` are the reference's stages.
-/
import proofs.«130592_j83064667505278_1_alg».proof.Proof.Gen.KernelIdeal.Frame
import proofs.«130592_j83064667505278_1_alg».proof.Proof.RefRead
import proofs.«130592_j83064667505278_1_alg».proof.Proof.Dense
import proofs.«130592_j83064667505278_1_alg».proof.Proof.Scale
import proofs.«130592_j83064667505278_1_alg».proof.Proof.BiasRelu
import Idealize.ShloMosaic.Lib.StableHlo.Run
import Idealize.ShloMosaic.Lib.Pipeline.Value

set_option maxRecDepth 16384

noncomputable section

namespace Cert.Gcn.Layer1

open Cert.KernelIdeal Cert.KernelIdeal.Gen
open Idealize.ShloMosaic Idealize.ShloMosaic.TcCoe Idealize.ShloMosaic.ValueIdx Idealize.SL.Sem Idealize.ShloMosaic.StableHlo

-- the launch memory and the generator registers
variable (m : (ℓ : Loc nD τ sig) → Buf (Elt Ideal) ℓ) (ρ : Dev nD → PrngReg) (c : Dev nD)

/-! The seven argument arrays as launched, typed as the host stages take them. -/
abbrev a0 : FVec Ideal S150000x9 .f32 := m ((c.tc : Thread nD τ).loc main_arg0)
abbrev a1 : IVec S2x2400000 32 := m ((c.tc : Thread nD τ).loc main_arg1)
abbrev a2 : FVec Ideal S2400000 .f32 := m ((c.tc : Thread nD τ).loc main_arg2)
abbrev a3 : FVec Ideal S9x32 .f32 := m ((c.tc : Thread nD τ).loc main_arg3)
abbrev a4 : FVec Ideal S32 .f32 := m ((c.tc : Thread nD τ).loc main_arg4)
abbrev a5 : FVec Ideal S32x7 .f32 := m ((c.tc : Thread nD τ).loc main_arg5)
abbrev a6 : FVec Ideal S7 .f32 := m ((c.tc : Thread nD τ).loc main_arg6)

/-! ## What the host stretches write

Each host stretch writes a fixed list of buffers; any other buffer keeps its contents across it. -/

section Writes
variable {F : FTy → Type} [FloatOps F]

/-- The buffers the first stretch writes. -/
abbrev wr0 : List (Ref sig .tc) :=
  [main_v0, main_v1, main_v2, main_v3, main_v4, main_v5, main_v6, main_cst, main_v7, main_v8, main_cst_0, main_v9,
    main_v10, main_v11, main_cst_1, main_v12, main_v13, main_v14, main_cst_2]
/-- … the selection of the inverse square roots. -/
abbrev wr01 : List (Ref sig .tc) := [main_call0_v0, main_call0_v1, main_v15]
/-- … the edge weights. -/
abbrev wr02 : List (Ref sig .tc) :=
  [main_c, main_v16, main_v17, main_c_3, main_v18, main_v19, main_v20, main_v21, main_v22, main_v23, main_c_4, main_v24,
    main_v25, main_c_5, main_v26, main_v27, main_v28, main_v29, main_v30, main_v31]
/-- … the gather of the source rows. -/
abbrev wr1 : List (Ref sig .tc) :=
  [main_c_6, main_v33, main_v34, main_c_7, main_v35, main_v36, main_v37, main_v38, main_v39, main_v40]
/-- … the scatter onto the target rows. -/
abbrev wr2 : List (Ref sig .tc) := [main_cst_8, main_v42, main_v43, main_v44, main_v45]

local macro "writes_in_list " ops:ident : tactic =>
  `(tactic| (
      simp only [$ops:ident, List.Forall, StableHlo.nullary_writes, StableHlo.unary_writes, StableHlo.binary_writes,
        StableHlo.ternary_writes, StableHlo.reshape_writes, Finset.singleton_subset_iff, List.mem_toFinset]
      repeat' apply And.intro
      all_goals exact List.mem_map_of_mem (by decide)))

theorem writes0 : (hostOps0 : List (HloOp τ sig (Elt F))).Forall fun op => op.writes ⊆ (wr0.map (Proc.devRef (τ := τ) .tc)).toFinset := by
  writes_in_list hostOps0
theorem writes01 : (hostOps0_1 : List (HloOp τ sig (Elt F))).Forall fun op => op.writes ⊆ (wr01.map (Proc.devRef (τ := τ) .tc)).toFinset := by
  writes_in_list hostOps0_1
theorem writes02 : (hostOps0_2 : List (HloOp τ sig (Elt F))).Forall fun op => op.writes ⊆ (wr02.map (Proc.devRef (τ := τ) .tc)).toFinset := by
  writes_in_list hostOps0_2
theorem writes1 : (hostOps1 : List (HloOp τ sig (Elt F))).Forall fun op => op.writes ⊆ (wr1.map (Proc.devRef (τ := τ) .tc)).toFinset := by
  writes_in_list hostOps1
theorem writes2 : (hostOps2 : List (HloOp τ sig (Elt F))).Forall fun op => op.writes ⊆ (wr2.map (Proc.devRef (τ := τ) .tc)).toFinset := by
  writes_in_list hostOps2

end Writes

/-! ## A bias row: the reshape of a vector to one row is its broadcast along axis 1 -/

theorem shapeCast_row_eq_broadcastInDim {α : Type} {n : Nat} (x : (⟨1, ![n]⟩ : Shape).Idx → α)
    (hs : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hs = broadcastInDim ⟨2, ![1, n]⟩ ![1] hb x := by
  funext j
  -- both read the vector at the index's second coordinate
  have e1 := shapeCast_apply x hs j (ix1 (j 1 : Fin n)) (by
    rw [Shape.rowMajor_val_one, Shape.rowMajor_val_two]
    have h0 : (j 0).val = 0 := by have := idx2_lt0 j; omega
    show (j 1).val = (j 0).val * n + (j 1).val
    rw [h0]; omega)
  have e2 := broadcastInDim_apply ![1] hb x j (ix1 (j 1 : Fin n)) (by
    intro a
    match a with
    | ⟨0, _⟩ =>
      show (j 1).val = if n = 1 then 0 else (j 1).val
      split
      · have e : (j 1).val < n := (j 1).isLt
        omega
      · rfl)
  exact e1.trans e2.symm

/-! ## The host stretches, from any contents

Each lemma: if the buffers a stretch reads hold the reference's stages, the buffer it writes holds the reference's
next stage.  Both sides are the same host operations on the same operands. -/

section Steps
open Cert.ReferenceIdeal.ReadP

variable {F : FTy → Type} [FloatOps F]
variable (V : Valuation τ sig (Elt F))
variable (x0 : (⟨S150000x9, .f32⟩ : BufTy).Contents (Elt F)) (x1 : (⟨S2x2400000, .i32⟩ : BufTy).Contents (Elt F))
  (x2 : (⟨S2400000, .f32⟩ : BufTy).Contents (Elt F)) (x3 : (⟨S9x32, .f32⟩ : BufTy).Contents (Elt F))
  (x4 : (⟨S32, .f32⟩ : BufTy).Contents (Elt F))

/-! ### The first stretch: the index arrays with the self-loops, the weights with the ones, the degrees -/

theorem step0_v5 (h1 : (V (Proc.devRef .tc main_arg1) : (⟨S2x2400000, .i32⟩ : BufTy).Contents (Elt F)) = x1) :
    (StableHlo.after hostOps0 V (Proc.devRef .tc main_v5) : (⟨S2550000, .i32⟩ : BufTy).Contents (Elt F)) = val_main_v5 (F := F) x1 := by
  after_results
  rw [h1]
  rfl
theorem step0_v6 (h1 : (V (Proc.devRef .tc main_arg1) : (⟨S2x2400000, .i32⟩ : BufTy).Contents (Elt F)) = x1) :
    (StableHlo.after hostOps0 V (Proc.devRef .tc main_v6) : (⟨S2550000, .i32⟩ : BufTy).Contents (Elt F)) = val_main_v6 (F := F) x1 := by
  after_results
  rw [h1]
  rfl
theorem step0_v8 (h2 : (V (Proc.devRef .tc main_arg2) : (⟨S2400000, .f32⟩ : BufTy).Contents (Elt F)) = x2) :
    (StableHlo.after hostOps0 V (Proc.devRef .tc main_v8) : (⟨S2550000, .f32⟩ : BufTy).Contents (Elt F)) = val_main_v8 (F := F) x2 := by
  after_results
  rw [h2]
  rfl
theorem step0_v13 (h1 : (V (Proc.devRef .tc main_arg1) : (⟨S2x2400000, .i32⟩ : BufTy).Contents (Elt F)) = x1)
    (h2 : (V (Proc.devRef .tc main_arg2) : (⟨S2400000, .f32⟩ : BufTy).Contents (Elt F)) = x2) :
    (StableHlo.after hostOps0 V (Proc.devRef .tc main_v13) : (⟨S150000, .i1⟩ : BufTy).Contents (Elt F)) = val_main_v13 (F := F) x1 x2 := by
  after_results
  rw [h1, h2]
  rfl
theorem step0_v14 (h1 : (V (Proc.devRef .tc main_arg1) : (⟨S2x2400000, .i32⟩ : BufTy).Contents (Elt F)) = x1)
    (h2 : (V (Proc.devRef .tc main_arg2) : (⟨S2400000, .f32⟩ : BufTy).Contents (Elt F)) = x2) :
    (StableHlo.after hostOps0 V (Proc.devRef .tc main_v14) : (⟨S150000, .f32⟩ : BufTy).Contents (Elt F)) = val_main_v14 (F := F) x1 x2 := by
  after_results
  rw [h1, h2]
  rfl
theorem step0_cst2 :
    (StableHlo.after hostOps0 V (Proc.devRef .tc main_cst_2) : (⟨S_, .f32⟩ : BufTy).Contents (Elt F)) = val_main_cst_2 (F := F) := by
  after_results
  rfl

/-! ### The selection of the inverse square roots of the positive degrees -/

theorem step01_v15 (h13 : (V (Proc.devRef .tc main_v13) : (⟨S150000, .i1⟩ : BufTy).Contents (Elt F)) = val_main_v13 (F := F) x1 x2)
    (h14 : (V (Proc.devRef .tc main_v14) : (⟨S150000, .f32⟩ : BufTy).Contents (Elt F)) = val_main_v14 (F := F) x1 x2)
    (hc : (V (Proc.devRef .tc main_cst_2) : (⟨S_, .f32⟩ : BufTy).Contents (Elt F)) = val_main_cst_2 (F := F)) :
    (StableHlo.after hostOps0_1 V (Proc.devRef .tc main_v15) : (⟨S150000, .f32⟩ : BufTy).Contents (Elt F)) = val_main_v15 (F := F) x1 x2 := by
  after_results
  rw [h13, h14, hc]
  rfl

/-! ### The normalised weight of every edge -/

theorem step02_v31 (h5 : (V (Proc.devRef .tc main_v5) : (⟨S2550000, .i32⟩ : BufTy).Contents (Elt F)) = val_main_v5 (F := F) x1)
    (h6 : (V (Proc.devRef .tc main_v6) : (⟨S2550000, .i32⟩ : BufTy).Contents (Elt F)) = val_main_v6 (F := F) x1)
    (h8 : (V (Proc.devRef .tc main_v8) : (⟨S2550000, .f32⟩ : BufTy).Contents (Elt F)) = val_main_v8 (F := F) x2)
    (h15 : (V (Proc.devRef .tc main_v15) : (⟨S150000, .f32⟩ : BufTy).Contents (Elt F)) = val_main_v15 (F := F) x1 x2) :
    (StableHlo.after hostOps0_2 V (Proc.devRef .tc main_v31) : (⟨S2550000, .f32⟩ : BufTy).Contents (Elt F)) = val_main_v31 (F := F) x1 x2 := by
  after_results_simp
  rw [h5, h6, h8, h15]
  rfl

/-! ### The gather of the source rows, and the weights as a column -/

theorem step1_v39 (h5 : (V (Proc.devRef .tc main_v5) : (⟨S2550000, .i32⟩ : BufTy).Contents (Elt F)) = val_main_v5 (F := F) x1)
    (h32 : (V (Proc.devRef .tc main_v32) : (⟨S150000x32, .f32⟩ : BufTy).Contents (Elt F)) = val_main_v32 (F := F) x0 x3) :
    (StableHlo.after hostOps1 V (Proc.devRef .tc main_v39) : (⟨S2550000x32, .f32⟩ : BufTy).Contents (Elt F)) = val_main_v40 (F := F) x0 x1 x3 := by
  after_results
  rw [h5, h32]
  rfl
theorem step1_v40 (h31 : (V (Proc.devRef .tc main_v31) : (⟨S2550000, .f32⟩ : BufTy).Contents (Elt F)) = val_main_v31 (F := F) x1 x2) :
    (StableHlo.after hostOps1 V (Proc.devRef .tc main_v40) : (⟨S2550000x1, .f32⟩ : BufTy).Contents (Elt F)) = val_main_v33 (F := F) x1 x2 := by
  after_results
  rw [h31]
  rfl

/-! ### The accumulating scatter onto the target rows, and the bias as a row -/

theorem step2_v44 (h6 : (V (Proc.devRef .tc main_v6) : (⟨S2550000, .i32⟩ : BufTy).Contents (Elt F)) = val_main_v6 (F := F) x1)
    (h41 : (V (Proc.devRef .tc main_v41) : (⟨S2550000x32, .f32⟩ : BufTy).Contents (Elt F)) = val_main_v42 (F := F) x0 x1 x2 x3) :
    (StableHlo.after hostOps2 V (Proc.devRef .tc main_v44) : (⟨S150000x32, .f32⟩ : BufTy).Contents (Elt F)) = val_main_v45 (F := F) x0 x1 x2 x3 := by
  after_results
  rw [h6, h41]
  rfl
theorem step2_v45 (h4 : (V (Proc.devRef .tc main_arg4) : (⟨S32, .f32⟩ : BufTy).Contents (Elt F)) = x4) :
    (StableHlo.after hostOps2 V (Proc.devRef .tc main_v45) : (⟨S1x32, .f32⟩ : BufTy).Contents (Elt F)) = val_main_v46 (F := F) x4 := by
  after_results
  rw [h4]
  exact shapeCast_row_eq_broadcastInDim x4 _ _

end Steps

/-! ## The boundaries of the run -/

section Boundaries
open Cert.ReferenceIdeal.ReadP

/-! ### A buffer a stretch or a region does not write keeps its contents -/

theorem keep_0_1 (b : Ref sig .tc) (h : b ∉ wr0) : W1 m ρ c (Proc.devRef .tc b) = W0 m ρ c (Proc.devRef .tc b) :=
  StableHlo.after_of_writes_sub hostOps0 _ writes0 h
theorem keep_1_2 (b : Ref sig .tc) (h : b ∉ wr01) : W2 m ρ c (Proc.devRef .tc b) = W1 m ρ c (Proc.devRef .tc b) :=
  StableHlo.after_of_writes_sub hostOps0_1 _ writes01 h
theorem keep_2_3 (b : Ref sig .tc) (h : b ∉ wr02) : W3 m ρ c (Proc.devRef .tc b) = W2 m ρ c (Proc.devRef .tc b) :=
  StableHlo.after_of_writes_sub hostOps0_2 _ writes02 h
theorem keep_4_5 (b : Ref sig .tc) (h : b ∉ wr1) : W5 m ρ c (Proc.devRef .tc b) = W4 m ρ c (Proc.devRef .tc b) :=
  StableHlo.after_of_writes_sub hostOps1 _ writes1 h
theorem keep_6_7 (b : Ref sig .tc) (h : b ∉ wr2) : W7 m ρ c (Proc.devRef .tc b) = W6 m ρ c (Proc.devRef .tc b) :=
  StableHlo.after_of_writes_sub hostOps2 _ writes2 h

/-- A launch argument is as launched at the first region's entry. -/
theorem keep_0_3 (b : Ref sig .tc) (h0 : b ∉ wr0) (h01 : b ∉ wr01) (h02 : b ∉ wr02) :
    W3 m ρ c (Proc.devRef .tc b) = W0 m ρ c (Proc.devRef .tc b) :=
  (keep_2_3 m ρ c b h02).trans ((keep_1_2 m ρ c b h01).trans (keep_0_1 m ρ c b h0))
/-- From the first region's entry to the second's. -/
theorem keep_3_5 (b : Ref sig .tc) (h0 : ∀ w, Pipeline.arrRef spec0 w ≠ b) (h1 : b ∉ wr1) :
    W5 m ρ c (Proc.devRef .tc b) = W3 m ρ c (Proc.devRef .tc b) :=
  (keep_4_5 m ρ c b h1).trans (W4_of_ne m ρ c b h0)
/-- From the second region's entry to the third's. -/
theorem keep_5_7 (b : Ref sig .tc) (h1 : ∀ w, Pipeline.arrRef spec1 w ≠ b) (h2 : b ∉ wr2) :
    W7 m ρ c (Proc.devRef .tc b) = W5 m ρ c (Proc.devRef .tc b) :=
  (keep_6_7 m ρ c b h2).trans (W6_of_ne m ρ c b h1)
/-- From the first region's entry to the third region's exit. -/
theorem keep_3_8 (b : Ref sig .tc) (h0 : ∀ w, Pipeline.arrRef spec0 w ≠ b) (h1 : b ∉ wr1)
    (h1' : ∀ w, Pipeline.arrRef spec1 w ≠ b) (h2 : b ∉ wr2) (h2' : ∀ w, Pipeline.arrRef spec2 w ≠ b) :
    W8 m ρ c (Proc.devRef .tc b) = W3 m ρ c (Proc.devRef .tc b) :=
  (W8_of_ne m ρ c b h2').trans ((keep_5_7 m ρ c b h1' h2).trans (keep_3_5 m ρ c b h0 h1))

/-! ### After the first stretch -/

theorem v5_at1 : (W1 m ρ c (Proc.devRef .tc main_v5) : IVec S2550000 32) = val_main_v5 (F := Ideal) (a1 m c) :=
  step0_v5 (W0 m ρ c) (a1 m c) rfl
theorem v6_at1 : (W1 m ρ c (Proc.devRef .tc main_v6) : IVec S2550000 32) = val_main_v6 (F := Ideal) (a1 m c) :=
  step0_v6 (W0 m ρ c) (a1 m c) rfl
theorem v8_at1 : (W1 m ρ c (Proc.devRef .tc main_v8) : FVec Ideal S2550000 .f32) = val_main_v8 (F := Ideal) (a2 m c) :=
  step0_v8 (W0 m ρ c) (a2 m c) rfl
theorem v13_at1 : (W1 m ρ c (Proc.devRef .tc main_v13) : IVec S150000 1) = val_main_v13 (F := Ideal) (a1 m c) (a2 m c) :=
  step0_v13 (W0 m ρ c) (a1 m c) (a2 m c) rfl rfl
theorem v14_at1 : (W1 m ρ c (Proc.devRef .tc main_v14) : FVec Ideal S150000 .f32) = val_main_v14 (F := Ideal) (a1 m c) (a2 m c) :=
  step0_v14 (W0 m ρ c) (a1 m c) (a2 m c) rfl rfl
theorem cst2_at1 : (W1 m ρ c (Proc.devRef .tc main_cst_2) : FVec Ideal S_ .f32) = val_main_cst_2 (F := Ideal) :=
  step0_cst2 (W0 m ρ c)

/-! ### After the selection -/

theorem v15_at2 : (W2 m ρ c (Proc.devRef .tc main_v15) : FVec Ideal S150000 .f32) = val_main_v15 (F := Ideal) (a1 m c) (a2 m c) :=
  step01_v15 (W1 m ρ c) (a1 m c) (a2 m c) (v13_at1 m ρ c) (v14_at1 m ρ c) (cst2_at1 m ρ c)

/-! ### At the first region's entry -/

/-- At the first region's entry: the source-node indices (edges, then the self-loops). -/
theorem row_at3 : (W3 m ρ c (Proc.devRef .tc main_v5) : IVec S2550000 32) = Cert.ReferenceIdeal.ReadP.val_main_v5 (F := Ideal) (a1 m c) :=
  ((keep_2_3 m ρ c main_v5 (by decide)).trans (keep_1_2 m ρ c main_v5 (by decide))).trans (v5_at1 m ρ c)
/-- … the target-node indices. -/
theorem col_at3 : (W3 m ρ c (Proc.devRef .tc main_v6) : IVec S2550000 32) = Cert.ReferenceIdeal.ReadP.val_main_v6 (F := Ideal) (a1 m c) :=
  ((keep_2_3 m ρ c main_v6 (by decide)).trans (keep_1_2 m ρ c main_v6 (by decide))).trans (v6_at1 m ρ c)
/-- … the symmetric normalisation weight of every edge. -/
theorem norm_at3 : (W3 m ρ c (Proc.devRef .tc main_v31) : FVec Ideal S2550000 .f32) = Cert.ReferenceIdeal.ReadP.val_main_v31 (F := Ideal) (a1 m c) (a2 m c) :=
  step02_v31 (W2 m ρ c) (a1 m c) (a2 m c)
    ((keep_1_2 m ρ c main_v5 (by decide)).trans (v5_at1 m ρ c))
    ((keep_1_2 m ρ c main_v6 (by decide)).trans (v6_at1 m ρ c))
    ((keep_1_2 m ρ c main_v8 (by decide)).trans (v8_at1 m ρ c))
    (v15_at2 m ρ c)

/-! ### The first dense layer's product -/

theorem dense_at4 : (W4 m ρ c (Proc.devRef .tc main_v32) : FVec Ideal S150000x32 .f32)
    = val_main_v32 (F := Ideal) (a0 m c) (a3 m c) := by
  have e0 : (V3 m ρ c main_arg0 : FVec Ideal S150000x9 .f32) = a0 m c :=
    keep_0_3 m ρ c main_arg0 (by decide) (by decide) (by decide)
  have e3 : (V3 m ρ c main_arg3 : FVec Ideal S9x32 .f32) = a3 m c :=
    keep_0_3 m ρ c main_arg3 (by decide) (by decide) (by decide)
  refine (W4_arr m ρ c 2).trans ?_
  refine (Cert.Gcn.Dense.array0 (V3 m ρ) c Cert.ReferenceIdeal.dot_S150000x9_S9x32_S150000x32_1_0_0_1_n_n rfl).trans ?_
  rw [e0, e3]
  rfl

/-! ### The gathered rows and the weight column, then their product -/

theorem rows_at5 : (W5 m ρ c (Proc.devRef .tc main_v39) : FVec Ideal S2550000x32 .f32)
    = val_main_v40 (F := Ideal) (a0 m c) (a1 m c) (a3 m c) :=
  step1_v39 (W4 m ρ c) (a0 m c) (a1 m c) (a3 m c)
    ((W4_of_ne m ρ c main_v5 (by decide)).trans (row_at3 m ρ c)) (dense_at4 m ρ c)
theorem wcol_at5 : (W5 m ρ c (Proc.devRef .tc main_v40) : FVec Ideal S2550000x1 .f32)
    = val_main_v33 (F := Ideal) (a1 m c) (a2 m c) :=
  step1_v40 (W4 m ρ c) (a1 m c) (a2 m c) ((W4_of_ne m ρ c main_v31 (by decide)).trans (norm_at3 m ρ c))

theorem scaled_at6 : (W6 m ρ c (Proc.devRef .tc main_v41) : FVec Ideal S2550000x32 .f32)
    = val_main_v42 (F := Ideal) (a0 m c) (a1 m c) (a2 m c) (a3 m c) := by
  have e39 : (V5 m ρ c main_v39 : FVec Ideal S2550000x32 .f32) = _ := rows_at5 m ρ c
  have e40 : (V5 m ρ c main_v40 : FVec Ideal S2550000x1 .f32) = _ := wcol_at5 m ρ c
  refine (W6_arr m ρ c 2).trans ?_
  refine (Cert.Gcn.Scale.array1 (V5 m ρ) c Cert.ReferenceIdeal.Gen.bcast_S2550000x1_S2550000x32_0_1).trans ?_
  rw [e39, e40]
  rfl

/-! ### The aggregated rows and the bias row, then the rectified sum -/

theorem agg_at7 : (W7 m ρ c (Proc.devRef .tc main_v44) : FVec Ideal S150000x32 .f32)
    = val_main_v45 (F := Ideal) (a0 m c) (a1 m c) (a2 m c) (a3 m c) :=
  step2_v44 (W6 m ρ c) (a0 m c) (a1 m c) (a2 m c) (a3 m c)
    ((W6_of_ne m ρ c main_v6 (by decide)).trans ((keep_3_5 m ρ c main_v6 (by decide) (by decide)).trans (col_at3 m ρ c)))
    (scaled_at6 m ρ c)
theorem bias_at7 : (W7 m ρ c (Proc.devRef .tc main_v45) : FVec Ideal S1x32 .f32) = val_main_v46 (F := Ideal) (a4 m c) :=
  step2_v45 (W6 m ρ c) (a4 m c)
    ((W6_of_ne m ρ c main_arg4 (by decide)).trans ((keep_3_5 m ρ c main_arg4 (by decide) (by decide)).trans
      (keep_0_3 m ρ c main_arg4 (by decide) (by decide) (by decide))))

/-- After the third region (the first layer's output, the second dense layer's input): the rectified features. -/
theorem hidden_at8 : (W8 m ρ c (Proc.devRef .tc main_v46) : FVec Ideal S150000x32 .f32)
    = Cert.ReferenceIdeal.ReadP.val_main_v49 (F := Ideal) (a0 m c) (a1 m c) (a2 m c) (a3 m c) (a4 m c) := by
  have e44 : (V7 m ρ c main_v44 : FVec Ideal S150000x32 .f32) = _ := agg_at7 m ρ c
  have e45 : (V7 m ρ c main_v45 : FVec Ideal S1x32 .f32) = _ := bias_at7 m ρ c
  refine (W8_arr m ρ c 2).trans ?_
  refine (Cert.Gcn.BiasRelu.array2 (V7 m ρ) c Cert.ReferenceIdeal.Gen.bcast_S1x32_S150000x32_0_1
    Cert.ReferenceIdeal.Gen.bcast_S_S150000x32).trans ?_
  rw [e44, e45]
  rfl

/-! ### What the first layer leaves untouched -/

/-- The index and weight arrays are still what they were, and the second layer's parameters are as launched. -/
theorem row_at8 : (W8 m ρ c (Proc.devRef .tc main_v5) : IVec S2550000 32) = Cert.ReferenceIdeal.ReadP.val_main_v5 (F := Ideal) (a1 m c) :=
  (keep_3_8 m ρ c main_v5 (by decide) (by decide) (by decide) (by decide) (by decide)).trans (row_at3 m ρ c)
theorem col_at8 : (W8 m ρ c (Proc.devRef .tc main_v6) : IVec S2550000 32) = Cert.ReferenceIdeal.ReadP.val_main_v6 (F := Ideal) (a1 m c) :=
  (keep_3_8 m ρ c main_v6 (by decide) (by decide) (by decide) (by decide) (by decide)).trans (col_at3 m ρ c)
theorem norm_at8 : (W8 m ρ c (Proc.devRef .tc main_v31) : FVec Ideal S2550000 .f32) = Cert.ReferenceIdeal.ReadP.val_main_v31 (F := Ideal) (a1 m c) (a2 m c) :=
  (keep_3_8 m ρ c main_v31 (by decide) (by decide) (by decide) (by decide) (by decide)).trans (norm_at3 m ρ c)
theorem w2_at8 : (W8 m ρ c (Proc.devRef .tc main_arg5) : FVec Ideal S32x7 .f32) = a5 m c :=
  (keep_3_8 m ρ c main_arg5 (by decide) (by decide) (by decide) (by decide) (by decide)).trans
    (keep_0_3 m ρ c main_arg5 (by decide) (by decide) (by decide))
theorem b2_at8 : (W8 m ρ c (Proc.devRef .tc main_arg6) : FVec Ideal S7 .f32) = a6 m c :=
  (keep_3_8 m ρ c main_arg6 (by decide) (by decide) (by decide) (by decide) (by decide)).trans
    (keep_0_3 m ρ c main_arg6 (by decide) (by decide) (by decide))

end Boundaries

end Cert.Gcn.Layer1

end
-- ==== Proof.LibReal.lean ====
/-
  Arrays of extended reals all of whose entries are real numbers.

  At the extended reals the field laws hold only away from the two infinities, so a value proof that needs a law
  (here: regrouping a difference) first shows that the arrays it is applied to hold real numbers only.  Being real is
  preserved by every operation of a dense / gather / scale / scatter-add network: sums and products of reals are
  real, a maximum of reals is real, a gather reads entries of its operand, an accumulating scatter adds finitely many
  update entries to an operand entry, a contraction is a finite sum of products, and layout operations only move
  entries around.
-/
import Idealize.ShloMosaic.PureOps.Ideal
import Idealize.ShloMosaic.PureOps.Ideal.Laws
import Idealize.ShloMosaic.PureOps.Contract
import Idealize.ShloMosaic.Lib.Pipeline.Value

noncomputable section

namespace Cert.LibReal

open Idealize.ShloMosaic

/-- An extended real that is a real number. -/
def IsReal (x : EReal) : Prop := ∃ r : ℝ, x = (r : EReal)

/-- Every entry of the array is a real number. -/
def AllReal {ι : Type} (v : ι → EReal) : Prop := ∀ i, IsReal (v i)

theorem IsReal.coe (r : ℝ) : IsReal (r : EReal) := ⟨r, rfl⟩
theorem IsReal.zero : IsReal (0 : EReal) := ⟨0, rfl⟩
theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

theorem IsReal.ne_top {x : EReal} (hx : IsReal x) : x ≠ ⊤ := by
  obtain ⟨a, rfl⟩ := hx; exact EReal.coe_ne_top a
theorem IsReal.ne_bot {x : EReal} (hx : IsReal x) : x ≠ ⊥ := by
  obtain ⟨a, rfl⟩ := hx; exact EReal.coe_ne_bot a

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

end Cert.LibReal

end
-- ==== Proof.LibLogSoftmax.lean ====
/-
  The logarithm of a softmax along the rows of a matrix, in its two usual arrangements.

  With m(p) the maximum of row p and  S(p) = Σ_k exp (h(p, k) − m(p)),  a kernel computes
      h(p, q) − (m(p) + log S(p))
  and the host library computes
      (h(p, q) − m(p)) − log S(p).
  On the extended reals a difference does not regroup in general (∞ − ∞ is a convention), but when every entry of h is
  a real number so is m(p), and then  a − (b + L) = (a − b) − L  for real a, b and ANY extended real L.
-/
import Idealize.ShloMosaic.PureOps.Ideal
import Idealize.ShloMosaic.PureOps.Ideal.Laws
import Idealize.ShloMosaic.Lib.ValueIdx
import proofs.«130592_j83064667505278_1_alg».proof.Proof.LibReal

noncomputable section

namespace Cert.LibLogSoftmax

open Idealize.ShloMosaic Idealize.ShloMosaic.ValueIdx Cert.LibReal

variable {R C : Nat}

/-- The maximum of row `p`, taken from −∞. -/
def rowMax (h : (⟨2, ![R, C]⟩ : Shape).Idx → EReal) (p : Fin R) : EReal :=
  (Finset.univ : Finset (Fin C)).fold max ⊥ (fun k => h (ix2 p k))

/-- The sum over row `p` of the exponentials of the entries less the row's maximum. -/
def rowSumExp (h : (⟨2, ![R, C]⟩ : Shape).Idx → EReal) (p : Fin R) : EReal :=
  ∑ k : Fin C, Ideal.exp (h (ix2 p k) - rowMax h p)

/-- The kernel's arrangement: the entry less (the row's maximum plus the logarithm of the shifted sum). -/
def lseForm (h : (⟨2, ![R, C]⟩ : Shape).Idx → EReal) : (⟨2, ![R, C]⟩ : Shape).Idx → EReal :=
  fun i => h i - (rowMax h (i 0) + Ideal.log (rowSumExp h (i 0)))

/-- The host's arrangement: the shifted entry less the logarithm of the shifted sum. -/
def shiftForm (h : (⟨2, ![R, C]⟩ : Shape).Idx → EReal) : (⟨2, ![R, C]⟩ : Shape).Idx → EReal :=
  fun i => (h i - rowMax h (i 0)) - Ideal.log (rowSumExp h (i 0))

/-- Regrouping a difference: for real `a`, `b` and any extended real `L`. -/
theorem sub_add_eq_sub_sub_of_real {a b : EReal} (ha : IsReal a) (hb : IsReal b) (L : EReal) :
    a - (b + L) = (a - b) - L := by
  -- With a = x and b = y real, split on L: at −∞ both sides are +∞, at +∞ both are −∞, at a real it is the real law.
  obtain ⟨x, rfl⟩ := ha
  obtain ⟨y, rfl⟩ := hb
  induction L using EReal.rec with
  | bot =>
    rw [EReal.add_bot, EReal.coe_sub_bot, ← EReal.coe_sub, EReal.coe_sub_bot]
  | coe l =>
    rw [← EReal.coe_add, ← EReal.coe_sub, ← EReal.coe_sub, ← EReal.coe_sub, sub_add_eq_sub_sub]
  | top =>
    rw [EReal.coe_add_top, EReal.sub_top, EReal.sub_top]

/-- A non-empty row of real numbers has a real maximum. -/
theorem rowMax_isReal (h : (⟨2, ![R, C]⟩ : Shape).Idx → EReal) (hr : AllReal h) (hC : 0 < C) (p : Fin R) :
    IsReal (rowMax h p) := by
  classical
  -- Over any finite set of columns the running maximum from −∞ is −∞ or real, and it is real once the set is non-empty.
  have key : ∀ s : Finset (Fin C),
      (s.fold max ⊥ (fun k => h (ix2 p k)) = ⊥ ∨ IsReal (s.fold max ⊥ (fun k => h (ix2 p k)))) ∧
      (s.Nonempty → IsReal (s.fold max ⊥ (fun k => h (ix2 p k)))) := by
    intro s
    induction s using Finset.induction_on with
    | empty =>
      refine ⟨Or.inl Finset.fold_empty, fun hne => ?_⟩
      exact absurd hne Finset.not_nonempty_empty
    | insert a s ha ih =>
      have hstep : IsReal ((insert a s).fold max ⊥ (fun k => h (ix2 p k))) := by
        rw [Finset.fold_insert ha]
        rcases ih.1 with hb | hre
        · rw [hb, max_bot_right]; exact hr _
        · exact (hr _).max hre
      exact ⟨Or.inr hstep, fun _ => hstep⟩
  exact (key Finset.univ).2 ⟨⟨0, hC⟩, Finset.mem_univ _⟩

/-- On a matrix of real numbers the two arrangements agree. -/
theorem lseForm_eq_shiftForm (h : (⟨2, ![R, C]⟩ : Shape).Idx → EReal) (hr : AllReal h) (hC : 0 < C) :
    lseForm h = shiftForm h := by
  funext i
  exact sub_add_eq_sub_sub_of_real (hr i) (rowMax_isReal h hr hC (i 0)) _

end Cert.LibLogSoftmax

end
-- ==== Proof.BiasLogSoftmax.lean ====
/-
  The bias-and-log-softmax region.  It runs over 50 grid points; point t adds the one-row bias to rows
  3000·t … 3000·t + 2999 of the aggregated features and replaces each row r by  r − (max r + log Σ exp (r − max r)).
  Every row lies in one block, so what the write-backs leave is that arrangement of the log-softmax, row by row, of
  the whole array of biased features.
-/
import proofs.«130592_j83064667505278_1_alg».proof.Proof.Gen.KernelIdeal.Frame
import proofs.«130592_j83064667505278_1_alg».proof.Proof.LibLogSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.BiasLogSoftmax

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibLogSoftmax

-- the TensorCore's buffer contents when the region is entered: any contents
variable (V : (c : Dev nD) → (b : Ref sig .tc) → Buf (Elt Ideal) ((c : Thread nD τ).loc b))

/-! ## The keepdims column forms read at an index -/

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The two row reductions read at a row -/

/-- The index a reduction over the second axis inserts at row `p`, place `k`, is `(p, k)`. -/
theorem lift_row (h : S3000x7.Reduces [1] S3000) (p : Fin 3000) (k : Fin 7) :
    h.lift (ix1 p) k = ix2 p k := by
  funext a
  apply Fin.ext
  match a with
  | ⟨0, _⟩ => rfl
  | ⟨1, _⟩ => rfl

/-- The accumulator word of the maximum is −∞. -/
theorem negInf_word : Ideal.ofBits .f32 0xFF800000#32 = (⊥ : EReal) := by
  simp [Ideal.ofBits, Ideal.ieee]

/-- The row maximum the kernel takes, at row `p`: the fold of `max` from −∞ over the row. -/
theorem rowMax_read (x : FVec Ideal S3000x7 .f32) (h : S3000x7.Reduces [1] S3000) (hφ : FKind.Formats .f32)
    (hacc : (0xFF800000#32 : BitVec 32) = 0xFF800000#32) (p : Fin 3000) :
    multiReduction (F := Ideal) .maximumf [1] S3000 x 0xFF800000#32 h hφ hacc (ix1 p)
      = (Finset.univ : Finset (Fin 7)).fold max ⊥ (fun k => x (ix2 p k)) := by
  refine (Ideal.multiReduction_maximumf_single x _ h hφ hacc (ix1 p)).trans ?_
  have e : (x ∘ h.lift (ix1 p)) = fun k : Fin 7 => x (ix2 p k) := funext fun k => congrArg x (lift_row h p k)
  rw [e, Ideal.ofBits_def, negInf_word]
  rfl

/-- The row sum the kernel takes, at row `p`: the sum over the row. -/
theorem rowSum_read (x : FVec Ideal S3000x7 .f32) (h : S3000x7.Reduces [1] S3000) (hφ : FKind.Formats .f32)
    (hacc : (0x00000000#32 : BitVec 32) = 0x00000000#32) (p : Fin 3000) :
    multiReduction (F := Ideal) .add [1] S3000 x 0x00000000#32 h hφ hacc (ix1 p) = ∑ k : Fin 7, x (ix2 p k) := by
  refine (Ideal.multiReduction_add_single x _ h hφ hacc (ix1 p)).trans ?_
  exact Finset.sum_congr rfl fun k _ => congrArg x (lift_row h p k)

/-! ## The body's arithmetic at an entry -/

/-- The exponential of a vector reads pointwise. -/
theorem exp_apply {s : Shape} (v : FVec Ideal s .f32) (i : s.Idx) : exp v i = Ideal.exp (v i) := rfl
/-- The logarithm of a vector reads pointwise. -/
theorem log_apply {s : Shape} (v : FVec Ideal s .f32) (i : s.Idx) : log v i = Ideal.log (v i) := rfl

/-- The biased features of a block: the block's entry plus the bias row's entry of the same column. -/
def biased (x0 : Vec Ideal S3000x7 .f32) (x1 : Vec Ideal S1x7 .f32) : (⟨2, ![3000, 7]⟩ : Shape).Idx → EReal :=
  fun i => x0 i + x1 (ix2 (0 : Fin 1) (i 1))

/-- The kernel's first sum is the biased block. -/
theorem biased_read (x0 : Vec Ideal S3000x7 .f32) (x1 : Vec Ideal S1x7 .f32) :
    (addf (shapeCast S3000x7 x0 shapeCasts_S3000x7_S3000x7)
        (broadcastTo S3000x7 (shapeCast S1x7 x1 shapeCasts_S1x7_S1x7) broadcasts_S1x7_S3000x7) : FVec Ideal S3000x7 .f32)
      = biased x0 x1 := by
  funext i
  obtain ⟨a, b, rfl⟩ : ∃ (a : Fin 3000) (b : Fin 7), i = ix2 a b := ⟨i 0, i 1, eq_ix2 i⟩
  rw [addf_apply, shapeCast_self, shapeCast_self, broadcastTo_1b_ab_apply]
  rfl

/-- THE BODY AT AN ENTRY: the block's entry (p, q) after the body is the biased entry less the sum of its row's maximum and
    the logarithm of its row's shifted exponential sum. -/
theorem pay_apply (x0 : Vec Ideal S3000x7 .f32) (x1 : Vec Ideal S1x7 .f32) (p : Fin 3000) (q : Fin 7) :
    k5_pay1 (F := Ideal) x0 x1 (ix2 p q) = lseForm (R := 3000) (C := 7) (biased x0 x1) (ix2 p q) := by
  unfold k5_pay1
  dsimp only
  rw [biased_read]
  rw [subf_apply, broadcastTo_a1_ab_apply, addf_apply, log_apply, shapeCast_a_a1_apply, shapeCast_a_a1_apply,
    rowMax_read, rowSum_read]
  show biased x0 x1 (ix2 p q) - (rowMax (biased x0 x1) p + Ideal.log _)
    = biased x0 x1 (ix2 p q) - (rowMax (biased x0 x1) p + Ideal.log (rowSumExp (biased x0 x1) p))
  refine congrArg (fun s => biased x0 x1 (ix2 p q) - (rowMax (biased x0 x1) p + Ideal.log s)) ?_
  unfold rowSumExp
  refine Finset.sum_congr rfl fun k _ => ?_
  rw [exp_apply, subf_apply, broadcastTo_a1_ab_apply, shapeCast_a_a1_apply, rowMax_read]
  rfl

/-! ## From the blocks to the array -/

/-- The whole array's biased feature at (r, k): the aggregated entry plus the bias row's entry of column `k`. -/
theorem biasedArr_apply (A : FVec Ideal S150000x7 .f32) (B : FVec Ideal S1x7 .f32)
    (hb : S1x7.BroadcastsInDim S150000x7 (![0, 1] : Fin 2 → Fin S150000x7.rank)) (r : Fin 150000) (k : Fin 7) :
    addf A (broadcastInDim S150000x7 ![0, 1] hb B) (ix2 r k) = A (ix2 r k) + B (ix2 (0 : Fin 1) k) := by
  rw [addf_apply]
  refine congrArg (fun s => A (ix2 r k) + s) ?_
  refine broadcastInDim_apply _ hb B (ix2 r k) (ix2 (0 : Fin 1) k) fun a => ?_
  match a with
  | ⟨0, _⟩ => rfl
  | ⟨1, _⟩ => rfl

/-- The log-softmax of a row only reads that row: if row `p` of `g` is row `r` of `G`, the entries of the two
    log-softmaxes along those rows agree. -/
theorem lseForm_row {R R' C : Nat} (G : (⟨2, ![R, C]⟩ : Shape).Idx → EReal) (g : (⟨2, ![R', C]⟩ : Shape).Idx → EReal)
    (p : Fin R') (r : Fin R) (hrow : ∀ k : Fin C, g (ix2 p k) = G (ix2 r k)) (q : Fin C) :
    lseForm g (ix2 p q) = lseForm G (ix2 r q) := by
  have hm : rowMax g p = rowMax G r := by
    unfold rowMax
    exact congrArg (fun f => (Finset.univ : Finset (Fin C)).fold max ⊥ f) (funext hrow)
  have hs : rowSumExp g p = rowSumExp G r := by
    unfold rowSumExp
    rw [hm]
    exact Finset.sum_congr rfl fun k _ => by rw [hrow k]
  show g (ix2 p q) - (rowMax g p + Ideal.log (rowSumExp g p)) = G (ix2 r q) - (rowMax G r + Ideal.log (rowSumExp G r))
  rw [hm, hs, hrow q]

/-- A block's origin inside its staging buffer is the zero offset. -/
theorem origin_zero : (![0, 0] : Fin 2 → Nat) = fun _ => 0 := funext fun a => by fin_cases a <;> rfl

/-- The printed index maps, decided over the grid: point `t` reads block row `t` of the aggregated features, the whole
    bias row, and writes block row `t` of the result; the second axis is whole. -/
theorem index_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- WHAT POINT `t` WRITES BACK is block `t` of the log-softmax of the whole array of biased features. -/
theorem flushed_eq (c : Dev nD) (hb : S1x7.BroadcastsInDim S150000x7 (![0, 1] : Fin 2 → Fin S150000x7.rank)) (t : Fin cfg5.N) :
    (dat5 (F := Ideal) V c).flushed 2 t = ((cfg5.win 2).blk t).view.read (Elt Ideal)
      (lseForm (R := 150000) (C := 7) (addf (F := Ideal) (φ := .f32) (V c main_v59 : FVec Ideal S150000x7 .f32) (broadcastInDim S150000x7 ![0, 1] hb (V c main_v60 : FVec Ideal S1x7 .f32)))) := by
  show (cfg5.win 2).cut (grid5.coords t) ((dat5 (F := Ideal) V c).after 2 t) = _
  rw [after5_2]
  unfold out5_2
  rw [View.canon_unit_zero origin_zero]
  simp only [View.ld_unit_zero (S := S3000x7) origin_zero, View.ld_unit_zero (S := S1x7) origin_zero]
  funext j
  obtain ⟨p, q, rfl⟩ : ∃ (p : Fin 3000) (q : Fin 7), j = ix2 p q := ⟨j 0, j 1, eq_ix2 j⟩
  show k5_pay1 (F := Ideal) (iblk5 V c 0 t) (iblk5 V c 1 t) (ix2 p q)
    = lseForm (R := 150000) (C := 7) (addf (F := Ideal) (φ := .f32) (V c main_v59 : FVec Ideal S150000x7 .f32) (broadcastInDim S150000x7 ![0, 1] hb (V c main_v60 : FVec Ideal S1x7 .f32))) (((cfg5.win 2).blk t).view.emb (ix2 p q))
  refine (pay_apply _ _ p q).trans ?_
  obtain ⟨e0, e1, e2, e3, e4, e5⟩ := index_facts t
  have hN : grid5.N = 50 := N_5
  have ht : t.val < 50 := hN ▸ t.isLt
  have hp : p.val < 3000 := p.isLt
  -- the entry (p, q) of the block sits at row 3000·t + p, column q of the array
  have hemb : ((cfg5.win 2).blk t).view.emb (ix2 p q) = ix2 (⟨t.val * 3000 + p.val, by omega⟩ : Fin 150000) q := by
    funext a; apply Fin.ext
    match a with
    | ⟨0, _⟩ => show win5_2.index t (0 : Fin 2) * 3000 + 1 * p.val = t.val * 3000 + p.val; omega
    | ⟨1, _⟩ => show win5_2.index t (1 : Fin 2) * 7 + 1 * q.val = q.val; omega
  rw [hemb]
  refine lseForm_row _ _ p _ (fun k => ?_) q
  rw [biasedArr_apply]
  -- the aggregated block's entry (p, k) is the array's at row 3000·t + p; the bias block is the whole bias row
  have h0 : ((cfg5.win 0).blk t).view.emb (ix2 p k) = ix2 (⟨t.val * 3000 + p.val, by omega⟩ : Fin 150000) k := by
    funext a; apply Fin.ext
    match a with
    | ⟨0, _⟩ => show win5_0.index t (0 : Fin 2) * 3000 + 1 * p.val = t.val * 3000 + p.val; omega
    | ⟨1, _⟩ => show win5_0.index t (1 : Fin 2) * 7 + 1 * k.val = k.val; omega
  have h1 : ((cfg5.win 1).blk t).view.emb (ix2 (0 : Fin 1) k) = ix2 (0 : Fin 1) k := by
    funext a; apply Fin.ext
    match a with
    | ⟨0, _⟩ => show win5_1.index t (0 : Fin 2) * 1 + 1 * 0 = 0; omega
    | ⟨1, _⟩ => show win5_1.index t (1 : Fin 2) * 7 + 1 * k.val = k.val; omega
  exact congrArg₂ (fun a b : EReal => a + b)
    (congrArg (V c main_v59 : FVec Ideal S150000x7 .f32) h0) (congrArg (V c main_v60 : FVec Ideal S1x7 .f32) h1)

/-- An index of the array is in point `t`'s block iff each coordinate is in the block's range on its axis. -/
theorem mem_blk (t : Fin cfg5.N) (i : S150000x7.Idx) :
    i ∈ ((cfg5.win 2).blk t).view.set ↔ ∀ a : Fin 2, win5_2.index t a * S3000x7.size a ≤ (i a).val
      ∧ (i a).val < win5_2.index t a * S3000x7.size a + S3000x7.size a := by
  show i ∈ ((View.whole main_v61).slice (win5_2.rect t)).set ↔ _
  rw [View.set_slice_whole, Rect.mem_set_unit]
  exact Iff.rfl

/-- THE COVER: row `r` of the array is in the block of point `r / 3000`, so the fifty blocks fill the array. -/
theorem cover (i : S150000x7.Idx) :
    ∃ t : Fin cfg5.N, (cfg5.win 2).flush t = true ∧ i ∈ ((cfg5.win 2).blk t).view.set := by
  have hi0 : (i 0).val < 150000 := (i 0).isLt
  have hi1 : (i 1).val < 7 := (i 1).isLt
  have hN : grid5.N = 50 := N_5
  have hlt : (i 0).val / 3000 < grid5.N := by rw [hN]; omega
  obtain ⟨e0, e1, e2, e3, e4, e5⟩ := index_facts ⟨(i 0).val / 3000, hlt⟩
  have e4' : win5_2.index ⟨(i 0).val / 3000, hlt⟩ (0 : Fin 2) = (i 0).val / 3000 := e4
  refine ⟨⟨(i 0).val / 3000, hlt⟩, flush5_2 _, ?_⟩
  rw [mem_blk]
  intro a
  match a with
  | ⟨0, _⟩ =>
    show win5_2.index ⟨(i 0).val / 3000, hlt⟩ (0 : Fin 2) * 3000 ≤ (i 0).val
      ∧ (i 0).val < win5_2.index ⟨(i 0).val / 3000, hlt⟩ (0 : Fin 2) * 3000 + 3000
    omega
  | ⟨1, _⟩ =>
    show win5_2.index ⟨(i 0).val / 3000, hlt⟩ (1 : Fin 2) * 7 ≤ (i 1).val
      ∧ (i 1).val < win5_2.index ⟨(i 0).val / 3000, hlt⟩ (1 : Fin 2) * 7 + 7
    omega

/-- Region 5. -/
theorem array5 (c : Dev nD) (hb : S1x7.BroadcastsInDim S150000x7 (![0, 1] : Fin 2 → Fin S150000x7.rank)) :
    (dat5 (F := Ideal) V c).arrAt 2 cfg5.N
      = lseForm (R := 150000) (C := 7) (addf (F := Ideal) (φ := .f32) (V c main_v59 : FVec Ideal S150000x7 .f32) (broadcastInDim S150000x7 ![0, 1] hb (V c main_v60 : FVec Ideal S1x7 .f32))) :=
  (dat5 (F := Ideal) V c).arrAt_eq_of_cover 2 _ (fun t _ => flushed_eq V c hb t) cover

end Cert.Gcn.BiasLogSoftmax

end
-- ==== Proof.Layer2.lean ====
/-
  The second layer of the kernel's program, boundary by boundary, to the result.

  From the rectified features the program runs the second dense region, the same gather, scaling region and
  accumulating scatter as the reference, and the last region adds the bias and takes the log-softmax of each row in
  the arrangement  h − (max + log Σ exp (h − max)).  So the result array is that arrangement of the reference's
  pre-activation stage `val_main_v66`.
-/
import proofs.«130592_j83064667505278_1_alg».proof.Proof.Gen.KernelIdeal.Frame
import proofs.«130592_j83064667505278_1_alg».proof.Proof.RefRead
import proofs.«130592_j83064667505278_1_alg».proof.Proof.Layer1
import proofs.«130592_j83064667505278_1_alg».proof.Proof.Dense
import proofs.«130592_j83064667505278_1_alg».proof.Proof.Scale
import proofs.«130592_j83064667505278_1_alg».proof.Proof.BiasLogSoftmax
import Idealize.ShloMosaic.Lib.StableHlo.Run
import Idealize.ShloMosaic.Lib.Pipeline.Value

set_option maxRecDepth 16384

noncomputable section

namespace Cert.Gcn.Layer2

open Cert.KernelIdeal Cert.KernelIdeal.Gen
open Idealize.ShloMosaic Idealize.ShloMosaic.TcCoe Idealize.ShloMosaic.ValueIdx Idealize.SL.Sem Idealize.ShloMosaic.StableHlo

-- the launch memory and the generator registers
variable (m : (ℓ : Loc nD τ sig) → Buf (Elt Ideal) ℓ) (ρ : Dev nD → PrngReg) (c : Dev nD)

open Cert.Gcn.Layer1 Cert.LibLogSoftmax

section Boundaries

open Cert.ReferenceIdeal.ReadP

/-! ### After the second dense region -/

/-- The second dense region leaves the reference's product of the rectified features with the second weight. -/
theorem dense_at9 : (W9 m ρ c (Proc.devRef .tc main_v47) : FVec Ideal S150000x7 .f32)
    = val_main_v50 (F := Ideal) (a0 m c) (a1 m c) (a2 m c) (a3 m c) (a4 m c) (a5 m c) := by
  have h := (W9_arr m ρ c 2).trans (Cert.Gcn.Dense.array3 (V8 m ρ) c Cert.ReferenceIdeal.dot_S150000x32_S32x7_S150000x7_1_0_0_1_n_n rfl)
  refine h.trans ?_
  unfold val_main_v50
  rw [← hidden_at8 m ρ c, ← w2_at8 m ρ c]

/-- The region writes no other buffer: the index and weight arrays and the bias are what they were. -/
theorem row_at9 : (W9 m ρ c (Proc.devRef .tc main_v5) : IVec S2550000 32) = val_main_v5 (F := Ideal) (a1 m c) :=
  (W9_of_ne m ρ c main_v5 (by decide)).trans (row_at8 m ρ c)
theorem col_at9 : (W9 m ρ c (Proc.devRef .tc main_v6) : IVec S2550000 32) = val_main_v6 (F := Ideal) (a1 m c) :=
  (W9_of_ne m ρ c main_v6 (by decide)).trans (col_at8 m ρ c)
theorem norm_at9 : (W9 m ρ c (Proc.devRef .tc main_v31) : FVec Ideal S2550000 .f32) = val_main_v31 (F := Ideal) (a1 m c) (a2 m c) :=
  (W9_of_ne m ρ c main_v31 (by decide)).trans (norm_at8 m ρ c)
theorem b2_at9 : (W9 m ρ c (Proc.devRef .tc main_arg6) : FVec Ideal S7 .f32) = a6 m c :=
  (W9_of_ne m ρ c main_arg6 (by decide)).trans (b2_at8 m ρ c)

/-! ### After the host's gather of the source rows -/

/-- The gathered rows of the product (negative indices wrapped as the reference wraps them). -/
theorem gath_at10 : (W10 m ρ c (Proc.devRef .tc main_v54) : FVec Ideal S2550000x7 .f32)
    = val_main_v58 (F := Ideal) (a0 m c) (a1 m c) (a2 m c) (a3 m c) (a4 m c) (a5 m c) := by
  show StableHlo.after hostOps4 (W9 m ρ c) (Proc.devRef .tc main_v54) = _
  after_results
  rw [dense_at9 m ρ c, row_at9 m ρ c]
  rfl

/-- The edge weights as a one-column array. -/
theorem wcol_at10 : (W10 m ρ c (Proc.devRef .tc main_v55) : FVec Ideal S2550000x1 .f32)
    = val_main_v51 (F := Ideal) (a1 m c) (a2 m c) := by
  show StableHlo.after hostOps4 (W9 m ρ c) (Proc.devRef .tc main_v55) = _
  after_results
  rw [norm_at9 m ρ c]
  rfl

theorem col_at10 : (W10 m ρ c (Proc.devRef .tc main_v6) : IVec S2550000 32) = val_main_v6 (F := Ideal) (a1 m c) :=
  (StableHlo.after_of_forall_not_mem (b := Proc.devRef .tc main_v6) _ _ (List.forall_iff_forall_mem.mp (by
      simp only [hostOps4, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (col_at9 m ρ c)
theorem b2_at10 : (W10 m ρ c (Proc.devRef .tc main_arg6) : FVec Ideal S7 .f32) = a6 m c :=
  (StableHlo.after_of_forall_not_mem (b := Proc.devRef .tc main_arg6) _ _ (List.forall_iff_forall_mem.mp (by
      simp only [hostOps4, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (b2_at9 m ρ c)

/-! ### After the second scaling region -/

/-- The scaling region leaves the gathered rows times their edge weights, the reference's product. -/
theorem scaled_at11 : (W11 m ρ c (Proc.devRef .tc main_v56) : FVec Ideal S2550000x7 .f32)
    = val_main_v60 (F := Ideal) (a0 m c) (a1 m c) (a2 m c) (a3 m c) (a4 m c) (a5 m c) := by
  have h := (W11_arr m ρ c 2).trans (Cert.Gcn.Scale.array4 (V10 m ρ) c Cert.ReferenceIdeal.Gen.bcast_S2550000x1_S2550000x7_0_1)
  refine h.trans ?_
  unfold val_main_v60 val_main_v59
  rw [← wcol_at10 m ρ c, ← gath_at10 m ρ c]

theorem col_at11 : (W11 m ρ c (Proc.devRef .tc main_v6) : IVec S2550000 32) = val_main_v6 (F := Ideal) (a1 m c) :=
  (W11_of_ne m ρ c main_v6 (by decide)).trans (col_at10 m ρ c)
theorem b2_at11 : (W11 m ρ c (Proc.devRef .tc main_arg6) : FVec Ideal S7 .f32) = a6 m c :=
  (W11_of_ne m ρ c main_arg6 (by decide)).trans (b2_at10 m ρ c)

/-! ### After the host's accumulating scatter onto the target rows -/

/-- The scattered sums. -/
theorem agg_at12 : (W12 m ρ c (Proc.devRef .tc main_v59) : FVec Ideal S150000x7 .f32)
    = val_main_v63 (F := Ideal) (a0 m c) (a1 m c) (a2 m c) (a3 m c) (a4 m c) (a5 m c) := by
  show StableHlo.after hostOps5 (W11 m ρ c) (Proc.devRef .tc main_v59) = _
  after_results
  rw [scaled_at11 m ρ c, col_at11 m ρ c]
  rfl

/-- A vector of seven entries made a one-row array by a reshape, and by a broadcast along the new row axis: the same
    array, since either reads the vector at the column. -/
theorem reshape_row_eq_broadcast {α : Type} (x : S7.Idx → α) (h : S7.ShapeCasts S1x7)
    (hb : S7.BroadcastsInDim S1x7 (![1] : Fin 1 → Fin S1x7.rank)) :
    shapeCast S1x7 x h = broadcastInDim S1x7 ![1] hb x := by
  funext i
  have h0 : (i 0).val < 1 := (i 0).isLt
  have e1 := shapeCast_apply x h i (fun a => match a with | ⟨0, _⟩ => ⟨(i 1).val, (i 1).isLt⟩) (by
    rw [Shape.rowMajor_val_one, Shape.rowMajor_val_two]
    show (i 1).val = (i 0).val * 7 + (i 1).val
    omega)
  have e2 := broadcastInDim_apply ![1] hb x i (fun a => match a with | ⟨0, _⟩ => ⟨(i 1).val, (i 1).isLt⟩) (fun a => match a with
    | ⟨0, _⟩ => by show (i 1).val = if (7 : Nat) = 1 then 0 else (i 1).val; rw [if_neg (by decide)])
  exact e1.trans e2.symm

/-- The bias as a one-row array: the program reshapes it where the reference broadcasts it. -/
theorem bias_at12 : (W12 m ρ c (Proc.devRef .tc main_v60) : FVec Ideal S1x7 .f32) = val_main_v64 (F := Ideal) (a6 m c) := by
  show StableHlo.after hostOps5 (W11 m ρ c) (Proc.devRef .tc main_v60) = _
  after_results
  show shapeCast S1x7 (W11 m ρ c (Proc.devRef .tc main_arg6) : FVec Ideal S7 .f32) shapeCasts_S7_S1x7 = _
  rw [b2_at11 m ρ c]
  exact reshape_row_eq_broadcast (a6 m c) _ _

end Boundaries

/-- The result array after the last region. -/
theorem result_at13 : (W13 m ρ c (Proc.devRef .tc main_v61) : FVec Ideal S150000x7 .f32)
    = lseForm (R := 150000) (C := 7) (Cert.ReferenceIdeal.ReadP.val_main_v66 (F := Ideal) (a0 m c) (a1 m c) (a2 m c) (a3 m c) (a4 m c) (a5 m c) (a6 m c)) := by
  -- the last region leaves that arrangement of (scattered sums + bias spread over the rows); the two summands are
  -- the reference's stages by the two facts above
  have h := (W13_arr m ρ c 2).trans (Cert.Gcn.BiasLogSoftmax.array5 (V12 m ρ) c Cert.ReferenceIdeal.Gen.bcast_S1x7_S150000x7_0_1)
  refine h.trans (congrArg (lseForm (R := 150000) (C := 7)) ?_)
  unfold Cert.ReferenceIdeal.ReadP.val_main_v66 Cert.ReferenceIdeal.ReadP.val_main_v65
  rw [← agg_at12 m ρ c, ← bias_at12 m ρ c]

end Cert.Gcn.Layer2

end
-- ==== Proof.SoftmaxRef.lean ====
/-
  The reference's last stage, read: it is the host arrangement of the row-wise log-softmax of the pre-activation.

  The library's log_softmax subtracts the row maximum (a reduce-max from −∞, then a maximum with a −∞ splat, which
  changes nothing), exponentiates, sums along the row from 0, takes the logarithm and subtracts it from the shifted
  entry:  (h(p,q) − m(p)) − log Σ_k exp (h(p,k) − m(p)).
-/
import proofs.«130592_j83064667505278_1_alg».proof.Proof.RefRead
import proofs.«130592_j83064667505278_1_alg».proof.Proof.LibLogSoftmax
import Idealize.ShloMosaic.PureOps.Ideal.Laws
import Idealize.ShloMosaic.Lib.ValueIdx
import Idealize.ShloMosaic.Lib.Pipeline.Value

noncomputable section

namespace Cert.Gcn.SoftmaxRef

open Cert.ReferenceIdeal Cert.ReferenceIdeal.Gen Cert.ReferenceIdeal.ReadP
open Idealize.ShloMosaic Idealize.ShloMosaic.ValueIdx Cert.LibReal
open Cert.LibLogSoftmax

/-- The word 0xFF800000 is −∞. -/
theorem ofBits_negInf : Ideal.ofBits .f32 0xFF800000#32 = (⊥ : EReal) := by
  simp [Ideal.ofBits, Ideal.ieee]

/-- Row `p` with column `k` put back is the index (p, k). -/
theorem lift_ix2 (h : S150000x7.Reduces [1] S150000) (p : Fin 150000) (k : Fin 7) :
    h.lift (ix1 p) k = ix2 p k := by
  funext c; apply Fin.ext
  match c with
  | ⟨0, _⟩ => rfl
  | ⟨1, _⟩ => rfl

/-- The two broadcasts (a column of width one, then across the row) read entry (p, q) at row `p`. -/
theorem idx_v3_v4 (p : Fin 150000) (q : Fin 7) : idx_main_call2_v3 (idx_main_call2_v4 (ix2 p q)) = ix1 p := by
  funext a; apply Fin.ext
  match a with
  | ⟨0, _⟩ => rfl

/-- The same two broadcasts after the logarithm. -/
theorem idx_v8_v10 (p : Fin 150000) (q : Fin 7) : idx_main_call2_v8 (idx_main_call2_v10 (ix2 p q)) = ix1 p := by
  funext a; apply Fin.ext
  match a with
  | ⟨0, _⟩ => rfl

/-- The add-reduce's `k`-th operand index at row `p` is (p, k). -/
theorem idx_v7 (p : Fin 150000) (k : Fin 7) : idx_main_call2_v7 (ix1 p) k = ix2 p k := by
  funext a; apply Fin.ext
  match a with
  | ⟨0, _⟩ => rfl
  | ⟨1, _⟩ => rfl

/-- The fold of `max` from −∞ over row `p` with each column put back is the row's maximum. -/
theorem fold_row (y : S150000x7.Idx → EReal) (h : S150000x7.Reduces [1] S150000) (p : Fin 150000) :
    (Finset.univ : Finset (Fin (S150000x7.size 1))).fold max ⊥ (y ∘ h.lift (ix1 p))
      = rowMax (R := 150000) (C := 7) y p := by
  unfold rowMax
  have hf : ∀ k : Fin 7, (y ∘ h.lift (ix1 p)) k = y (ix2 p k) := fun k => congrArg y (lift_ix2 h p k)
  exact Finset.fold_congr fun k _ => hf k

section Stages

variable (x0 : FVec Ideal S150000x9 .f32) (x1 : IVec S2x2400000 32) (x2 : FVec Ideal S2400000 .f32)
    (x3 : FVec Ideal S9x32 .f32) (x4 : FVec Ideal S32 .f32) (x5 : FVec Ideal S32x7 .f32) (x6 : FVec Ideal S7 .f32)

/-- The reduce-max of row `p` from −∞ is the row's maximum. -/
theorem v0_eq_rowMax (p : Fin 150000) :
    val_main_call2_v0 (F := Ideal) x0 x1 x2 x3 x4 x5 x6 (ix1 p)
      = rowMax (R := 150000) (C := 7) (val_main_v66 (F := Ideal) x0 x1 x2 x3 x4 x5 x6) p := by
  unfold val_main_call2_v0
  generalize val_main_v66 (F := Ideal) x0 x1 x2 x3 x4 x5 x6 = y
  have h : S150000x7.Reduces [1] S150000 := by decide
  refine (Host.reduce_eq_fold_single (α := Ideal .f32) FloatOps.maximumf y (val_main_call2_cst (F := Ideal))
    reducesTo_S150000x7_S150000_d1 h h_S_ (ix1 p)).trans ?_
  rw [val_main_call2_cst_apply, Ideal.ofBits_def, ofBits_negInf]
  exact fold_row y h p

/-- The maximum with the −∞ splat changes nothing: the stage is still the row's maximum. -/
theorem v2_eq_rowMax (p : Fin 150000) :
    val_main_call2_v2 (F := Ideal) x0 x1 x2 x3 x4 x5 x6 (ix1 p)
      = rowMax (R := 150000) (C := 7) (val_main_v66 (F := Ideal) x0 x1 x2 x3 x4 x5 x6) p := by
  rw [val_main_call2_v2_apply, val_main_call2_v1_apply, val_main_call2_cst_0_apply, v0_eq_rowMax,
    Ideal.ofBits_def, ofBits_negInf, Ideal.maximumf_def, max_bot_left]

/-- The shifted entry: the pre-activation less its row's maximum. -/
theorem v5_eq (p : Fin 150000) (q : Fin 7) :
    val_main_call2_v5 (F := Ideal) x0 x1 x2 x3 x4 x5 x6 (ix2 p q)
      = val_main_v66 (F := Ideal) x0 x1 x2 x3 x4 x5 x6 (ix2 p q)
        - rowMax (R := 150000) (C := 7) (val_main_v66 (F := Ideal) x0 x1 x2 x3 x4 x5 x6) p := by
  rw [val_main_call2_v5_apply, val_main_call2_v4_apply, val_main_call2_v3_apply, idx_v3_v4, v2_eq_rowMax,
    Ideal.subf_def]

/-- The row's sum, from 0, of the exponentials of the shifted entries. -/
theorem v7_eq_rowSumExp (p : Fin 150000) :
    val_main_call2_v7 (F := Ideal) x0 x1 x2 x3 x4 x5 x6 (ix1 p)
      = rowSumExp (R := 150000) (C := 7) (val_main_v66 (F := Ideal) x0 x1 x2 x3 x4 x5 x6) p := by
  rw [val_main_call2_v7_apply, val_main_call2_cst_1_apply, Ideal.ofBits_def, Ideal.ofBits_zero_f32, zero_add]
  unfold rowSumExp
  refine Finset.sum_congr rfl fun k _ => ?_
  rw [idx_v7, val_main_call2_v6_apply, v5_eq, Ideal.hostUnary_exp_def]

end Stages

/-- The reference's result stage is the host arrangement of the log-softmax of its pre-activation stage. -/
theorem out_eq_shiftForm (x0 : FVec Ideal S150000x9 .f32) (x1 : IVec S2x2400000 32) (x2 : FVec Ideal S2400000 .f32)
    (x3 : FVec Ideal S9x32 .f32) (x4 : FVec Ideal S32 .f32) (x5 : FVec Ideal S32x7 .f32) (x6 : FVec Ideal S7 .f32) :
    val_main_v67 (F := Ideal) x0 x1 x2 x3 x4 x5 x6
      = shiftForm (R := 150000) (C := 7) (val_main_v66 (F := Ideal) x0 x1 x2 x3 x4 x5 x6) := by
  funext i
  obtain ⟨p, q, rfl⟩ : ∃ (p : Fin 150000) (q : Fin 7), i = ix2 p q := ⟨i 0, i 1, eq_ix2 i⟩
  rw [val_main_v67_apply, v5_eq, val_main_call2_v10_apply, val_main_call2_v9_apply, val_main_call2_v8_apply,
    idx_v8_v10, v7_eq_rowSumExp, Ideal.hostUnary_log_def, Ideal.subf_def]
  rfl

end Cert.Gcn.SoftmaxRef

end
-- ==== Proof.RefFinite.lean ====
/-
  Real arguments give a real pre-activation.

  Every stage of the reference from the launch arguments to the array the log-softmax is applied to is a sum, a
  product, a maximum, a selection, a gather, an accumulating scatter, a contraction or a layout operation of earlier
  stages, and the one reciprocal square root is taken under a selection that keeps it only where its argument is
  positive; so if the float arguments hold real numbers, every stage does.
-/
import proofs.«130592_j83064667505278_1_alg».proof.Proof.RefRead
import proofs.«130592_j83064667505278_1_alg».proof.Proof.LibReal
import Idealize.ShloMosaic.PureOps.Ideal.Laws
import Idealize.ShloMosaic.Lib.ValueIdx
import Idealize.ShloMosaic.Lib.Pipeline.Value

noncomputable section

namespace Cert.Gcn.RefFinite

open Cert.ReferenceIdeal Cert.ReferenceIdeal.Gen Cert.ReferenceIdeal.ReadP
open Idealize.ShloMosaic Idealize.ShloMosaic.ValueIdx Cert.LibReal

/-! ### Closure of "every entry is a real number" under the array operations -/

section Closure

variable {s t : Shape}

/-- Entrywise sum of real arrays. -/
theorem AllReal.addf {x y : FVec Ideal s .f32} (hx : AllReal x) (hy : AllReal y) : AllReal (addf x y) :=
  fun i => (hx i).add (hy i)

/-- Entrywise product of real arrays. -/
theorem AllReal.mulf {x y : FVec Ideal s .f32} (hx : AllReal x) (hy : AllReal y) : AllReal (mulf x y) :=
  fun i => (hx i).mul (hy i)

/-- Entrywise maximum of real arrays. -/
theorem AllReal.maximumf {x y : FVec Ideal s .f32} (hx : AllReal x) (hy : AllReal y) : AllReal (maximumf x y) :=
  fun i => (hx i).max (hy i)

/-- A selection takes each entry from one of its two operands. -/
theorem AllReal.select {c : IVec s 1} {x y : s.Idx → EReal} (hx : AllReal x) (hy : AllReal y) :
    AllReal (select c x y) := by
  intro i
  show IsReal (if c i = 1 then x i else y i)
  split
  · exact hx i
  · exact hy i

/-- A broadcast reads entries of its operand. -/
theorem AllReal.broadcastInDim {x : s.Idx → EReal} (hx : AllReal x) (dims : Fin s.rank → Fin t.rank)
    (h : s.BroadcastsInDim t dims) : AllReal (broadcastInDim t dims h x) :=
  fun j => hx _

/-- A gather reads entries of its operand. -/
theorem AllReal.gather {si : Shape} {w : Nat} {x : s.Idx → EReal} (hx : AllReal x) (d : GatherDims s si t)
    (idx : IVec si w) : AllReal (Host.gather d x idx) :=
  fun j => hx _

/-- An accumulating scatter adds finitely many update entries to an operand entry. -/
theorem AllReal.scatterAdd {si u : Shape} {w : Nat} {x : FVec Ideal s .f32} {upd : FVec Ideal u .f32} (hx : AllReal x)
    (hu : AllReal upd) (d : ScatterDims s si u) (idx : IVec si w) : AllReal (Host.scatterAdd d x idx upd) := by
  intro i
  show IsReal (x i + ∑ j ∈ Finset.univ.filter (fun j => d.resultIdx? j idx = some i), upd j)
  exact (hx i).add (IsReal.sum _ _ fun j _ => hu j)

/-- A contraction is zero plus a finite sum of products of entries. -/
theorem AllReal.dotGeneral {sl sr so : Shape} {l : FVec Ideal sl .f32} {r : FVec Ideal sr .f32}
    (hl : AllReal l) (hr : AllReal r) (d : DotDims sl sr so) (prec : Option ContractPrecision) :
    AllReal (Host.dotGeneral d prec l r) := by
  intro j
  show IsReal ((0 : EReal) + ∑ k : d.contr.Idx, l (d.lhsIdx j k) * r (d.rhsIdx j k))
  exact IsReal.zero.add (IsReal.sum _ _ fun k _ => (hl _).mul (hr _))

/-- A concatenation takes each entry from one of its pieces. -/
theorem AllReal.concatenate (a : Fin t.rank) (xs : List ((s : Shape) × (s.Idx → EReal)))
    (h : Shape.Concatenates (xs.map (·.1)) t a) (hxs : ∀ p ∈ xs, AllReal p.2) :
    AllReal (concatenate t a xs h) := by
  intro j
  unfold Idealize.ShloMosaic.concatenate
  exact hxs _ (List.getElem_mem _) _

/-- A two-piece concatenation takes each entry from one of the two pieces. -/
theorem AllReal.concatenate_pair {s₁ s₂ : Shape} (a : Fin t.rank) {x₁ : s₁.Idx → EReal} {x₂ : s₂.Idx → EReal}
    (h : Shape.Concatenates [s₁, s₂] t a) (h₁ : AllReal x₁) (h₂ : AllReal x₂) :
    AllReal (Idealize.ShloMosaic.concatenate t a [⟨s₁, x₁⟩, ⟨s₂, x₂⟩] h) := by
  apply AllReal.concatenate
  intro p hp
  simp only [List.mem_cons, List.not_mem_nil, or_false] at hp
  rcases hp with rfl | rfl
  · exact h₁
  · exact h₂

/-- The array of the word of zero. -/
theorem AllReal.constant_zero : AllReal (constant (F := Ideal) s .f32 0x00000000#32) := by
  intro i
  show IsReal (Ideal.ofBits .f32 0x00000000#32)
  rw [Ideal.ofBits_zero_f32]; exact IsReal.zero

/-- The word 0x3F800000 denotes one. -/
theorem ofBits_one : Ideal.ofBits .f32 0x3F800000#32 = 1 := by
  simp [Ideal.ofBits, Ideal.ieee, -EReal.coe_mul]; norm_num

/-- The array of the word of one. -/
theorem AllReal.constant_one : AllReal (constant (F := Ideal) s .f32 0x3F800000#32) := by
  intro i
  show IsReal (Ideal.ofBits .f32 0x3F800000#32)
  rw [ofBits_one]; exact IsReal.one

/-- The reciprocal square root of a positive real number is a real number. -/
theorem IsReal.rsqrt_of_pos {d : EReal} (hd : IsReal d) (hpos : 0 < d) : IsReal (Ideal.rsqrt d) := by
  obtain ⟨r, rfl⟩ := hd
  have hr : 0 < r := by exact_mod_cast hpos
  show IsReal (if r < 0 then ⊥ else if r = 0 then ⊤ else (((Real.sqrt r)⁻¹ : ℝ) : EReal))
  rw [if_neg (not_lt.mpr hr.le), if_neg hr.ne']
  exact IsReal.coe _

/-- The reciprocal square root kept only where its argument is positive, zero elsewhere: real for a real argument. -/
theorem AllReal.select_rsqrt {d z w : FVec Ideal s .f32} (hd : AllReal d) (hz : ∀ i, z i = 0) (hw : AllReal w) :
    AllReal (Idealize.ShloMosaic.select (cmpf .ogt d z) (Host.rsqrt d) w) := by
  intro i
  show IsReal (if Ideal.cmp .ogt (d i) (z i) = 1 then Ideal.rsqrt (d i) else w i)
  split
  · rename_i hc
    rw [hz i] at hc
    have hpos : (0 : EReal) < d i := by
      by_contra hn
      have : Ideal.cmp .ogt (d i) 0 = 0 := by simp [Ideal.cmp, hn]
      rw [this] at hc; exact absurd hc (by decide)
    exact IsReal.rsqrt_of_pos (hd i) hpos
  · exact hw i

end Closure

/-- The array the log-softmax is applied to holds real numbers when the float arguments do. -/
theorem preact_real (x0 : FVec Ideal S150000x9 .f32) (x1 : IVec S2x2400000 32) (x2 : FVec Ideal S2400000 .f32)
    (x3 : FVec Ideal S9x32 .f32) (x4 : FVec Ideal S32 .f32) (x5 : FVec Ideal S32x7 .f32) (x6 : FVec Ideal S7 .f32)
    (h0 : AllReal x0) (h2 : AllReal x2) (h3 : AllReal x3) (h4 : AllReal x4) (h5 : AllReal x5) (h6 : AllReal x6) :
    AllReal (val_main_v66 (F := Ideal) x0 x1 x2 x3 x4 x5 x6) := by
  -- the edge weights with a unit weight appended for every node's own loop
  have r_cst : AllReal (val_main_cst (F := Ideal)) := by
    unfold val_main_cst; exact AllReal.constant_one
  have r_v7 : AllReal (val_main_v7 (F := Ideal)) := by
    unfold val_main_v7; exact AllReal.broadcastInDim r_cst _ _
  have r_v8 : AllReal (val_main_v8 (F := Ideal) x2) := by
    unfold val_main_v8; exact AllReal.concatenate_pair _ _ h2 r_v7
  -- the weighted degree of every node: a sum of weights
  have r_cst_0 : AllReal (val_main_cst_0 (F := Ideal)) := by
    unfold val_main_cst_0; exact AllReal.constant_zero
  have r_v9 : AllReal (val_main_v9 (F := Ideal)) := by
    unfold val_main_v9; exact AllReal.broadcastInDim r_cst_0 _ _
  have r_v11 : AllReal (val_main_v11 (F := Ideal) x1 x2) := by
    unfold val_main_v11; exact AllReal.scatterAdd r_v9 r_v8 _ _
  -- its reciprocal square root where the degree is positive, zero elsewhere
  have z_v12 : ∀ i, val_main_v12 (F := Ideal) i = 0 := fun i => Ideal.ofBits_zero_f32
  have r_cst_2 : AllReal (val_main_cst_2 (F := Ideal)) := by
    unfold val_main_cst_2; exact AllReal.constant_zero
  have r_call0_v0 : AllReal (val_main_call0_v0 (F := Ideal)) := by
    unfold val_main_call0_v0; exact r_cst_2
  have r_call0_v1 : AllReal (val_main_call0_v1 (F := Ideal)) := by
    unfold val_main_call0_v1; exact AllReal.broadcastInDim r_call0_v0 _ _
  have r_v15 : AllReal (val_main_v15 (F := Ideal) x1 x2) := by
    unfold val_main_v15 val_main_v13 val_main_v14
    exact AllReal.select_rsqrt r_v11 z_v12 r_call0_v1
  -- the normalised weight of every edge: source scale times weight times target scale
  have r_v22 : AllReal (val_main_v22 (F := Ideal) x1 x2) := by
    unfold val_main_v22; exact AllReal.gather r_v15 _ _
  have r_v23 : AllReal (val_main_v23 (F := Ideal) x1 x2) := by
    unfold val_main_v23; exact AllReal.mulf r_v22 r_v8
  have r_v30 : AllReal (val_main_v30 (F := Ideal) x1 x2) := by
    unfold val_main_v30; exact AllReal.gather r_v15 _ _
  have r_v31 : AllReal (val_main_v31 (F := Ideal) x1 x2) := by
    unfold val_main_v31; exact AllReal.mulf r_v23 r_v30
  -- the first layer: dense map, weighted gather, accumulation, bias, rectification
  have r_v32 : AllReal (val_main_v32 (F := Ideal) x0 x3) := by
    unfold val_main_v32; exact AllReal.dotGeneral h0 h3 _ _
  have r_v33 : AllReal (val_main_v33 (F := Ideal) x1 x2) := by
    unfold val_main_v33; exact AllReal.broadcastInDim r_v31 _ _
  have r_v40 : AllReal (val_main_v40 (F := Ideal) x0 x1 x3) := by
    unfold val_main_v40; exact AllReal.gather r_v32 _ _
  have r_v41 : AllReal (val_main_v41 (F := Ideal) x1 x2) := by
    unfold val_main_v41; exact AllReal.broadcastInDim r_v33 _ _
  have r_v42 : AllReal (val_main_v42 (F := Ideal) x0 x1 x2 x3) := by
    unfold val_main_v42; exact AllReal.mulf r_v41 r_v40
  have r_cst_8 : AllReal (val_main_cst_8 (F := Ideal)) := by
    unfold val_main_cst_8; exact AllReal.constant_zero
  have r_v43 : AllReal (val_main_v43 (F := Ideal)) := by
    unfold val_main_v43; exact AllReal.broadcastInDim r_cst_8 _ _
  have r_v45 : AllReal (val_main_v45 (F := Ideal) x0 x1 x2 x3) := by
    unfold val_main_v45; exact AllReal.scatterAdd r_v43 r_v42 _ _
  have r_v46 : AllReal (val_main_v46 (F := Ideal) x4) := by
    unfold val_main_v46; exact AllReal.broadcastInDim h4 _ _
  have r_v47 : AllReal (val_main_v47 (F := Ideal) x4) := by
    unfold val_main_v47; exact AllReal.broadcastInDim r_v46 _ _
  have r_v48 : AllReal (val_main_v48 (F := Ideal) x0 x1 x2 x3 x4) := by
    unfold val_main_v48; exact AllReal.addf r_v45 r_v47
  have r_call1_cst : AllReal (val_main_call1_cst (F := Ideal)) := by
    unfold val_main_call1_cst; exact AllReal.constant_zero
  have r_call1_v0 : AllReal (val_main_call1_v0 (F := Ideal)) := by
    unfold val_main_call1_v0; exact AllReal.broadcastInDim r_call1_cst _ _
  have r_v49 : AllReal (val_main_v49 (F := Ideal) x0 x1 x2 x3 x4) := by
    unfold val_main_v49; exact AllReal.maximumf r_v48 r_call1_v0
  -- the second layer: dense map, weighted gather, accumulation, bias
  have r_v50 : AllReal (val_main_v50 (F := Ideal) x0 x1 x2 x3 x4 x5) := by
    unfold val_main_v50; exact AllReal.dotGeneral r_v49 h5 _ _
  have r_v51 : AllReal (val_main_v51 (F := Ideal) x1 x2) := by
    unfold val_main_v51; exact AllReal.broadcastInDim r_v31 _ _
  have r_v58 : AllReal (val_main_v58 (F := Ideal) x0 x1 x2 x3 x4 x5) := by
    unfold val_main_v58; exact AllReal.gather r_v50 _ _
  have r_v59 : AllReal (val_main_v59 (F := Ideal) x1 x2) := by
    unfold val_main_v59; exact AllReal.broadcastInDim r_v51 _ _
  have r_v60 : AllReal (val_main_v60 (F := Ideal) x0 x1 x2 x3 x4 x5) := by
    unfold val_main_v60; exact AllReal.mulf r_v59 r_v58
  have r_cst_11 : AllReal (val_main_cst_11 (F := Ideal)) := by
    unfold val_main_cst_11; exact AllReal.constant_zero
  have r_v61 : AllReal (val_main_v61 (F := Ideal)) := by
    unfold val_main_v61; exact AllReal.broadcastInDim r_cst_11 _ _
  have r_v63 : AllReal (val_main_v63 (F := Ideal) x0 x1 x2 x3 x4 x5) := by
    unfold val_main_v63; exact AllReal.scatterAdd r_v61 r_v60 _ _
  have r_v64 : AllReal (val_main_v64 (F := Ideal) x6) := by
    unfold val_main_v64; exact AllReal.broadcastInDim h6 _ _
  have r_v65 : AllReal (val_main_v65 (F := Ideal) x6) := by
    unfold val_main_v65; exact AllReal.broadcastInDim r_v64 _ _
  unfold val_main_v66
  exact AllReal.addf r_v63 r_v65

end Cert.Gcn.RefFinite

end
-- ==== Proof.PreReal.lean ====
/-
  The precondition, read: every float argument array holds real numbers only.

  The printed precondition is one bit: the conjunction, over the six float arguments, of "every entry's absolute value
  is below +∞".  An extended real whose absolute value is below +∞ is neither infinity, that is, a real number.
-/
import proofs.«130592_j83064667505278_1_alg».proof.Pre_finite_inputs
import proofs.«130592_j83064667505278_1_alg».proof.Proof.Gen.Pre_finite_inputs
import proofs.«130592_j83064667505278_1_alg».proof.Proof.LibReal
import Idealize.ShloMosaic.Lib.ReduceAll
import Idealize.ShloMosaic.Lib.ValueIdx
import Idealize.ShloMosaic.PureOps.Ideal.Laws

noncomputable section

namespace Cert.Gcn.PreReal

open Idealize.ShloMosaic Cert.LibReal Cert.Pre_finite_inputs Cert.Pre_finite_inputs.Gen

/-- The scalar shape has one index. -/
instance subsingleton_scalarIdx : Subsingleton S_.Idx := ⟨fun a b => funext fun d => d.elim0⟩

/-- The f32 word with all exponent bits set and no fraction bit denotes +∞. -/
theorem ofBits_inf : Ideal.ofBits .f32 0x7F800000#32 = (⊤ : EReal) := by
  simp [Ideal.ofBits, Ideal.ieee]

/-- An extended real whose absolute value, the greater of itself and its negation, is below +∞ is a real number:
    for each infinity that greater one is +∞ itself. -/
theorem isReal_of_abs_lt_top (x : EReal) (h : max x (-x) < ⊤) : IsReal x := by
  induction x using EReal.rec with
  | bot => simp at h
  | coe r => exact ⟨r, rfl⟩
  | top => simp at h

/-- One conjunct of the precondition, for an array of any shape: if the conjunction over all entries of
    "the entry's absolute value is below the splat of +∞" is the set bit, every entry is a real number. -/
theorem allReal_of_all_abs_lt {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    AllReal x := by
  intro i
  have hi := Host.reduce_andi_all _ _ hr hu j e i
  -- the compare at entry i: |x i| against the one entry of the scalar constant, which is +∞
  have hlt : max (x i) (-(x i)) < (⊤ : EReal) := by
    have h1 : Ideal.cmp .olt (max (x i) (-(x i))) (Ideal.ofBits .f32 0x7F800000#32) = 1#1 := hi
    rw [ofBits_inf] at h1
    -- the compare's bit is the truth value of the strict inequality
    have h2 : BitVec.ofBool (decide (max (x i) (-(x i)) < (⊤ : EReal))) = 1#1 := h1
    cases hd : decide (max (x i) (-(x i)) < (⊤ : EReal)) with
    | true => exact of_decide_eq_true hd
    | false => rw [hd] at h2; exact absurd h2 (by decide)
  exact isReal_of_abs_lt_top _ hlt

/-- If the precondition's bit is set, each float argument is an array of real numbers. -/
theorem args_real (x0 : FVec Ideal S150000x9 .f32) (x1 : IVec S2x2400000 32) (x2 : FVec Ideal S2400000 .f32)
    (x3 : FVec Ideal S9x32 .f32) (x4 : FVec Ideal S32 .f32) (x5 : FVec Ideal S32x7 .f32) (x6 : FVec Ideal S7 .f32)
    (h : Cert.Pre_finite_inputs.fn (F := Ideal) x0 x1 x2 x3 x4 x5 x6 = fun _ => 1#1) :
    AllReal x0 ∧ AllReal x2 ∧ AllReal x3 ∧ AllReal x4 ∧ AllReal x5 ∧ AllReal x6 := by
  have h0 := congrFun h ValueIdx.ix0
  dsimp only [Cert.Pre_finite_inputs.fn, Cert.Pre_finite_inputs.fn_part1] at h0
  -- the result is a conjunction of six bits, nested to the left
  obtain ⟨h01234, h6⟩ := IntOp.andi_eq_one.1 h0
  obtain ⟨h0123, h5⟩ := IntOp.andi_eq_one.1 h01234
  obtain ⟨h012, h4⟩ := IntOp.andi_eq_one.1 h0123
  obtain ⟨h01, h3⟩ := IntOp.andi_eq_one.1 h012
  obtain ⟨h0', h2⟩ := IntOp.andi_eq_one.1 h01
  exact ⟨allReal_of_all_abs_lt x0 _ _ _ _ h0', allReal_of_all_abs_lt x2 _ _ _ _ h2,
    allReal_of_all_abs_lt x3 _ _ _ _ h3, allReal_of_all_abs_lt x4 _ _ _ _ h4,
    allReal_of_all_abs_lt x5 _ _ _ _ h5, allReal_of_all_abs_lt x6 _ _ _ _ h6⟩

end Cert.Gcn.PreReal

end
-- ==== Proof.Bridge.lean ====
/-
  The two programs compute one function of the launch arguments.

  The kernel's program ends with its result array at the kernel's arrangement of the row-wise log-softmax of the
  reference's pre-activation stage; under the precondition the float arguments hold real numbers, so the
  pre-activation does, the two arrangements of the log-softmax agree, and the result is the reference's last stage.
  The reference's run ends with its result at that same stage of its own launch arguments, which agree with the
  kernel's.
-/
import proofs.«130592_j83064667505278_1_alg».proof.Defs
import proofs.«130592_j83064667505278_1_alg».proof.Proof.KRun
import proofs.«130592_j83064667505278_1_alg».proof.Proof.Layer2
import proofs.«130592_j83064667505278_1_alg».proof.Proof.SoftmaxRef
import proofs.«130592_j83064667505278_1_alg».proof.Proof.RefFinite
import proofs.«130592_j83064667505278_1_alg».proof.Proof.PreReal
import proofs.«130592_j83064667505278_1_alg».proof.Proof.LibLogSoftmax
import proofs.«130592_j83064667505278_1_alg».proof.Proof.RefRun
import proofs.«130592_j83064667505278_1_alg».proof.Proof.RefStages
import proofs.«130592_j83064667505278_1_alg».proof.Proof.Gen.Pre_finite_inputs
import proofs.«130592_j83064667505278_1_alg».proof.Proof.Gen.ReferenceIdeal
import proofs.«130592_j83064667505278_1_alg».proof.Proof.Gen.KernelIdeal

set_option maxRecDepth 16384

noncomputable section

namespace Cert.Gcn.Bridge

open Idealize.ShloMosaic Idealize.ShloMosaic.TcCoe Idealize.SL.Sem
open Cert.LibReal Cert.LibLogSoftmax

section Kernel
open Cert.KernelIdeal Cert.KernelIdeal.Gen Cert.Gcn.Layer1

variable (m : (ℓ : Loc nD τ sig) → Buf (Elt Ideal) ℓ) (ρ : Dev nD → PrngReg) (c : Dev nD)

/-- Under the precondition the six float arguments hold real numbers. -/
theorem args_real (hpre : Cert.Pre_KernelIdeal m) :
    AllReal (a0 m c) ∧ AllReal (a2 m c) ∧ AllReal (a3 m c) ∧ AllReal (a4 m c) ∧ AllReal (a5 m c) ∧ AllReal (a6 m c) :=
  Cert.Gcn.PreReal.args_real _ (a1 m c) _ _ _ _ _ (hpre c)

/-- The kernel program's result array is the reference's last stage of the launch arguments. -/
theorem kernel_result (hpre : Cert.Pre_KernelIdeal m) :
    (W13 m ρ c (Proc.devRef .tc main_v61) : FVec Ideal S150000x7 .f32)
      = Cert.ReferenceIdeal.ReadP.val_main_v67 (F := Ideal) (a0 m c) (a1 m c) (a2 m c) (a3 m c) (a4 m c) (a5 m c) (a6 m c) := by
  obtain ⟨r0, r2, r3, r4, r5, r6⟩ := args_real m c hpre
  refine (Cert.Gcn.Layer2.result_at13 m ρ c).trans ?_
  refine (lseForm_eq_shiftForm _ (Cert.Gcn.RefFinite.preact_real _ _ _ _ _ _ _ r0 r2 r3 r4 r5 r6) (by decide)).trans ?_
  exact (Cert.Gcn.SoftmaxRef.out_eq_shiftForm _ _ _ _ _ _ _).symm

end Kernel

end Cert.Gcn.Bridge

end
-- ==== Proof.lean ====
/-
  The certificate of the two-layer graph-convolution kernel against its reference.

  The frames of the kernel's two programs are the generated ones; the reference's frame is its run with the result
  dropped; the idealization rewrote nothing.  The value claim: both programs end with the reference's last stage of
  the launch arguments in their result arrays (the kernel's by the boundary-by-boundary reading of its six regions and
  the host operations between them, the reference's by the stage-by-stage evaluation of its operation list), and the
  arguments agree.
-/
import proofs.«130592_j83064667505278_1_alg».proof.Defs
import proofs.«130592_j83064667505278_1_alg».proof.Proof.Gen.Kernel
import proofs.«130592_j83064667505278_1_alg».proof.Proof.Gen.Kernel.Skeleton
import proofs.«130592_j83064667505278_1_alg».proof.Proof.Gen.Kernel.Launch
import proofs.«130592_j83064667505278_1_alg».proof.Proof.Gen.Kernel.Points
import proofs.«130592_j83064667505278_1_alg».proof.Proof.Gen.Kernel.Frame
import proofs.«130592_j83064667505278_1_alg».proof.Proof.Gen.KernelIdeal
import proofs.«130592_j83064667505278_1_alg».proof.Proof.Gen.KernelIdeal.Skeleton
import proofs.«130592_j83064667505278_1_alg».proof.Proof.Gen.KernelIdeal.Launch
import proofs.«130592_j83064667505278_1_alg».proof.Proof.Gen.KernelIdeal.Points
import proofs.«130592_j83064667505278_1_alg».proof.Proof.Gen.KernelIdeal.Frame
import proofs.«130592_j83064667505278_1_alg».proof.Proof.Gen.ReferenceIdeal
import proofs.«130592_j83064667505278_1_alg».proof.Proof.Gen.Pre_finite_inputs
import proofs.«130592_j83064667505278_1_alg».proof.Proof.KRun
import proofs.«130592_j83064667505278_1_alg».proof.Proof.RefRun
import proofs.«130592_j83064667505278_1_alg».proof.Proof.RefStages
import proofs.«130592_j83064667505278_1_alg».proof.Proof.Bridge
import Idealize.ShloMosaic.Adequacy
import Idealize.ShloMosaic.Init

set_option maxRecDepth 16384

noncomputable section

namespace Cert.Proof

open Idealize.ShloMosaic Idealize.SL.Sem

/-- The kernel's word-level program runs and keeps its arguments. -/
theorem frame_Kernel : Cert.frame_Kernel (hKernel := Cert.Kernel.Gen.facts) (hPre_finite_inputs := Cert.Pre_finite_inputs.Gen.facts) :=
  fun m ρ _ => Cert.Kernel.Gen.frame m ρ

/-- So does its idealization. -/
theorem frame_KernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result dropped. -/
theorem frame_ReferenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the reference's last stage of the (agreeing) launch arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  fun m ρ m' ρ' hpre hagree =>
    ⟨fun c => Cert.ReferenceIdeal.ReadP.val_main_v67 (F := Ideal) (Cert.Gcn.Layer1.a0 m c) (Cert.Gcn.Layer1.a1 m c) (Cert.Gcn.Layer1.a2 m c)
        (Cert.Gcn.Layer1.a3 m c) (Cert.Gcn.Layer1.a4 m c) (Cert.Gcn.Layer1.a5 m c) (Cert.Gcn.Layer1.a6 m c),
      (θ_run Cert.KernelIdeal.defs _ _).mono
        (fun _ h c => ⟨(h c).1.trans (Cert.Gcn.Bridge.kernel_result m ρ c hpre), (h c).2⟩)
        (Cert.KernelIdeal.RunResult.run_result (F := Ideal) m ρ),
      (θ_run Cert.ReferenceIdeal.defs _ _).mono
        (fun _ h c => ⟨(h c).1.trans ((Cert.Gcn.RefStages.result_stage (F := Ideal) m' c).trans (by
            rw [(hagree c).1, (hagree c).2.1, (hagree c).2.2.1, (hagree c).2.2.2.1, (hagree c).2.2.2.2.1,
              (hagree c).2.2.2.2.2.1, (hagree c).2.2.2.2.2.2])), (h c).2⟩)
        (Cert.ReferenceIdeal.ValueP.run (F := Ideal) m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
